-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000 : Shape := ⟨1, ![200000]⟩
abbrev S100000 : Shape := ⟨1, ![100000]⟩
abbrev S100000x128 : Shape := ⟨2, ![100000, 128]⟩
abbrev S128x1 : Shape := ⟨2, ![128, 1]⟩
abbrev S128 : Shape := ⟨1, ![128]⟩
abbrev S384x512 : Shape := ⟨2, ![384, 512]⟩
abbrev S384 : Shape := ⟨1, ![384]⟩
abbrev S384x128 : Shape := ⟨2, ![384, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S384x512 : S_.BroadcastsInDim S384x512 (![] : Fin 0 → Fin S384x512.rank)
  reducesTo_S384x512_S_d0_1 : S384x512.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_v45 : IVec S_ 1) (main_v50 : IVec S100000 1) : IVec S_ 1 :=
  let main_c_19 : IVec S_ 1 := constantI S_ 1 1#1
  let main_v51 : IVec S_ 1 := (fun x v => Host.reduce IntOp.andi x v reducesTo_S100000_S_d0 h_S_) main_v50 main_c_19
  let main_v52 : IVec S_ 1 := andi main_v45 main_v51
  main_v52

def fn_part2 {F : FTy → Type} [FloatOps F] (main_arg2 : IVec S100000 32) (main_arg3 : IVec S100000 32) (main_arg11 : FVec F S384 .f32) (main_v33 : IVec S_ 1) : IVec S_ 1 :=
  let main_v34 : FVec F S384 .f32 := Host.absf main_arg11
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_c_14 : IVec S_ 32 := constantI S_ 32 4294767296#32
  let main_v39 : IVec S100000 32 := broadcastInDim S100000 ![] bcast_S_S100000 main_c_14
  let main_v40 : IVec S100000 1 := cmpi .sge main_arg2 main_v39
  let main_c_15 : IVec S_ 32 := constantI S_ 32 200000#32
  let main_v41 : IVec S100000 32 := broadcastInDim S100000 ![] bcast_S_S100000 main_c_15
  let main_v42 : IVec S100000 1 := cmpi .slt main_arg2 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  let main_c_17 : IVec S_ 32 := constantI S_ 32 4294767296#32
  let main_v46 : IVec S100000 32 := broadcastInDim S100000 ![] bcast_S_S100000 main_c_17
  let main_v47 : IVec S100000 1 := cmpi .sge main_arg3 main_v46
  let main_c_18 : IVec S_ 32 := constantI S_ 32 200000#32
  let main_v48 : IVec S100000 32 := broadcastInDim S100000 ![] bcast_S_S100000 main_c_18
  let main_v49 : IVec S100000 1 := cmpi .slt main_arg3 main_v48
  let main_v50 : IVec S100000 1 := andi main_v47 main_v49
  fn_part3 (F := F) main_v45 main_v50

def fn_part1 {F : FTy → Type} [FloatOps F] (main_arg2 : IVec S100000 32) (main_arg3 : IVec S100000 32) (main_arg8 : FVec F S384x512 .f32) (main_arg9 : FVec F S384 .f32) (main_arg10 : FVec F S384x128 .f32) (main_arg11 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x512 .f32 := Host.absf main_arg8
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  let main_v24 : FVec F S384 .f32 := Host.absf main_arg9
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x128 .f32 := Host.absf main_arg10
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg2 main_arg3 main_arg11 main_v33

def fn {F : FTy → Type} [FloatOps F] (main_arg0 : FVec F S200000x128 .f32) (main_arg1 : IVec S200000 32) (main_arg2 : IVec S100000 32) (main_arg3 : IVec S100000 32) (main_arg4 : IVec S100000 32) (main_arg5 : FVec F S100000x128 .f32) (main_arg6 : FVec F S128x1 .f32) (main_arg7 : FVec F S128 .f32) (main_arg8 : FVec F S384x512 .f32) (main_arg9 : FVec F S384 .f32) (main_arg10 : FVec F S384x128 .f32) (main_arg11 : FVec F S384 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x1 .f32 := Host.absf main_arg6
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg8 main_arg9 main_arg10 main_arg11 main_v13 main_v16
-- ==== Kernel.lean ====
abbrev S200000x128 : Shape := ⟨2, ![200000, 128]⟩
abbrev S200000 : Shape := ⟨1, ![200000]⟩
abbrev S100000 : Shape := ⟨1, ![100000]⟩
abbrev S100000x128 : Shape := ⟨2, ![100000, 128]⟩
abbrev S128x1 : Shape := ⟨2, ![128, 1]⟩
abbrev S128 : Shape := ⟨1, ![128]⟩
abbrev S384x512 : Shape := ⟨2, ![384, 512]⟩
abbrev S384 : Shape := ⟨1, ![384]⟩
abbrev S384x128 : Shape := ⟨2, ![384, 128]⟩
abbrev S1x128 : Shape := ⟨2, ![1, 128]⟩
abbrev S512x384 : Shape := ⟨2, ![512, 384]⟩
abbrev S128x384 : Shape := ⟨2, ![128, 384]⟩
abbrev S1x384 : Shape := ⟨2, ![1, 384]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S2000x128 : Shape := ⟨2, ![2000, 128]⟩
abbrev S2000x1 : Shape := ⟨2, ![2000, 1]⟩
abbrev S2000x512 : Shape := ⟨2, ![2000, 512]⟩
abbrev S2000x384 : Shape := ⟨2, ![2000, 384]⟩

abbrev nBuf : Space → Nat
  | .hbm => 253
  | .vmem => 32
  | .smem => 0
  | _ => 0

abbrev hbmTy0_0 (i : Nat) : BufTy := match i % 128 with
  | 0 => ⟨S200000x128, .f32⟩
  | 1 => ⟨S200000, .i32⟩
  | 2 => ⟨S100000, .i32⟩
  | 3 => ⟨S100000, .i32⟩
  | 4 => ⟨S100000, .i32⟩
  | 5 => ⟨S100000x128, .f32⟩
  | 6 => ⟨S128x1, .f32⟩
  | 7 => ⟨S128, .f32⟩
  | 8 => ⟨S384x512, .f32⟩
  | 9 => ⟨S384, .f32⟩
  | 10 => ⟨S384x128, .f32⟩
  | 11 => ⟨S384, .f32⟩
  | 12 => ⟨S128, .f32⟩
  | 13 => ⟨S1x128, .f32⟩
  | 14 => ⟨S1x128, .f32⟩
  | 15 => ⟨S512x384, .f32⟩
  | 16 => ⟨S512x384, .bf16⟩
  | 17 => ⟨S128x384, .f32⟩
  | 18 => ⟨S128x384, .bf16⟩
  | 19 => ⟨S1x384, .f32⟩
  | 20 => ⟨S1x384, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S1, .i32⟩
  | 53 => ⟨S_, .i32⟩
  | 54 => ⟨S100000x1, .i32⟩
  | 55 => ⟨S100000x1, .i1⟩
  | 56 => ⟨S1x1, .i32⟩
  | 57 => ⟨S100000x1, .i32⟩
  | 58 => ⟨S100000x1, .i1⟩
  | 59 => ⟨S100000x1, .i1⟩
  | 60 => ⟨S_, .i1⟩
  | 61 => ⟨S100000, .i1⟩
  | 62 => ⟨S100000x128, .f32⟩
  | 63 => ⟨S100000x128, .i1⟩
  | 64 => ⟨S_, .f32⟩
  | 65 => ⟨S100000x128, .f32⟩
  | 66 => ⟨S100000x128, .f32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S1, .i32⟩
  | 76 => ⟨S_, .i32⟩
  | 77 => ⟨S100000x1, .i32⟩
  | 78 => ⟨S100000x1, .i1⟩
  | 79 => ⟨S1x1, .i32⟩
  | 80 => ⟨S100000x1, .i32⟩
  | 81 => ⟨S100000x1, .i1⟩
  | 82 => ⟨S100000x1, .i1⟩
  | 83 => ⟨S_, .i1⟩
  | 84 => ⟨S100000, .i1⟩
  | 85 => ⟨S100000, .i32⟩
  | 86 => ⟨S_, .i32⟩
  | 87 => ⟨S100000, .i32⟩
  | 88 => ⟨S100000, .i32⟩
  | 89 => ⟨S100000, .i32⟩
  | 90 => ⟨S100000, .f32⟩
  | 91 => ⟨S100000x1, .f32⟩
  | 92 => ⟨S100000x128, .f32⟩
  | 93 => ⟨S100000, .i32⟩
  | 94 => ⟨S_, .i32⟩
  | 95 => ⟨S200000, .i32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S200000, .i32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000, .i32⟩
  | 114 => ⟨S100000, .i1⟩
  | 115 => ⟨S_, .i32⟩
  | 116 => ⟨S_, .i32⟩
  | 117 => ⟨S100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S200000x128, .f32⟩
  | _ => ⟨S200000x128, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S200000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x128, .f32⟩
  | 28 => ⟨S100000x128, .i1⟩
  | 29 => ⟨S_, .f32⟩
  | 30 => ⟨S100000x128, .f32⟩
  | 31 => ⟨S100000x128, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S1, .i32⟩
  | 41 => ⟨S_, .i32⟩
  | 42 => ⟨S100000x1, .i32⟩
  | 43 => ⟨S100000x1, .i1⟩
  | 44 => ⟨S1x1, .i32⟩
  | 45 => ⟨S100000x1, .i32⟩
  | 46 => ⟨S100000x1, .i1⟩
  | 47 => ⟨S100000x1, .i1⟩
  | 48 => ⟨S_, .i1⟩
  | 49 => ⟨S100000, .i1⟩
  | 50 => ⟨S100000x128, .f32⟩
  | 51 => ⟨S100000x128, .i1⟩
  | 52 => ⟨S_, .f32⟩
  | 53 => ⟨S100000x128, .f32⟩
  | 54 => ⟨S100000x128, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S1, .i32⟩
  | 64 => ⟨S_, .i32⟩
  | 65 => ⟨S100000x1, .i32⟩
  | 66 => ⟨S100000x1, .i1⟩
  | 67 => ⟨S1x1, .i32⟩
  | 68 => ⟨S100000x1, .i32⟩
  | 69 => ⟨S100000x1, .i1⟩
  | 70 => ⟨S100000x1, .i1⟩
  | 71 => ⟨S_, .i1⟩
  | 72 => ⟨S100000, .i1⟩
  | 73 => ⟨S100000, .i32⟩
  | 74 => ⟨S_, .i32⟩
  | 75 => ⟨S100000, .i32⟩
  | 76 => ⟨S100000, .i32⟩
  | 77 => ⟨S100000, .i32⟩
  | 78 => ⟨S100000, .f32⟩
  | 79 => ⟨S100000x1, .f32⟩
  | 80 => ⟨S100000x128, .f32⟩
  | 81 => ⟨S100000, .i32⟩
  | 82 => ⟨S_, .i32⟩
  | 83 => ⟨S200000, .i32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S200000, .i32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000, .i32⟩
  | 102 => ⟨S100000, .i1⟩
  | 103 => ⟨S_, .i32⟩
  | 104 => ⟨S_, .i32⟩
  | 105 => ⟨S100000, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S200000x128, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S200000, .i32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S1x128, .f32⟩
  | .local _ .vmem, ⟨9, _⟩ => ⟨S1x128, .f32⟩
  | .local _ .vmem, ⟨10, _⟩ => ⟨S512x384, .bf16⟩
  | .local _ .vmem, ⟨11, _⟩ => ⟨S1x384, .f32⟩
  | .local _ .vmem, ⟨12, _⟩ => ⟨S128x384, .bf16⟩
  | .local _ .vmem, ⟨13, _⟩ => ⟨S1x384, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S1x128, .f32⟩
  | .local _ .vmem, ⟨25, _⟩ => ⟨S1x128, .f32⟩
  | .local _ .vmem, ⟨26, _⟩ => ⟨S512x384, .bf16⟩
  | .local _ .vmem, ⟨27, _⟩ => ⟨S1x384, .f32⟩
  | .local _ .vmem, ⟨28, _⟩ => ⟨S128x384, .bf16⟩
  | .local _ .vmem, ⟨29, _⟩ => ⟨S1x384, .f32⟩
  | .local _ .vmem, ⟨30, _⟩ => ⟨S2000x128, .f32⟩
  | .local _ .vmem, ⟨31, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_call0_c : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_c_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_c_1 : Ref sig .tc := ⟨.hbm, 29, rfl⟩
abbrev main_call0_call0_c_2 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_c_3 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst : Ref sig .tc := ⟨.hbm, 41, rfl⟩
abbrev main_call0_call0_v15 : Ref sig .tc := ⟨.hbm, 42, rfl⟩
abbrev main_call0_v9 : Ref sig .tc := ⟨.hbm, 43, rfl⟩
abbrev main_call0_call1_c : Ref sig .tc := ⟨.hbm, 44, rfl⟩
abbrev main_call0_call1_v0 : Ref sig .tc := ⟨.hbm, 45, rfl⟩
abbrev main_call0_call1_v1 : Ref sig .tc := ⟨.hbm, 46, rfl⟩
abbrev main_call0_call1_c_0 : Ref sig .tc := ⟨.hbm, 47, rfl⟩
abbrev main_call0_call1_v2 : Ref sig .tc := ⟨.hbm, 48, rfl⟩
abbrev main_call0_call1_v3 : Ref sig .tc := ⟨.hbm, 49, rfl⟩
abbrev main_call0_call1_v4 : Ref sig .tc := ⟨.hbm, 50, rfl⟩
abbrev main_call0_call1_v5 : Ref sig .tc := ⟨.hbm, 51, rfl⟩
abbrev main_call0_call1_c_1 : Ref sig .tc := ⟨.hbm, 52, rfl⟩
abbrev main_call0_call1_c_2 : Ref sig .tc := ⟨.hbm, 53, rfl⟩
abbrev main_call0_call1_v6 : Ref sig .tc := ⟨.hbm, 54, rfl⟩
abbrev main_call0_call1_v7 : Ref sig .tc := ⟨.hbm, 55, rfl⟩
abbrev main_call0_call1_v8 : Ref sig .tc := ⟨.hbm, 56, rfl⟩
abbrev main_call0_call1_v9 : Ref sig .tc := ⟨.hbm, 57, rfl⟩
abbrev main_call0_call1_v10 : Ref sig .tc := ⟨.hbm, 58, rfl⟩
abbrev main_call0_call1_v11 : Ref sig .tc := ⟨.hbm, 59, rfl⟩
abbrev main_call0_call1_c_3 : Ref sig .tc := ⟨.hbm, 60, rfl⟩
abbrev main_call0_call1_v12 : Ref sig .tc := ⟨.hbm, 61, rfl⟩
abbrev main_call0_call1_v13 : Ref sig .tc := ⟨.hbm, 62, rfl⟩
abbrev main_call0_call1_v14 : Ref sig .tc := ⟨.hbm, 63, rfl⟩
abbrev main_call0_call1_cst : Ref sig .tc := ⟨.hbm, 64, rfl⟩
abbrev main_call0_call1_v15 : Ref sig .tc := ⟨.hbm, 65, rfl⟩
abbrev main_call0_v10 : Ref sig .tc := ⟨.hbm, 66, rfl⟩
abbrev main_call0_call2_c : Ref sig .tc := ⟨.hbm, 67, rfl⟩
abbrev main_call0_call2_v0 : Ref sig .tc := ⟨.hbm, 68, rfl⟩
abbrev main_call0_call2_v1 : Ref sig .tc := ⟨.hbm, 69, rfl⟩
abbrev main_call0_call2_c_0 : Ref sig .tc := ⟨.hbm, 70, rfl⟩
abbrev main_call0_call2_v2 : Ref sig .tc := ⟨.hbm, 71, rfl⟩
abbrev main_call0_call2_v3 : Ref sig .tc := ⟨.hbm, 72, rfl⟩
abbrev main_call0_call2_v4 : Ref sig .tc := ⟨.hbm, 73, rfl⟩
abbrev main_call0_call2_v5 : Ref sig .tc := ⟨.hbm, 74, rfl⟩
abbrev main_call0_call2_c_1 : Ref sig .tc := ⟨.hbm, 75, rfl⟩
abbrev main_call0_call2_c_2 : Ref sig .tc := ⟨.hbm, 76, rfl⟩
abbrev main_call0_call2_v6 : Ref sig .tc := ⟨.hbm, 77, rfl⟩
abbrev main_call0_call2_v7 : Ref sig .tc := ⟨.hbm, 78, rfl⟩
abbrev main_call0_call2_v8 : Ref sig .tc := ⟨.hbm, 79, rfl⟩
abbrev main_call0_call2_v9 : Ref sig .tc := ⟨.hbm, 80, rfl⟩
abbrev main_call0_call2_v10 : Ref sig .tc := ⟨.hbm, 81, rfl⟩
abbrev main_call0_call2_v11 : Ref sig .tc := ⟨.hbm, 82, rfl⟩
abbrev main_call0_call2_c_3 : Ref sig .tc := ⟨.hbm, 83, rfl⟩
abbrev main_call0_call2_v12 : Ref sig .tc := ⟨.hbm, 84, rfl⟩
abbrev main_call0_call2_v13 : Ref sig .tc := ⟨.hbm, 85, rfl⟩
abbrev main_call0_call2_c_4 : Ref sig .tc := ⟨.hbm, 86, rfl⟩
abbrev main_call0_call2_v14 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_call0_v15 : Ref sig .tc := ⟨.hbm, 92, rfl⟩
abbrev main_call0_v16 : Ref sig .tc := ⟨.hbm, 93, rfl⟩
abbrev main_call0_c : Ref sig .tc := ⟨.hbm, 94, rfl⟩
abbrev main_call0_v17 : Ref sig .tc := ⟨.hbm, 95, rfl⟩
abbrev main_call0_c_0 : Ref sig .tc := ⟨.hbm, 96, rfl⟩
abbrev main_call0_v18 : Ref sig .tc := ⟨.hbm, 97, rfl⟩
abbrev main_call0_v19 : Ref sig .tc := ⟨.hbm, 98, rfl⟩
abbrev main_call0_c_1 : Ref sig .tc := ⟨.hbm, 99, rfl⟩
abbrev main_call0_v20 : Ref sig .tc := ⟨.hbm, 100, rfl⟩
abbrev main_call0_v21 : Ref sig .tc := ⟨.hbm, 101, rfl⟩
abbrev main_call0_v22 : Ref sig .tc := ⟨.hbm, 102, rfl⟩
abbrev main_call0_v23 : Ref sig .tc := ⟨.hbm, 103, rfl⟩
abbrev main_call0_v24 : Ref sig .tc := ⟨.hbm, 104, rfl⟩
abbrev main_call0_c_2 : Ref sig .tc := ⟨.hbm, 105, rfl⟩
abbrev main_call0_v25 : Ref sig .tc := ⟨.hbm, 106, rfl⟩
abbrev main_call0_v26 : Ref sig .tc := ⟨.hbm, 107, rfl⟩
abbrev main_call0_c_3 : Ref sig .tc := ⟨.hbm, 108, rfl⟩
abbrev main_call0_v27 : Ref sig .tc := ⟨.hbm, 109, rfl⟩
abbrev main_call0_v28 : Ref sig .tc := ⟨.hbm, 110, rfl⟩
abbrev main_call0_v29 : Ref sig .tc := ⟨.hbm, 111, rfl⟩
abbrev main_call0_v30 : Ref sig .tc := ⟨.hbm, 112, rfl⟩
abbrev main_call0_v31 : Ref sig .tc := ⟨.hbm, 113, rfl⟩
abbrev main_call0_v32 : Ref sig .tc := ⟨.hbm, 114, rfl⟩
abbrev main_call0_c_4 : Ref sig .tc := ⟨.hbm, 115, rfl⟩
abbrev main_call0_call3_v0 : Ref sig .tc := ⟨.hbm, 116, rfl⟩
abbrev main_call0_call3_v1 : Ref sig .tc := ⟨.hbm, 117, rfl⟩
abbrev main_call0_v33 : Ref sig .tc := ⟨.hbm, 118, rfl⟩
abbrev main_call0_c_5 : Ref sig .tc := ⟨.hbm, 119, rfl⟩
abbrev main_call0_v34 : Ref sig .tc := ⟨.hbm, 120, rfl⟩
abbrev main_call0_v35 : Ref sig .tc := ⟨.hbm, 121, rfl⟩
abbrev main_call0_c_6 : Ref sig .tc := ⟨.hbm, 122, rfl⟩
abbrev main_call0_v36 : Ref sig .tc := ⟨.hbm, 123, rfl⟩
abbrev main_call0_v37 : Ref sig .tc := ⟨.hbm, 124, rfl⟩
abbrev main_call0_v38 : Ref sig .tc := ⟨.hbm, 125, rfl⟩
abbrev main_call0_v39 : Ref sig .tc := ⟨.hbm, 126, rfl⟩
abbrev main_call0_v40 : Ref sig .tc := ⟨.hbm, 127, rfl⟩
abbrev main_call0_c_7 : Ref sig .tc := ⟨.hbm, 128, rfl⟩
abbrev main_call0_v41 : Ref sig .tc := ⟨.hbm, 129, rfl⟩
abbrev main_call0_v42 : Ref sig .tc := ⟨.hbm, 130, rfl⟩
abbrev main_call0_c_8 : Ref sig .tc := ⟨.hbm, 131, rfl⟩
abbrev main_call0_v43 : Ref sig .tc := ⟨.hbm, 132, rfl⟩
abbrev main_call0_v44 : Ref sig .tc := ⟨.hbm, 133, rfl⟩
abbrev main_call0_v45 : Ref sig .tc := ⟨.hbm, 134, rfl⟩
abbrev main_call0_v46 : Ref sig .tc := ⟨.hbm, 135, rfl⟩
abbrev main_call0_v47 : Ref sig .tc := ⟨.hbm, 136, rfl⟩
abbrev main_call0_call4_c : Ref sig .tc := ⟨.hbm, 137, rfl⟩
abbrev main_call0_call4_v0 : Ref sig .tc := ⟨.hbm, 138, rfl⟩
abbrev main_call0_call4_v1 : Ref sig .tc := ⟨.hbm, 139, rfl⟩
abbrev main_call0_call4_c_0 : Ref sig .tc := ⟨.hbm, 140, rfl⟩
abbrev main_call0_call4_v2 : Ref sig .tc := ⟨.hbm, 141, rfl⟩
abbrev main_call0_call4_v3 : Ref sig .tc := ⟨.hbm, 142, rfl⟩
abbrev main_call0_call4_v4 : Ref sig .tc := ⟨.hbm, 143, rfl⟩
abbrev main_call0_call4_v5 : Ref sig .tc := ⟨.hbm, 144, rfl⟩
abbrev main_call0_call4_c_1 : Ref sig .tc := ⟨.hbm, 145, rfl⟩
abbrev main_call0_call4_c_2 : Ref sig .tc := ⟨.hbm, 146, rfl⟩
abbrev main_call0_call4_v6 : Ref sig .tc := ⟨.hbm, 147, rfl⟩
abbrev main_call0_call4_v7 : Ref sig .tc := ⟨.hbm, 148, rfl⟩
abbrev main_call0_call4_v8 : Ref sig .tc := ⟨.hbm, 149, rfl⟩
abbrev main_call0_call4_v9 : Ref sig .tc := ⟨.hbm, 150, rfl⟩
abbrev main_call0_call4_v10 : Ref sig .tc := ⟨.hbm, 151, rfl⟩
abbrev main_call0_call4_v11 : Ref sig .tc := ⟨.hbm, 152, rfl⟩
abbrev main_call0_call4_c_3 : Ref sig .tc := ⟨.hbm, 153, rfl⟩
abbrev main_call0_call4_v12 : Ref sig .tc := ⟨.hbm, 154, rfl⟩
abbrev main_call0_call4_v13 : Ref sig .tc := ⟨.hbm, 155, rfl⟩
abbrev main_call0_call4_v14 : Ref sig .tc := ⟨.hbm, 156, rfl⟩
abbrev main_call0_call4_cst : Ref sig .tc := ⟨.hbm, 157, rfl⟩
abbrev main_call0_call4_v15 : Ref sig .tc := ⟨.hbm, 158, rfl⟩
abbrev main_call0_v48 : Ref sig .tc := ⟨.hbm, 159, rfl⟩
abbrev main_call0_call5_c : Ref sig .tc := ⟨.hbm, 160, rfl⟩
abbrev main_call0_call5_v0 : Ref sig .tc := ⟨.hbm, 161, rfl⟩
abbrev main_call0_call5_v1 : Ref sig .tc := ⟨.hbm, 162, rfl⟩
abbrev main_call0_call5_c_0 : Ref sig .tc := ⟨.hbm, 163, rfl⟩
abbrev main_call0_call5_v2 : Ref sig .tc := ⟨.hbm, 164, rfl⟩
abbrev main_call0_call5_v3 : Ref sig .tc := ⟨.hbm, 165, rfl⟩
abbrev main_call0_call5_v4 : Ref sig .tc := ⟨.hbm, 166, rfl⟩
abbrev main_call0_call5_v5 : Ref sig .tc := ⟨.hbm, 167, rfl⟩
abbrev main_call0_call5_c_1 : Ref sig .tc := ⟨.hbm, 168, rfl⟩
abbrev main_call0_call5_c_2 : Ref sig .tc := ⟨.hbm, 169, rfl⟩
abbrev main_call0_call5_v6 : Ref sig .tc := ⟨.hbm, 170, rfl⟩
abbrev main_call0_call5_v7 : Ref sig .tc := ⟨.hbm, 171, rfl⟩
abbrev main_call0_call5_v8 : Ref sig .tc := ⟨.hbm, 172, rfl⟩
abbrev main_call0_call5_v9 : Ref sig .tc := ⟨.hbm, 173, rfl⟩
abbrev main_call0_call5_v10 : Ref sig .tc := ⟨.hbm, 174, rfl⟩
abbrev main_call0_call5_v11 : Ref sig .tc := ⟨.hbm, 175, rfl⟩
abbrev main_call0_call5_c_3 : Ref sig .tc := ⟨.hbm, 176, rfl⟩
abbrev main_call0_call5_v12 : Ref sig .tc := ⟨.hbm, 177, rfl⟩
abbrev main_call0_call5_v13 : Ref sig .tc := ⟨.hbm, 178, rfl⟩
abbrev main_call0_call5_v14 : Ref sig .tc := ⟨.hbm, 179, rfl⟩
abbrev main_call0_call5_cst : Ref sig .tc := ⟨.hbm, 180, rfl⟩
abbrev main_call0_call5_v15 : Ref sig .tc := ⟨.hbm, 181, rfl⟩
abbrev main_call0_v49 : Ref sig .tc := ⟨.hbm, 182, rfl⟩
abbrev main_call0_call6_c : Ref sig .tc := ⟨.hbm, 183, rfl⟩
abbrev main_call0_call6_v0 : Ref sig .tc := ⟨.hbm, 184, rfl⟩
abbrev main_call0_call6_v1 : Ref sig .tc := ⟨.hbm, 185, rfl⟩
abbrev main_call0_call6_c_0 : Ref sig .tc := ⟨.hbm, 186, rfl⟩
abbrev main_call0_call6_v2 : Ref sig .tc := ⟨.hbm, 187, rfl⟩
abbrev main_call0_call6_v3 : Ref sig .tc := ⟨.hbm, 188, rfl⟩
abbrev main_call0_call6_v4 : Ref sig .tc := ⟨.hbm, 189, rfl⟩
abbrev main_call0_call6_v5 : Ref sig .tc := ⟨.hbm, 190, rfl⟩
abbrev main_call0_call6_c_1 : Ref sig .tc := ⟨.hbm, 191, rfl⟩
abbrev main_call0_call6_c_2 : Ref sig .tc := ⟨.hbm, 192, rfl⟩
abbrev main_call0_call6_v6 : Ref sig .tc := ⟨.hbm, 193, rfl⟩
abbrev main_call0_call6_v7 : Ref sig .tc := ⟨.hbm, 194, rfl⟩
abbrev main_call0_call6_v8 : Ref sig .tc := ⟨.hbm, 195, rfl⟩
abbrev main_call0_call6_v9 : Ref sig .tc := ⟨.hbm, 196, rfl⟩
abbrev main_call0_call6_v10 : Ref sig .tc := ⟨.hbm, 197, rfl⟩
abbrev main_call0_call6_v11 : Ref sig .tc := ⟨.hbm, 198, rfl⟩
abbrev main_call0_call6_c_3 : Ref sig .tc := ⟨.hbm, 199, rfl⟩
abbrev main_call0_call6_v12 : Ref sig .tc := ⟨.hbm, 200, rfl⟩
abbrev main_call0_call6_v13 : Ref sig .tc := ⟨.hbm, 201, rfl⟩
abbrev main_call0_call6_c_4 : Ref sig .tc := ⟨.hbm, 202, rfl⟩
abbrev main_call0_call6_v14 : Ref sig .tc := ⟨.hbm, 203, rfl⟩
abbrev main_call0_v50 : Ref sig .tc := ⟨.hbm, 204, rfl⟩
abbrev main_call0_v51 : Ref sig .tc := ⟨.hbm, 205, rfl⟩
abbrev main_call0_v52 : Ref sig .tc := ⟨.hbm, 206, rfl⟩
abbrev main_call0_v53 : Ref sig .tc := ⟨.hbm, 207, rfl⟩
abbrev main_call0_v54 : Ref sig .tc := ⟨.hbm, 208, rfl⟩
abbrev main_call0_v55 : Ref sig .tc := ⟨.hbm, 209, rfl⟩
abbrev main_call0_c_9 : Ref sig .tc := ⟨.hbm, 210, rfl⟩
abbrev main_call0_v56 : Ref sig .tc := ⟨.hbm, 211, rfl⟩
abbrev main_call0_c_10 : Ref sig .tc := ⟨.hbm, 212, rfl⟩
abbrev main_call0_v57 : Ref sig .tc := ⟨.hbm, 213, rfl⟩
abbrev main_call0_v58 : Ref sig .tc := ⟨.hbm, 214, rfl⟩
abbrev main_call0_c_11 : Ref sig .tc := ⟨.hbm, 215, rfl⟩
abbrev main_call0_v59 : Ref sig .tc := ⟨.hbm, 216, rfl⟩
abbrev main_call0_v60 : Ref sig .tc := ⟨.hbm, 217, rfl⟩
abbrev main_call0_v61 : Ref sig .tc := ⟨.hbm, 218, rfl⟩
abbrev main_call0_v62 : Ref sig .tc := ⟨.hbm, 219, rfl⟩
abbrev main_call0_v63 : Ref sig .tc := ⟨.hbm, 220, rfl⟩
abbrev main_call0_c_12 : Ref sig .tc := ⟨.hbm, 221, rfl⟩
abbrev main_call0_v64 : Ref sig .tc := ⟨.hbm, 222, rfl⟩
abbrev main_call0_v65 : Ref sig .tc := ⟨.hbm, 223, rfl⟩
abbrev main_call0_c_13 : Ref sig .tc := ⟨.hbm, 224, rfl⟩
abbrev main_call0_v66 : Ref sig .tc := ⟨.hbm, 225, rfl⟩
abbrev main_call0_v67 : Ref sig .tc := ⟨.hbm, 226, rfl⟩
abbrev main_call0_v68 : Ref sig .tc := ⟨.hbm, 227, rfl⟩
abbrev main_call0_v69 : Ref sig .tc := ⟨.hbm, 228, rfl⟩
abbrev main_call0_v70 : Ref sig .tc := ⟨.hbm, 229, rfl⟩
abbrev main_call0_v71 : Ref sig .tc := ⟨.hbm, 230, rfl⟩
abbrev main_call0_c_14 : Ref sig .tc := ⟨.hbm, 231, rfl⟩
abbrev main_call0_call7_v0 : Ref sig .tc := ⟨.hbm, 232, rfl⟩
abbrev main_call0_call7_v1 : Ref sig .tc := ⟨.hbm, 233, rfl⟩
abbrev main_call0_v72 : Ref sig .tc := ⟨.hbm, 234, rfl⟩
abbrev main_call0_c_15 : Ref sig .tc := ⟨.hbm, 235, rfl⟩
abbrev main_call0_v73 : Ref sig .tc := ⟨.hbm, 236, rfl⟩
abbrev main_call0_v74 : Ref sig .tc := ⟨.hbm, 237, rfl⟩
abbrev main_call0_c_16 : Ref sig .tc := ⟨.hbm, 238, rfl⟩
abbrev main_call0_v75 : Ref sig .tc := ⟨.hbm, 239, rfl⟩
abbrev main_call0_v76 : Ref sig .tc := ⟨.hbm, 240, rfl⟩
abbrev main_call0_v77 : Ref sig .tc := ⟨.hbm, 241, rfl⟩
abbrev main_call0_v78 : Ref sig .tc := ⟨.hbm, 242, rfl⟩
abbrev main_v0_0 : Ref sig .tc := ⟨.hbm, 243, rfl⟩
abbrev main_call0_c_17 : Ref sig .tc := ⟨.hbm, 244, rfl⟩
abbrev main_call0_v80 : Ref sig .tc := ⟨.hbm, 245, rfl⟩
abbrev main_call0_v81 : Ref sig .tc := ⟨.hbm, 246, rfl⟩
abbrev main_call0_c_18 : Ref sig .tc := ⟨.hbm, 247, rfl⟩
abbrev main_call0_v82 : Ref sig .tc := ⟨.hbm, 248, rfl⟩
abbrev main_call0_v83 : Ref sig .tc := ⟨.hbm, 249, rfl⟩
abbrev main_call0_v84 : Ref sig .tc := ⟨.hbm, 250, rfl⟩
abbrev main_call0_v85 : Ref sig .tc := ⟨.hbm, 251, rfl⟩
abbrev main_v0_1 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x384 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x384 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S128x1_S128 : S128x1.ShapeCasts S128
  shapeCasts_S128_S1x128 : S128.ShapeCasts S1x128
  transposes_S384x512_S512x384_1_0 : S384x512.Transposes [1, 0] S512x384
  bitsLt_bf16_f32 : FTy.bits .bf16 < FTy.bits .f32
  transposes_S384x128_S128x384_1_0 : S384x128.Transposes [1, 0] S128x384
  shapeCasts_S384_S1x384 : S384.ShapeCasts S1x384
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  shapeCasts_S100000_S100000x1 : S100000.ShapeCasts S100000x1
  bcast_S_S200000 : S_.BroadcastsInDim S200000 (![] : Fin 0 → Fin S200000.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  concatenates_S2000x128_S2000x128_S2000x128_S2000x128_S2000x512_d1 : Shape.Concatenates [S2000x128, S2000x128, S2000x128, S2000x128] S2000x512 1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S200000x128_S100000x1_S100000x128_1_0_n_n_0_1_1128_wf : GatherDims.WF S200000x128 S100000x1 S100000x128 [1] [0] [] [0] [] 1 ![1, 128]
  gather_S200000_S100000x1_S100000_n_0_n_n_0_1_1_wf : GatherDims.WF S200000 S100000x1 S100000 [] [0] [] [0] [] 1 ![1]
  scatter_S200000_S100000x1_S100000_n_0_0_1_wf : ScatterDims.WF S200000 S100000x1 S100000 [] [0] [0] 1
  scatter_S200000x128_S100000x1_S100000x128_1_0_0_1_wf : ScatterDims.WF S200000x128 S100000x1 S100000x128 [1] [0] [0] 1
  dot_S2000x512_S512x384_S2000x384_1_0_0_1_n_n_wf : DotDims.WF S2000x512 S512x384 S2000x384 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x384.size a ≤ S512x384.size a
  hwx0_6 : ∀ i : grid0.Coords, EltTy.bits .bf16 = 32 ∨ (Rect.block (s := S512x384) S512x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x384.size a ≤ S512x384.size a
  hwx1_6 : ∀ i : grid1.Coords, EltTy.bits .bf16 = 32 ∨ (Rect.block (s := S512x384) S512x384.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x384.size a ≤ S128x384.size a
  hwx1_8 : ∀ i : grid1.Coords, EltTy.bits .bf16 = 32 ∨ (Rect.block (s := S128x384) S128x384.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x384.size a ≤ S1x384.size a
  hwx1_9 : ∀ i : grid1.Coords, EltTy.bits .f32 = 32 ∨ (Rect.block (s := S1x384) S1x384.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S100000x128.size a
  hwx1_10 : ∀ i : grid1.Coords, EltTy.bits .f32 = 32 ∨ (Rect.block (s := S100000x128) S2000x128.size (cc1_transform_10 i) (hinb1_10 i)).WholeWords (EltTy.packing .f32)

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def scatter_S200000_S100000x1_S100000_n_0_0_1 : ScatterDims S200000 S100000x1 S100000 where
  updateWindowDims := []
  insertedWindowDims := [0]
  scatterDimsToOperandDims := [0]
  indexVectorDim := 1
  wf := scatter_S200000_S100000x1_S100000_n_0_0_1_wf
def scatter_S200000x128_S100000x1_S100000x128_1_0_0_1 : ScatterDims S200000x128 S100000x1 S100000x128 where
  updateWindowDims := [1]
  insertedWindowDims := [0]
  scatterDimsToOperandDims := [0]
  indexVectorDim := 1
  wf := scatter_S200000x128_S100000x1_S100000x128_1_0_0_1_wf
def dot_S2000x512_S512x384_S2000x384_1_0_0_1_n_n : DotDims S2000x512 S512x384 S2000x384 where
  lhsContracting := [1]
  rhsContracting := [0]
  lhsNonContracting := [0]
  rhsNonContracting := [1]
  lhsBatch := []
  rhsBatch := []
  wf := dot_S2000x512_S512x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_call0_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S512x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v15) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_call0_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v49) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v53) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4) S512x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v7) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v6) S128x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v8) S1x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v54) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S200000x128 : Shape := ⟨2, ![200000, 128]⟩
abbrev S200000 : Shape := ⟨1, ![200000]⟩
abbrev S100000 : Shape := ⟨1, ![100000]⟩
abbrev S100000x128 : Shape := ⟨2, ![100000, 128]⟩
abbrev S128x1 : Shape := ⟨2, ![128, 1]⟩
abbrev S128 : Shape := ⟨1, ![128]⟩
abbrev S384x512 : Shape := ⟨2, ![384, 512]⟩
abbrev S384 : Shape := ⟨1, ![384]⟩
abbrev S384x128 : Shape := ⟨2, ![384, 128]⟩
abbrev S_ : Shape := ⟨0, ![]⟩
abbrev S100000x1 : Shape := ⟨2, ![100000, 1]⟩
abbrev S1x128 : Shape := ⟨2, ![1, 128]⟩
abbrev S100000x512 : Shape := ⟨2, ![100000, 512]⟩
abbrev S512x384 : Shape := ⟨2, ![512, 384]⟩
abbrev S100000x384 : Shape := ⟨2, ![100000, 384]⟩
abbrev S1x384 : Shape := ⟨2, ![1, 384]⟩
abbrev S128x384 : Shape := ⟨2, ![128, 384]⟩

abbrev nBuf : Space → Nat
  | .hbm => 232
  | .vmem => 0
  | .smem => 0
  | _ => 0

abbrev hbmTy0_0 (i : Nat) : BufTy := match i % 128 with
  | 0 => ⟨S200000x128, .f32⟩
  | 1 => ⟨S200000, .i32⟩
  | 2 => ⟨S100000, .i32⟩
  | 3 => ⟨S100000, .i32⟩
  | 4 => ⟨S100000, .i32⟩
  | 5 => ⟨S100000x128, .f32⟩
  | 6 => ⟨S128x1, .f32⟩
  | 7 => ⟨S128, .f32⟩
  | 8 => ⟨S384x512, .f32⟩
  | 9 => ⟨S384, .f32⟩
  | 10 => ⟨S384x128, .f32⟩
  | 11 => ⟨S384, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .i32⟩
  | 21 => ⟨S100000, .i32⟩
  | 22 => ⟨S100000, .f32⟩
  | 23 => ⟨S100000x1, .f32⟩
  | 24 => ⟨S128, .f32⟩
  | 25 => ⟨S1x128, .f32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S100000x128, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x128, .f32⟩
  | 51 => ⟨S100000x512, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x128, .f32⟩
  | 61 => ⟨S512x384, .f32⟩
  | 62 => ⟨S100000x384, .f32⟩
  | 63 => ⟨S1x384, .f32⟩
  | 64 => ⟨S100000x384, .f32⟩
  | 65 => ⟨S100000x384, .f32⟩
  | 66 => ⟨S128x384, .f32⟩
  | 67 => ⟨S100000x384, .f32⟩
  | 68 => ⟨S1x384, .f32⟩
  | 69 => ⟨S100000x384, .f32⟩
  | 70 => ⟨S100000x384, .f32⟩
  | 71 => ⟨S100000x128, .f32⟩
  | 72 => ⟨S100000x128, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S100000x128, .f32⟩
  | 103 => ⟨S100000x128, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S200000x128, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S200000, .i32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S200000x128, .f32⟩

abbrev hbmTy0_1 (i : Nat) : BufTy := match i % 128 with
  | 0 => ⟨S100000, .i32⟩
  | 1 => ⟨S100000x1, .i32⟩
  | 2 => ⟨S100000, .i32⟩
  | 3 => ⟨S100000, .i32⟩
  | 4 => ⟨S100000, .f32⟩
  | 5 => ⟨S100000x1, .f32⟩
  | 6 => ⟨S128, .f32⟩
  | 7 => ⟨S1x128, .f32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S100000x128, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x128, .f32⟩
  | 33 => ⟨S100000x512, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S512x384, .f32⟩
  | 44 => ⟨S100000x384, .f32⟩
  | 45 => ⟨S1x384, .f32⟩
  | 46 => ⟨S100000x384, .f32⟩
  | 47 => ⟨S100000x384, .f32⟩
  | 48 => ⟨S128x384, .f32⟩
  | 49 => ⟨S100000x384, .f32⟩
  | 50 => ⟨S1x384, .f32⟩
  | 51 => ⟨S100000x384, .f32⟩
  | 52 => ⟨S100000x384, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S200000x128, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S200000, .i32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_11 : Ref sig .tc := ⟨.hbm, 104, rfl⟩
abbrev main_v79 : Ref sig .tc := ⟨.hbm, 105, rfl⟩
abbrev main_v80 : Ref sig .tc := ⟨.hbm, 106, rfl⟩
abbrev main_c_12 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_13 : Ref sig .tc := ⟨.hbm, 113, rfl⟩
abbrev main_v86 : Ref sig .tc := ⟨.hbm, 114, rfl⟩
abbrev main_v87 : Ref sig .tc := ⟨.hbm, 115, rfl⟩
abbrev main_c_14 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_15 : Ref sig .tc := ⟨.hbm, 122, rfl⟩
abbrev main_v93 : Ref sig .tc := ⟨.hbm, 123, rfl⟩
abbrev main_v94 : Ref sig .tc := ⟨.hbm, 124, rfl⟩
abbrev main_c_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_17 : Ref sig .tc := ⟨.hbm, 143, rfl⟩
abbrev main_v112 : Ref sig .tc := ⟨.hbm, 144, rfl⟩
abbrev main_v113 : Ref sig .tc := ⟨.hbm, 145, rfl⟩
abbrev main_c_18 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_19 : Ref sig .tc := ⟨.hbm, 152, rfl⟩
abbrev main_v119 : Ref sig .tc := ⟨.hbm, 153, rfl⟩
abbrev main_v120 : Ref sig .tc := ⟨.hbm, 154, rfl⟩
abbrev main_c_20 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_21 : Ref sig .tc := ⟨.hbm, 162, rfl⟩
abbrev main_v127 : Ref sig .tc := ⟨.hbm, 163, rfl⟩
abbrev main_v128 : Ref sig .tc := ⟨.hbm, 164, rfl⟩
abbrev main_c_22 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_23 : Ref sig .tc := ⟨.hbm, 190, rfl⟩
abbrev main_v153 : Ref sig .tc := ⟨.hbm, 191, rfl⟩
abbrev main_v154 : Ref sig .tc := ⟨.hbm, 192, rfl⟩
abbrev main_cst_24 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_25 : Ref sig .tc := ⟨.hbm, 199, rfl⟩
abbrev main_v160 : Ref sig .tc := ⟨.hbm, 200, rfl⟩
abbrev main_v161 : Ref sig .tc := ⟨.hbm, 201, rfl⟩
abbrev main_cst_26 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_c_28 : Ref sig .tc := ⟨.hbm, 214, rfl⟩
abbrev main_v172 : Ref sig .tc := ⟨.hbm, 215, rfl⟩
abbrev main_v173 : Ref sig .tc := ⟨.hbm, 216, rfl⟩
abbrev main_c_29 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_c_30 : Ref sig .tc := ⟨.hbm, 223, rfl⟩
abbrev main_v179 : Ref sig .tc := ⟨.hbm, 224, rfl⟩
abbrev main_v180 : Ref sig .tc := ⟨.hbm, 225, rfl⟩
abbrev main_c_31 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S128x1_S128 : S128x1.ShapeCasts S128
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  transposes_S384x512_S512x384_1_0 : S384x512.Transposes [1, 0] S512x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  gather_S200000_S100000x1_S100000_n_0_n_n_0_1_1_wf : GatherDims.WF S200000 S100000x1 S100000 [] [0] [] [0] [] 1 ![1]
  gather_S200000x128_S100000x1_S100000x128_1_0_n_n_0_1_1128_wf : GatherDims.WF S200000x128 S100000x1 S100000x128 [1] [0] [] [0] [] 1 ![1, 128]
  dot_S100000x512_S512x384_S100000x384_1_0_0_1_n_n_wf : DotDims.WF S100000x512 S512x384 S100000x384 [1] [0] [0] [1] [] []
  dot_S100000x128_S128x384_S100000x384_1_0_0_1_n_n_wf : DotDims.WF S100000x128 S128x384 S100000x384 [1] [0] [0] [1] [] []
  scatter_S200000x128_S100000x1_S100000x128_1_0_0_1_wf : ScatterDims.WF S200000x128 S100000x1 S100000x128 [1] [0] [0] 1
  scatter_S200000_S100000x1_S100000_n_0_0_1_wf : ScatterDims.WF S200000 S100000x1 S100000 [] [0] [0] 1

variable [Facts₀]

def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S100000x512_S512x384_S100000x384_1_0_0_1_n_n : DotDims S100000x512 S512x384 S100000x384 where
  lhsContracting := [1]
  rhsContracting := [0]
  lhsNonContracting := [0]
  rhsNonContracting := [1]
  lhsBatch := []
  rhsBatch := []
  wf := dot_S100000x512_S512x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S200000x128_S100000x1_S100000x128_1_0_0_1 : ScatterDims S200000x128 S100000x1 S100000x128 where
  updateWindowDims := [1]
  insertedWindowDims := [0]
  scatterDimsToOperandDims := [0]
  indexVectorDim := 1
  wf := scatter_S200000x128_S100000x1_S100000x128_1_0_0_1_wf
def scatter_S200000_S100000x1_S100000_n_0_0_1 : ScatterDims S200000 S100000x1 S100000 where
  updateWindowDims := []
  insertedWindowDims := [0]
  scatterDimsToOperandDims := [0]
  indexVectorDim := 1
  wf := scatter_S200000_S100000x1_S100000_n_0_0_1_wf

class Facts : Prop extends Facts₀ where

variable [Facts]
-- ==== Proof.KSpec.lean ====
/-
  The kernel program's host-side functions, spelt with its own operations.

  Each phase gathers memory rows and last-update times by edge index (a gather that fills with a not-a-number
  pattern, or the least integer, where the index is outside the table), hands the gathered rows to the GRU kernel, and
  writes the new rows back so that of several edges sharing a row only the LAST one writes: a scatter-max of the
  edge positions finds the last edge of every row, and every other edge's index is replaced by the out-of-range
  row 200000, which the scatter drops.
-/
import proofs.«414128_j58780922413723_3_alg».proof.Proof.Gen.KernelIdeal

noncomputable section

namespace Cert.KernelIdeal.TGN

open Cert.KernelIdeal Cert.KernelIdeal.Gen Idealize.ShloMosaic

variable {F : FTy → Type} [FloatOps F]

/-- An index vector read the Python way: a negative index counts from the end of the 200000 rows. -/
def norm (a : IVec S100000 32) : IVec S100000 32 :=
  select (cmpi .slt a (broadcastInDim S100000 ![] bcast_S_S100000 (constantI S_ 32 0#32)))
    (addi a (broadcastInDim S100000 ![] bcast_S_S100000 (constantI S_ 32 200000#32))) a

/-- The same as a column of start indices. -/
def nidx (a : IVec S100000 32) : IVec S100000x1 32 :=
  broadcastInDim S100000x1 ![0] bcast_S100000_S100000x1_0 (norm a)

/-- Per edge, whether its normalised index lies in `[0, 199999]`. -/
def inb (a : IVec S100000 32) : IVec S100000 1 :=
  Host.reduce IntOp.andi
    (andi (cmpi .sge (nidx a) (broadcastInDim S100000x1 ![] bcast_S_S100000x1 (constantI S_ 32 0#32)))
      (cmpi .sle (nidx a) (broadcastInDim S100000x1 ![0, 1] bcast_S1x1_S100000x1_0_1 (broadcastInDim S1x1 ![1] bcast_S1_S1x1_1 (constantI S1 32 199999#32)))))
    (constantI S_ 1 1#1) reducesTo_S100000x1_S100000_d1 h_S_

/-- The rows of `mem` at the edges' indices, a fill pattern where the index is outside the table. -/
def takeRows (mem : FVec F S200000x128 .f32) (a : IVec S100000 32) : FVec F S100000x128 .f32 :=
  select (broadcastInDim S100000x128 ![0] bcast_S100000_S100000x128_0 (inb a))
    (Host.gather gather_S200000x128_S100000x1_S100000x128_1_0_n_n_0_1_1128 mem (nidx a))
    (broadcastInDim S100000x128 ![] bcast_S_S100000x128 (constant S_ .f32 0x7FC00000#32))

/-- The entries of `lu` at the edges' indices, the least integer where the index is outside the table. -/
def takeVec (lu : IVec S200000 32) (a : IVec S100000 32) : IVec S100000 32 :=
  select (inb a) (Host.gather gather_S200000_S100000x1_S100000_n_0_n_n_0_1_1 lu (nidx a))
    (broadcastInDim S100000 ![] bcast_S_S100000 (constantI S_ 32 2147483648#32))

/-- The edges' elapsed times as a column of floats. -/
def trel (t : IVec S100000 32) (lu : IVec S200000 32) (a : IVec S100000 32) : FVec F S100000x1 .f32 :=
  shapeCast S100000x1 (sitofp .f32 (subi t (takeVec lu a))) shapeCasts_S100000_S100000x1

/-- Per row, the position of the last edge that carries it (or -1). -/
def lastPos (a : IVec S100000 32) : IVec S200000 32 :=
  Host.scatter scatter_S200000_S100000x1_S100000_n_0_0_1 IntOp.maxsi
    (broadcastInDim S200000 ![] bcast_S_S200000 (constantI S_ 32 4294967295#32)) (nidx a) (iotaInDim S100000 32 0)

/-- Per edge, whether it is the last edge carrying its row. -/
def isLast (a : IVec S100000 32) : IVec S100000 1 :=
  cmpi .eq (Host.gather gather_S200000_S100000x1_S100000_n_0_n_n_0_1_1 (lastPos a) (nidx a)) (iotaInDim S100000 32 0)

/-- The write-back indices: the edge's own index where it is the last of its row, the out-of-range row otherwise. -/
def safeIdx (a : IVec S100000 32) : IVec S100000x1 32 :=
  nidx (select (isLast a) a (broadcastInDim S100000 ![] bcast_S_S100000 (id (constantI S_ 32 200000#32))))

/-- The memory after a phase's write-back of the new rows `h`. -/
def putRows (mem : FVec F S200000x128 .f32) (a : IVec S100000 32) (h : FVec F S100000x128 .f32) : FVec F S200000x128 .f32 :=
  Host.scatter scatter_S200000x128_S100000x1_S100000x128_1_0_0_1 (fun _ b => b) mem (safeIdx a) h

/-- The last-update times after a phase. -/
def putMax (lu : IVec S200000 32) (a t : IVec S100000 32) : IVec S200000 32 :=
  Host.scatter scatter_S200000_S100000x1_S100000_n_0_0_1 IntOp.maxsi lu (nidx a) t

/-- The time encoder's weight as the kernel's `[1, 128]` operand. -/
def twRow (tw : FVec F S128x1 .f32) : FVec F S1x128 .f32 :=
  shapeCast S1x128 (shapeCast S128 tw shapeCasts_S128x1_S128) shapeCasts_S128_S1x128

/-- The time encoder's offset as the kernel's `[1, 128]` operand. -/
def tbRow (tb : FVec F S128 .f32) : FVec F S1x128 .f32 := shapeCast S1x128 tb shapeCasts_S128_S1x128

/-- The input-side weights as the kernel's transposed bf16 operand. -/
def wihT (w : FVec F S384x512 .f32) : FVec F S512x384 .bf16 :=
  truncf .bf16 (transpose S512x384 [1, 0] w transposes_S384x512_S512x384_1_0) bitsLt_bf16_f32

/-- The hidden-side weights as the kernel's transposed bf16 operand. -/
def whhT (w : FVec F S384x128 .f32) : FVec F S128x384 .bf16 :=
  truncf .bf16 (transpose S128x384 [1, 0] w transposes_S384x128_S128x384_1_0) bitsLt_bf16_f32

/-- A bias as the kernel's `[1, 384]` operand. -/
def biasRow (b : FVec F S384 .f32) : FVec F S1x384 .f32 := shapeCast S1x384 b shapeCasts_S384_S1x384

end Cert.KernelIdeal.TGN

end
-- ==== Proof.HostRead.lean ====
/-
  What the kernel program's three host stretches leave in the buffers that matter, as the host functions of the
  contents they start from: the first stretch builds the first GRU call's ten operands; the second writes the first
  call's rows back (last edge of a row wins), raises the last-update times and builds the second call's operands;
  the third writes the second call's rows back and raises the times again.
-/
import proofs.«414128_j58780922413723_3_alg».proof.Proof.Gen.KernelIdeal.Launch
import proofs.«414128_j58780922413723_3_alg».proof.Proof.KSpec
import Idealize.ShloMosaic.Lib.StableHlo.Run

set_option Elab.async false

noncomputable section

namespace Cert.KernelIdeal.HostRead

open Cert.KernelIdeal Cert.KernelIdeal.Gen Cert.KernelIdeal.TGN
open Idealize.ShloMosaic Idealize.ShloMosaic.TcCoe Idealize.SL.Sem Idealize.ShloMosaic.StableHlo

variable {F : FTy → Type} [FloatOps F] (U : Valuation τ sig (Elt F))

/-- A transport along an equation of a type with itself is the identity. -/
theorem cast_self {α : Sort _} (h : α = α) (a : α) : cast h a = a := by rw [cast_eq]

/-! ## The first stretch: the first call's operands -/

set_option maxHeartbeats 4000000 in
set_option maxRecDepth 8192 in
theorem s0_v9 : after hostOps0 U (Proc.devRef .tc main_call0_v9) = takeRows (U (Proc.devRef .tc main_arg0)) (U (Proc.devRef .tc main_arg2)) := by
  simp only [hostOps0]
  after_results_simp
  simp only [TRef.ofBuf, TRef.toBuf, cast_eq]
  rfl
set_option maxHeartbeats 4000000 in
set_option maxRecDepth 8192 in
theorem s0_v10 : after hostOps0 U (Proc.devRef .tc main_call0_v10) = takeRows (U (Proc.devRef .tc main_arg0)) (U (Proc.devRef .tc main_arg3)) := by
  simp only [hostOps0]
  after_results_simp
  simp only [TRef.ofBuf, TRef.toBuf, cast_eq]
  rfl
set_option maxHeartbeats 4000000 in
set_option maxRecDepth 8192 in
theorem s0_v14 : after hostOps0 U (Proc.devRef .tc main_call0_v14) = trel (F := F) (U (Proc.devRef .tc main_arg4)) (U (Proc.devRef .tc main_arg1)) (U (Proc.devRef .tc main_arg2)) := by
  simp only [hostOps0]
  after_results_simp
  simp only [TRef.ofBuf, TRef.toBuf, cast_eq]
  rfl
set_option maxHeartbeats 4000000 in
set_option maxRecDepth 8192 in
theorem s0_v1 : after hostOps0 U (Proc.devRef .tc main_call0_v1) = twRow (U (Proc.devRef .tc main_arg6)) := by
  after_results_simp
  rfl
set_option maxHeartbeats 4000000 in
set_option maxRecDepth 8192 in
theorem s0_v2 : after hostOps0 U (Proc.devRef .tc main_call0_v2) = tbRow (U (Proc.devRef .tc main_arg7)) := by
  after_results_simp
  rfl
set_option maxHeartbeats 4000000 in
set_option maxRecDepth 8192 in
theorem s0_v4 : after hostOps0 U (Proc.devRef .tc main_call0_v4) = wihT (U (Proc.devRef .tc main_arg8)) := by
  simp only [hostOps0]
  after_results_simp
  simp only [TRef.ofBuf, TRef.toBuf, cast_eq]
  rfl
set_option maxHeartbeats 4000000 in
set_option maxRecDepth 8192 in
theorem s0_v7 : after hostOps0 U (Proc.devRef .tc main_call0_v7) = biasRow (U (Proc.devRef .tc main_arg9)) := by
  after_results_simp
  rfl
set_option maxHeartbeats 4000000 in
set_option maxRecDepth 8192 in
theorem s0_v6 : after hostOps0 U (Proc.devRef .tc main_call0_v6) = whhT (U (Proc.devRef .tc main_arg10)) := by
  simp only [hostOps0]
  after_results_simp
  simp only [TRef.ofBuf, TRef.toBuf, cast_eq]
  rfl
set_option maxHeartbeats 4000000 in
set_option maxRecDepth 8192 in
theorem s0_v8 : after hostOps0 U (Proc.devRef .tc main_call0_v8) = biasRow (U (Proc.devRef .tc main_arg11)) := by
  after_results_simp
  rfl
/-- The buffers the first stretch writes, in order. -/
abbrev written0 : List (Ref sig .tc) := [main_call0_v0, main_call0_v1, main_call0_v2, main_call0_v3, main_call0_v4, main_call0_v5, main_call0_v6, main_call0_v7, main_call0_v8, main_call0_call0_c, main_call0_call0_v0, main_call0_call0_v1, main_call0_call0_c_0, main_call0_call0_v2, main_call0_call0_v3, main_call0_call0_v4, main_call0_call0_v5, main_call0_call0_c_1, main_call0_call0_c_2, main_call0_call0_v6, main_call0_call0_v7, main_call0_call0_v8, main_call0_call0_v9, main_call0_call0_v10, main_call0_call0_v11, main_call0_call0_c_3, main_call0_call0_v12, main_call0_call0_v13, main_call0_call0_v14, main_call0_call0_cst, main_call0_call0_v15, main_call0_v9, main_call0_call1_c, main_call0_call1_v0, main_call0_call1_v1, main_call0_call1_c_0, main_call0_call1_v2, main_call0_call1_v3, main_call0_call1_v4, main_call0_call1_v5, main_call0_call1_c_1, main_call0_call1_c_2, main_call0_call1_v6, main_call0_call1_v7, main_call0_call1_v8, main_call0_call1_v9, main_call0_call1_v10, main_call0_call1_v11, main_call0_call1_c_3, main_call0_call1_v12, main_call0_call1_v13, main_call0_call1_v14, main_call0_call1_cst, main_call0_call1_v15, main_call0_v10, main_call0_call2_c, main_call0_call2_v0, main_call0_call2_v1, main_call0_call2_c_0, main_call0_call2_v2, main_call0_call2_v3, main_call0_call2_v4, main_call0_call2_v5, main_call0_call2_c_1, main_call0_call2_c_2, main_call0_call2_v6, main_call0_call2_v7, main_call0_call2_v8, main_call0_call2_v9, main_call0_call2_v10, main_call0_call2_v11, main_call0_call2_c_3, main_call0_call2_v12, main_call0_call2_v13, main_call0_call2_c_4, main_call0_call2_v14, main_call0_v11, main_call0_v12, main_call0_v13, main_call0_v14]

set_option maxHeartbeats 4000000 in
set_option maxRecDepth 8192 in
/-- Every operation of the first stretch writes one of the listed buffers. -/
theorem written0_sub : (hostOps0 : List (HloOp τ sig (Elt F))).Forall fun op => op.writes ⊆ (written0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)

/-- A buffer outside that list keeps its contents through the first stretch. -/
theorem keep0 (r : Ref sig .tc) (h : r ∉ written0) : after hostOps0 U (Proc.devRef .tc r) = U (Proc.devRef .tc r) :=
  after_of_writes_sub hostOps0 U written0_sub h

set_option maxRecDepth 8192 in
/-- The first stretch writes no program argument. -/
theorem s0_arg (k : Fin 12) : after hostOps0 U (Proc.devRef .tc (![main_arg0, main_arg1, main_arg2, main_arg3, main_arg4, main_arg5, main_arg6, main_arg7, main_arg8, main_arg9, main_arg10, main_arg11] k))
    = U (Proc.devRef .tc (![main_arg0, main_arg1, main_arg2, main_arg3, main_arg4, main_arg5, main_arg6, main_arg7, main_arg8, main_arg9, main_arg10, main_arg11] k)) :=
  keep0 U _ (by revert k; decide)

/-! ## The second stretch: the first write-back and the second call's operands -/

/-- The memory after the first phase. -/
def mem1 : FVec F S200000x128 .f32 := putRows (U (Proc.devRef .tc main_arg0)) (U (Proc.devRef .tc main_arg2)) (U (Proc.devRef .tc main_call0_v15))
/-- The last-update times after the first phase. -/
def lu1 : IVec S200000 32 := putMax (U (Proc.devRef .tc main_arg1)) (U (Proc.devRef .tc main_arg2)) (U (Proc.devRef .tc main_arg4))

set_option maxHeartbeats 4000000 in
set_option maxRecDepth 8192 in
theorem s1_v40 : after hostOps1 U (Proc.devRef .tc main_call0_v40) = mem1 U := by
  after_results_simp
  simp only [TRef.ofBuf, TRef.toBuf, cast_self]
  rfl
set_option maxHeartbeats 4000000 in
set_option maxRecDepth 8192 in
theorem s1_v47 : after hostOps1 U (Proc.devRef .tc main_call0_v47) = lu1 U := by
  after_results_simp
  simp only [TRef.ofBuf, TRef.toBuf, cast_self]
  rfl
set_option maxHeartbeats 4000000 in
set_option maxRecDepth 8192 in
theorem s1_v48 : after hostOps1 U (Proc.devRef .tc main_call0_v48) = takeRows (mem1 U) (U (Proc.devRef .tc main_arg3)) := by
  after_results_simp
  simp only [TRef.ofBuf, TRef.toBuf, cast_self]
  rfl
set_option maxHeartbeats 4000000 in
set_option maxRecDepth 8192 in
theorem s1_v49 : after hostOps1 U (Proc.devRef .tc main_call0_v49) = takeRows (mem1 U) (U (Proc.devRef .tc main_arg2)) := by
  after_results_simp
  simp only [TRef.ofBuf, TRef.toBuf, cast_self]
  rfl
set_option maxHeartbeats 4000000 in
set_option maxRecDepth 8192 in
theorem s1_v53 : after hostOps1 U (Proc.devRef .tc main_call0_v53) = trel (F := F) (U (Proc.devRef .tc main_arg4)) (lu1 U) (U (Proc.devRef .tc main_arg3)) := by
  after_results_simp
  simp only [TRef.ofBuf, TRef.toBuf, cast_self]
  rfl
/-- The buffers the second stretch writes, in order. -/
abbrev written1 : List (Ref sig .tc) := [main_call0_v16, main_call0_c, main_call0_v17, main_call0_c_0, main_call0_v18, main_call0_v19, main_call0_c_1, main_call0_v20, main_call0_v21, main_call0_v22, main_call0_v23, main_call0_v24, main_call0_c_2, main_call0_v25, main_call0_v26, main_call0_c_3, main_call0_v27, main_call0_v28, main_call0_v29, main_call0_v30, main_call0_v31, main_call0_v32, main_call0_c_4, main_call0_call3_v0, main_call0_call3_v1, main_call0_v33, main_call0_c_5, main_call0_v34, main_call0_v35, main_call0_c_6, main_call0_v36, main_call0_v37, main_call0_v38, main_call0_v39, main_call0_v40, main_call0_c_7, main_call0_v41, main_call0_v42, main_call0_c_8, main_call0_v43, main_call0_v44, main_call0_v45, main_call0_v46, main_call0_v47, main_call0_call4_c, main_call0_call4_v0, main_call0_call4_v1, main_call0_call4_c_0, main_call0_call4_v2, main_call0_call4_v3, main_call0_call4_v4, main_call0_call4_v5, main_call0_call4_c_1, main_call0_call4_c_2, main_call0_call4_v6, main_call0_call4_v7, main_call0_call4_v8, main_call0_call4_v9, main_call0_call4_v10, main_call0_call4_v11, main_call0_call4_c_3, main_call0_call4_v12, main_call0_call4_v13, main_call0_call4_v14, main_call0_call4_cst, main_call0_call4_v15, main_call0_v48, main_call0_call5_c, main_call0_call5_v0, main_call0_call5_v1, main_call0_call5_c_0, main_call0_call5_v2, main_call0_call5_v3, main_call0_call5_v4, main_call0_call5_v5, main_call0_call5_c_1, main_call0_call5_c_2, main_call0_call5_v6, main_call0_call5_v7, main_call0_call5_v8, main_call0_call5_v9, main_call0_call5_v10, main_call0_call5_v11, main_call0_call5_c_3, main_call0_call5_v12, main_call0_call5_v13, main_call0_call5_v14, main_call0_call5_cst, main_call0_call5_v15, main_call0_v49, main_call0_call6_c, main_call0_call6_v0, main_call0_call6_v1, main_call0_call6_c_0, main_call0_call6_v2, main_call0_call6_v3, main_call0_call6_v4, main_call0_call6_v5, main_call0_call6_c_1, main_call0_call6_c_2, main_call0_call6_v6, main_call0_call6_v7, main_call0_call6_v8, main_call0_call6_v9, main_call0_call6_v10, main_call0_call6_v11, main_call0_call6_c_3, main_call0_call6_v12, main_call0_call6_v13, main_call0_call6_c_4, main_call0_call6_v14, main_call0_v50, main_call0_v51, main_call0_v52, main_call0_v53]

set_option maxHeartbeats 4000000 in
set_option maxRecDepth 8192 in
/-- Every operation of the second stretch writes one of the listed buffers. -/
theorem written1_sub : (hostOps1 : List (HloOp τ sig (Elt F))).Forall fun op => op.writes ⊆ (written1.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map_of_mem (by decide)

/-- A buffer outside that list keeps its contents through the second stretch. -/
theorem keep1 (r : Ref sig .tc) (h : r ∉ written1) : after hostOps1 U (Proc.devRef .tc r) = U (Proc.devRef .tc r) :=
  after_of_writes_sub hostOps1 U written1_sub h

set_option maxRecDepth 8192 in
/-- The second stretch writes no program argument and none of the operands the two calls share. -/
theorem s1_keep (k : Fin 18) : after hostOps1 U (Proc.devRef .tc (![main_arg0, main_arg1, main_arg2, main_arg3, main_arg4, main_arg5, main_arg6, main_arg7, main_arg8, main_arg9, main_arg10, main_arg11, main_call0_v1, main_call0_v2, main_call0_v4, main_call0_v7, main_call0_v6, main_call0_v8] k))
    = U (Proc.devRef .tc (![main_arg0, main_arg1, main_arg2, main_arg3, main_arg4, main_arg5, main_arg6, main_arg7, main_arg8, main_arg9, main_arg10, main_arg11, main_call0_v1, main_call0_v2, main_call0_v4, main_call0_v7, main_call0_v6, main_call0_v8] k)) :=
  keep1 U _ (by revert k; decide)

/-! ## The third stretch: the second write-back -/

set_option maxHeartbeats 4000000 in
set_option maxRecDepth 8192 in
theorem s2_out0 : after hostOps2 U (Proc.devRef .tc main_v0_0) = putRows (U (Proc.devRef .tc main_call0_v40)) (U (Proc.devRef .tc main_arg3)) (U (Proc.devRef .tc main_call0_v54)) := by
  after_results_simp
  simp only [TRef.ofBuf, TRef.toBuf, cast_self]
  rfl
set_option maxHeartbeats 4000000 in
set_option maxRecDepth 8192 in
theorem s2_out1 : after hostOps2 U (Proc.devRef .tc main_v0_1) = putMax (U (Proc.devRef .tc main_call0_v47)) (U (Proc.devRef .tc main_arg3)) (U (Proc.devRef .tc main_arg4)) := by
  after_results_simp
  simp only [TRef.ofBuf, TRef.toBuf, cast_self]
  rfl

end Cert.KernelIdeal.HostRead

end
-- ==== Proof.CellSpec.lean ====
/-
  One edge's GRU update written index by index over the extended reals.

  An edge carries its source row `a`, its destination row `b`, its raw message `r` (128 entries each) and the
  time difference `d`; the message is the four blocks laid end to end, the fourth being the time encoding
  `cos (d · w k + c k)`. The two affine maps `gi = msg · Wᵢ + bᵢ` (512 → 384) and `gh = a · Wₕ + bₕ` (128 → 384)
  are cut into three gates of 128 entries; with `R` and `Z` the logistic of the first and second gates' sums, the new
  row is `(1 - Z) · tanh (giₙ + R · ghₙ) + Z · a`.
-/
import Idealize.ShloMosaic.PureOps.Ideal
import Mathlib.Algebra.BigOperators.Group.Finset.Basic

noncomputable section

namespace TGNCell

open Idealize.ShloMosaic

/-- The time encoding of a time difference `d`: entry `k` is `cos (d · w k + c k)`. -/
def tenc (d : EReal) (w c : Fin 128 → EReal) (k : Fin 128) : EReal := Ideal.cos (d * w k + c k)

/-- Entry `k` of the message: source row, destination row, raw message and time encoding end to end. -/
def msg (a b r te : Fin 128 → EReal) (k : Fin 512) : EReal :=
  if h : k.val < 128 then a ⟨k.val, h⟩
  else if h2 : k.val < 256 then b ⟨k.val - 128, by omega⟩
  else if h3 : k.val < 384 then r ⟨k.val - 256, by omega⟩
  else te ⟨k.val - 384, by omega⟩

/-- The input-side affine map at output `q`: the message against column `q` of the weights, plus the bias. -/
def gi (a b r te : Fin 128 → EReal) (wi : Fin 512 → Fin 384 → EReal) (bi : Fin 384 → EReal) (q : Fin 384) : EReal :=
  (∑ k : Fin 512, msg a b r te k * wi k q) + bi q

/-- The hidden-side affine map at output `q`: the source row against column `q` of the weights, plus the bias. -/
def gh (a : Fin 128 → EReal) (wh : Fin 128 → Fin 384 → EReal) (bh : Fin 384 → EReal) (q : Fin 384) : EReal :=
  (∑ k : Fin 128, a k * wh k q) + bh q

/-- Entry `j` of the edge's new row. -/
def cell (a b r te : Fin 128 → EReal) (wi : Fin 512 → Fin 384 → EReal) (bi : Fin 384 → EReal)
    (wh : Fin 128 → Fin 384 → EReal) (bh : Fin 384 → EReal) (j : Fin 128) : EReal :=
  let R := Ideal.logistic (gi a b r te wi bi ⟨j.val, by omega⟩ + gh a wh bh ⟨j.val, by omega⟩)
  let Z := Ideal.logistic (gi a b r te wi bi ⟨128 + j.val, by omega⟩ + gh a wh bh ⟨128 + j.val, by omega⟩)
  (1 - Z) * Ideal.tanh (gi a b r te wi bi ⟨256 + j.val, by omega⟩ + R * gh a wh bh ⟨256 + j.val, by omega⟩) + Z * a j

end TGNCell

end
-- ==== Proof.CellArr.lean ====
/-
  The GRU cell applied to every edge: the array whose entry `(e, j)` is entry `j` of edge `e`'s new row, from the
  edges' first-end rows `A`, second-end rows `B`, raw messages `R`, elapsed times `D`, the time encoder's weight `w`
  and offset `c`, and the two affine maps' weights and biases.
-/
import proofs.«414128_j58780922413723_3_alg».proof.Proof.CellSpec
import Idealize.ShloMosaic.Lib.ValueIdx

noncomputable section

namespace TGNCell

open Idealize.ShloMosaic

/-- Entry `(e, j)` is `cell` of edge `e`'s rows at `j`. -/
def cellArr (A B R : Fin 100000 → Fin 128 → EReal) (D : Fin 100000 → EReal) (w c : Fin 128 → EReal)
    (wi : Fin 512 → Fin 384 → EReal) (bi : Fin 384 → EReal) (wh : Fin 128 → Fin 384 → EReal) (bh : Fin 384 → EReal) :
    (⟨2, ![100000, 128]⟩ : Shape).Idx → EReal :=
  fun i => cell (A (i 0)) (B (i 0)) (R (i 0)) (tenc (D (i 0)) w c) wi bi wh bh (i 1)

end TGNCell

end
-- ==== Proof.PayloadCell.lean ====
/-
  The kernel body's stored value, read entry by entry at the exact instance.

  The body stores ONE value into its output block: a pointwise combination of three 128-wide column slices of two
  affine maps of the loaded blocks. Read at row `p` and column `j` it depends on row `p` of the edge blocks only, and is
  the GRU cell `TGNCell.cell` of those rows: each matrix product into the zero accumulator is a plain sum over the
  contracted coordinate, the four-piece concatenation along the columns is the message `TGNCell.msg`, a column slice at
  offset `o` reads column `o + j`, a broadcast reads the row or the column it copies, and a change of float format is
  the identity on extended reals. Both regions' bodies are the same text, so the second's payloads are the first's.
-/
import proofs.«414128_j58780922413723_3_alg».proof.Proof.Gen.KernelIdeal.Skeleton
import proofs.«414128_j58780922413723_3_alg».proof.Proof.CellArr
import Idealize.ShloMosaic.Lib.Pipeline.Value
import Idealize.ShloMosaic.Lib.ValueIdx
import Idealize.ShloMosaic.PureOps.Ideal.Laws

noncomputable section

namespace Cert.KernelIdeal.PayloadCell

open Idealize.ShloMosaic Idealize.ShloMosaic.ValueIdx
open Cert.KernelIdeal Cert.KernelIdeal.Gen
open scoped BigOperators

/-! ## Pointwise operations and constants at an entry -/

/-- The word of the float `1.0` is the extended real `1`. -/
theorem ofBits_one : Ideal.ofBits .f32 0x3F800000#32 = 1 := by
  simp [Ideal.ofBits, Ideal.ieee, -EReal.coe_mul]; norm_num

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem cos_apply {s : Shape} {φ : FTy} (a : FVec Ideal s φ) (i : s.Idx) : cos a i = Ideal.cos (a i) := rfl

/-! ## Broadcasts at an entry -/

/-- A column `[2000,1]` broadcast along the columns reads its row's one entry. -/
theorem bcast_col (x : FVec Ideal S2000x1 .f32) (h : S2000x1.Broadcasts S2000x128) (p : Fin 2000) (k : Fin 128) :
    broadcastTo S2000x128 x h (ix2 p k) = x (ix2 p 0) :=
  broadcastTo_apply x h (ix2 p k) (ix2 p 0) fun a => match a with
    | ⟨0, _⟩ => rfl
    | ⟨1, _⟩ => rfl

/-- A row `[1,128]` broadcast down the rows reads its column's one entry. -/
theorem bcast_row128 (x : FVec Ideal S1x128 .f32) (h : S1x128.Broadcasts S2000x128) (p : Fin 2000) (k : Fin 128) :
    broadcastTo S2000x128 x h (ix2 p k) = x (ix2 0 k) :=
  broadcastTo_apply x h (ix2 p k) (ix2 0 k) fun a => match a with
    | ⟨0, _⟩ => rfl
    | ⟨1, _⟩ => rfl

/-- A row `[1,384]` broadcast down the rows reads its column's one entry. -/
theorem bcast_row384 (x : FVec Ideal S1x384 .f32) (h : S1x384.Broadcasts S2000x384) (p : Fin 2000) (q : Fin 384) :
    broadcastTo S2000x384 x h (ix2 p q) = x (ix2 0 q) :=
  broadcastTo_apply x h (ix2 p q) (ix2 0 q) fun a => match a with
    | ⟨0, _⟩ => rfl
    | ⟨1, _⟩ => rfl

/-! ## The three gate slices at an entry -/

/-- The first gate: columns `0 … 127`. -/
theorem slice0 (x : FVec Ideal S2000x384 .f32) (h : S2000x384.Slices ![0, 0] S2000x128) (p : Fin 2000) (j : Fin 128) :
    extractStridedSlice S2000x128 ![0, 0] x h (ix2 p j) = x (ix2 p ⟨j.val, by omega⟩) :=
  extractStridedSlice_apply ![0, 0] x h (ix2 p j) (ix2 p ⟨j.val, by omega⟩) fun a => match a with
    | ⟨0, _⟩ => by show p.val = 0 + p.val; omega
    | ⟨1, _⟩ => by show j.val = 0 + j.val; omega

/-- The second gate: columns `128 … 255`. -/
theorem slice128 (x : FVec Ideal S2000x384 .f32) (h : S2000x384.Slices ![0, 128] S2000x128) (p : Fin 2000) (j : Fin 128) :
    extractStridedSlice S2000x128 ![0, 128] x h (ix2 p j) = x (ix2 p ⟨128 + j.val, by omega⟩) :=
  extractStridedSlice_apply ![0, 128] x h (ix2 p j) (ix2 p ⟨128 + j.val, by omega⟩) fun a => match a with
    | ⟨0, _⟩ => by show p.val = 0 + p.val; omega
    | ⟨1, _⟩ => rfl

/-- The third gate: columns `256 … 383`. -/
theorem slice256 (x : FVec Ideal S2000x384 .f32) (h : S2000x384.Slices ![0, 256] S2000x128) (p : Fin 2000) (j : Fin 128) :
    extractStridedSlice S2000x128 ![0, 256] x h (ix2 p j) = x (ix2 p ⟨256 + j.val, by omega⟩) :=
  extractStridedSlice_apply ![0, 256] x h (ix2 p j) (ix2 p ⟨256 + j.val, by omega⟩) fun a => match a with
    | ⟨0, _⟩ => by show p.val = 0 + p.val; omega
    | ⟨1, _⟩ => rfl

/-! ## The two matrix products at an entry -/

theorem lhs_i_0 (i : S2000x384.Idx) (q : dot_S2000x512_S512x384_S2000x384_1_0_0_1_n_n.contr.Idx) :
    (dot_S2000x512_S512x384_S2000x384_1_0_0_1_n_n.lhsIdx i q 0).val = (i 0).val := by
  unfold DotDims.lhsIdx
  rw [dif_neg (show ¬(0 : Fin S2000x512.rank) ∈ dot_S2000x512_S512x384_S2000x384_1_0_0_1_n_n.lhsBatch by decide), dif_pos (show (0 : Fin S2000x512.rank) ∈ dot_S2000x512_S512x384_S2000x384_1_0_0_1_n_n.lhsNonContracting by decide)]
  rfl
theorem lhs_i_1 (i : S2000x384.Idx) (q : dot_S2000x512_S512x384_S2000x384_1_0_0_1_n_n.contr.Idx) :
    (dot_S2000x512_S512x384_S2000x384_1_0_0_1_n_n.lhsIdx i q 1).val = (q ⟨0, by decide⟩).val :=
  dot_S2000x512_S512x384_S2000x384_1_0_0_1_n_n.lhsIdx_val_of_single rfl i q
theorem rhs_i_0 (i : S2000x384.Idx) (q : dot_S2000x512_S512x384_S2000x384_1_0_0_1_n_n.contr.Idx) :
    (dot_S2000x512_S512x384_S2000x384_1_0_0_1_n_n.rhsIdx i q 0).val = (q ⟨0, by decide⟩).val :=
  dot_S2000x512_S512x384_S2000x384_1_0_0_1_n_n.rhsIdx_val_of_single rfl i q
theorem rhs_i_1 (i : S2000x384.Idx) (q : dot_S2000x512_S512x384_S2000x384_1_0_0_1_n_n.contr.Idx) :
    (dot_S2000x512_S512x384_S2000x384_1_0_0_1_n_n.rhsIdx i q 1).val = (i 1).val := by
  unfold DotDims.rhsIdx
  rw [dif_neg (show ¬(1 : Fin S512x384.rank) ∈ dot_S2000x512_S512x384_S2000x384_1_0_0_1_n_n.rhsBatch by decide), dif_pos (show (1 : Fin S512x384.rank) ∈ dot_S2000x512_S512x384_S2000x384_1_0_0_1_n_n.rhsNonContracting by decide)]
  rfl

/-- The `[2000,512] × [512,384]` product into the zero accumulator, at `(p, q)`: row `p` against column `q`. -/
theorem matmul_i_apply (A : FVec Ideal S2000x512 .bf16) (B : FVec Ideal S512x384 .bf16) (p : Fin 2000) (q : Fin 384) :
    matmul dot_S2000x512_S512x384_S2000x384_1_0_0_1_n_n none A B (constant (F := Ideal) S2000x384 .f32 0x00000000#32) (ix2 p q)
      = ∑ k : Fin 512, A (ix2 p k) * B (ix2 k q) := by
  show FloatOps.matmul dot_S2000x512_S512x384_S2000x384_1_0_0_1_n_n none A B (constant (F := Ideal) S2000x384 .f32 0x00000000#32) (ix2 p q) = _
  rw [Ideal.matmul_constant_zero_apply, ← Equiv.sum_comp (contrEquiv1 dot_S2000x512_S512x384_S2000x384_1_0_0_1_n_n 512 rfl rfl).symm]
  refine Finset.sum_congr rfl fun k _ => ?_
  have hk := contrEquiv1_symm_val dot_S2000x512_S512x384_S2000x384_1_0_0_1_n_n 512 rfl rfl k
  have el : dot_S2000x512_S512x384_S2000x384_1_0_0_1_n_n.lhsIdx (ix2 p q) ((contrEquiv1 dot_S2000x512_S512x384_S2000x384_1_0_0_1_n_n 512 rfl rfl).symm k) = ix2 p k := funext fun a => Fin.ext (by
    match a with
    | ⟨0, _⟩ => exact lhs_i_0 _ _
    | ⟨1, _⟩ => exact (lhs_i_1 _ _).trans hk)
  have er : dot_S2000x512_S512x384_S2000x384_1_0_0_1_n_n.rhsIdx (ix2 p q) ((contrEquiv1 dot_S2000x512_S512x384_S2000x384_1_0_0_1_n_n 512 rfl rfl).symm k) = ix2 k q := funext fun a => Fin.ext (by
    match a with
    | ⟨0, _⟩ => exact (rhs_i_0 _ _).trans hk
    | ⟨1, _⟩ => exact rhs_i_1 _ _)
  rw [el, er]

theorem lhs_h_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_h_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_h_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_h_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The `[2000,128] × [128,384]` product into the zero accumulator, at `(p, q)`: row `p` against column `q`. -/
theorem matmul_h_apply (A : FVec Ideal S2000x128 .bf16) (B : FVec Ideal S128x384 .bf16) (p : Fin 2000) (q : Fin 384) :
    matmul dot_S2000x128_S128x384_S2000x384_1_0_0_1_n_n none A B (constant (F := Ideal) S2000x384 .f32 0x00000000#32) (ix2 p q)
      = ∑ k : Fin 128, A (ix2 p k) * B (ix2 k q) := by
  show FloatOps.matmul dot_S2000x128_S128x384_S2000x384_1_0_0_1_n_n none A B (constant (F := Ideal) S2000x384 .f32 0x00000000#32) (ix2 p q) = _
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p q) ((contrEquiv1 dot_S2000x128_S128x384_S2000x384_1_0_0_1_n_n 128 rfl rfl).symm k) = ix2 p k := funext fun a => Fin.ext (by
    match a with
    | ⟨0, _⟩ => exact lhs_h_0 _ _
    | ⟨1, _⟩ => exact (lhs_h_1 _ _).trans hk)
  have er : dot_S2000x128_S128x384_S2000x384_1_0_0_1_n_n.rhsIdx (ix2 p q) ((contrEquiv1 dot_S2000x128_S128x384_S2000x384_1_0_0_1_n_n 128 rfl rfl).symm k) = ix2 k q := funext fun a => Fin.ext (by
    match a with
    | ⟨0, _⟩ => exact (rhs_h_0 _ _).trans hk
    | ⟨1, _⟩ => exact rhs_h_1 _ _)
  rw [el, er]

/-! ## The message: four blocks laid end to end along the columns -/

/-- The concatenation at row `p`, column `k`: the piece whose 128 columns hold `k`, at `k` less the columns before it. -/
theorem concat_apply (a b r te : FVec Ideal S2000x128 .bf16)
    (h : Shape.Concatenates (([⟨S2000x128, a⟩, ⟨S2000x128, b⟩, ⟨S2000x128, r⟩, ⟨S2000x128, te⟩] : List ((s : Shape) × (s.Idx → Ideal .bf16))).map (·.1)) S2000x512 1)
    (p : Fin 2000) (k : Fin 512) :
    concatenate S2000x512 1 [⟨S2000x128, a⟩, ⟨S2000x128, b⟩, ⟨S2000x128, r⟩, ⟨S2000x128, te⟩] h (ix2 p k)
      = TGNCell.msg (fun k => a (ix2 p k)) (fun k => b (ix2 p k)) (fun k => r (ix2 p k)) (fun k => te (ix2 p k)) k := by
  have hoff : ∀ (b' : Fin S2000x128.rank) (i : S2000x128.Idx) (c : Fin 128), i = ix2 p c →
      b'.cast (rfl : S2000x128.rank = S2000x512.rank) ≠ (1 : Fin S2000x512.rank) → (i b').val = ((ix2 p k : S2000x512.Idx) (b'.cast rfl)).val := by
    intro b' i c hi hb
    subst hi
    match b', hb with
    | ⟨0, _⟩, _ => rfl
    | ⟨1, _⟩, hb => exact absurd rfl hb
  unfold TGNCell.msg
  split_ifs with h1 h2 h3
  · exact concatenate_apply_piece 1 _ h (ix2 p k) 0 (show 0 < 4 by omega) S2000x128 a rfl rfl 0 rfl (ix2 p ⟨k.val, h1⟩)
      (fun b' hb => hoff b' _ _ rfl hb) (by show 0 + k.val = k.val; omega)
  · exact concatenate_apply_piece 1 _ h (ix2 p k) 1 (show 1 < 4 by omega) S2000x128 b rfl rfl 128 rfl (ix2 p ⟨k.val - 128, by omega⟩)
      (fun b' hb => hoff b' _ _ rfl hb) (by show 128 + (k.val - 128) = k.val; omega)
  · exact concatenate_apply_piece 1 _ h (ix2 p k) 2 (show 2 < 4 by omega) S2000x128 r rfl rfl 256 rfl (ix2 p ⟨k.val - 256, by omega⟩)
      (fun b' hb => hoff b' _ _ rfl hb) (by show 256 + (k.val - 256) = k.val; omega)
  · exact concatenate_apply_piece 1 _ h (ix2 p k) 3 (show 3 < 4 by omega) S2000x128 te rfl rfl 384 rfl (ix2 p ⟨k.val - 384, by have := k.isLt; omega⟩)
      (fun b' hb => hoff b' _ _ rfl hb) (by show 384 + (k.val - 384) = k.val; omega)

/-- The time encoding at row `p`, column `k`: the cosine of the row's elapsed time times the weight plus the offset. -/
theorem tenc_apply (x3 : FVec Ideal S2000x1 .f32) (x4 x5 : FVec Ideal S1x128 .f32) (h3 : S2000x1.Broadcasts S2000x128)
    (h4 h5 : S1x128.Broadcasts S2000x128) (p : Fin 2000) (k : Fin 128) :
    cos (addf (mulf (broadcastTo S2000x128 x3 h3) (broadcastTo S2000x128 x4 h4)) (broadcastTo S2000x128 x5 h5)) (ix2 p k)
      = TGNCell.tenc (x3 (ix2 p 0)) (fun k => x4 (ix2 0 k)) (fun k => x5 (ix2 0 k)) k := by
  rw [cos_apply, addf_apply, mulf_apply, bcast_col, bcast_row128, bcast_row128]
  rfl

/-! ## The two affine maps at an entry -/

/-- The input-side map at `(p, q)`: `TGNCell.gi` of row `p` of the edge blocks. -/
theorem pay4_apply (x0 x1 x2 : FVec Ideal S2000x128 .f32) (x3 : FVec Ideal S2000x1 .f32) (x4 x5 : FVec Ideal S1x128 .f32)
    (x6 : FVec Ideal S512x384 .bf16) (x7 : FVec Ideal S1x384 .f32) (p : Fin 2000) (q : Fin 384) :
    k0_pay4 (F := Ideal) x0 x1 x2 x3 x4 x5 x6 x7 (ix2 p q)
      = TGNCell.gi (fun k => x0 (ix2 p k)) (fun k => x1 (ix2 p k)) (fun k => x2 (ix2 p k))
          (TGNCell.tenc (x3 (ix2 p 0)) (fun k => x4 (ix2 0 k)) (fun k => x5 (ix2 0 k)))
          (fun k q => x6 (ix2 k q)) (fun q => x7 (ix2 0 q)) q := by
  unfold k0_pay4 k0_pay3 k0_pay2 TGNCell.gi
  simp only [shapeCast_self]
  rw [addf_apply, matmul_i_apply, bcast_row384]
  simp only [concat_apply, truncf_apply, tenc_apply, shapeCast_self]

/-- The hidden-side map at `(p, q)`: `TGNCell.gh` of row `p` of the first block. -/
theorem pay5_apply (x0 : FVec Ideal S2000x128 .f32) (x8 : FVec Ideal S128x384 .bf16) (x9 : FVec Ideal S1x384 .f32)
    (p : Fin 2000) (q : Fin 384) :
    k0_pay5 (F := Ideal) x0 x8 x9 (ix2 p q)
      = TGNCell.gh (fun k => x0 (ix2 p k)) (fun k q => x8 (ix2 k q)) (fun q => x9 (ix2 0 q)) q := by
  unfold k0_pay5 k0_pay3 k0_pay2 TGNCell.gh
  simp only [shapeCast_self]
  rw [addf_apply, matmul_h_apply, bcast_row384]
  simp only [truncf_apply]

/-! ## The stored value at an entry -/

/-- The gates' combination at `(p, j)`, over any values of the two affine maps and the first block. -/
theorem pay1_apply (v1 : FVec Ideal S2000x128 .f32) (v28 v35 : FVec Ideal S2000x384 .f32) (v36 : FVec Ideal S2000x128 .f32)
    (p : Fin 2000) (j : Fin 128) :
    k0_pay1 (F := Ideal) v1 v28 v35 v36 (ix2 p j)
      = (1 - Ideal.logistic (v28 (ix2 p ⟨128 + j.val, by omega⟩) + v35 (ix2 p ⟨128 + j.val, by omega⟩)))
          * Ideal.tanh (v28 (ix2 p ⟨256 + j.val, by omega⟩)
              + Ideal.logistic (v36 (ix2 p j) + v35 (ix2 p ⟨j.val, by omega⟩)) * v35 (ix2 p ⟨256 + j.val, by omega⟩))
        + Ideal.logistic (v28 (ix2 p ⟨128 + j.val, by omega⟩) + v35 (ix2 p ⟨128 + j.val, by omega⟩)) * v1 (ix2 p j) := by
  unfold k0_pay1
  simp only [addf_apply, mulf_apply, subf_apply, logistic_apply, tanh_apply, broadcast_apply, slice0, slice128, slice256]
  rw [show (Scalar.ofBits (F := Ideal) .f32 0x3F800000#32 : Ideal .f32) = 1 from ofBits_one]

/-- THE BODY'S STORED VALUE at row `p`, column `j`: the GRU cell of row `p` of the edge blocks, at `j`. -/
theorem pay_cell0 (x0 x1 x2 : FVec Ideal S2000x128 .f32) (x3 : FVec Ideal S2000x1 .f32) (x4 x5 : FVec Ideal S1x128 .f32)
    (x6 : FVec Ideal S512x384 .bf16) (x7 : FVec Ideal S1x384 .f32) (x8 : FVec Ideal S128x384 .bf16) (x9 : FVec Ideal S1x384 .f32)
    (p : Fin 2000) (j : Fin 128) :
    k0_pay1 (F := Ideal) (k0_pay2 x0) (k0_pay4 x0 x1 x2 x3 x4 x5 x6 x7) (k0_pay5 x0 x8 x9) (k0_pay6 x0 x1 x2 x3 x4 x5 x6 x7) (ix2 p j)
      = TGNCell.cell (fun k => x0 (ix2 p k)) (fun k => x1 (ix2 p k)) (fun k => x2 (ix2 p k))
          (TGNCell.tenc (x3 (ix2 p 0)) (fun k => x4 (ix2 0 k)) (fun k => x5 (ix2 0 k)))
          (fun k q => x6 (ix2 k q)) (fun q => x7 (ix2 0 q)) (fun k q => x8 (ix2 k q)) (fun q => x9 (ix2 0 q)) j := by
  rw [pay1_apply]
  unfold k0_pay6 k0_pay2 TGNCell.cell
  simp only [shapeCast_self, slice0, pay4_apply, pay5_apply]

/-- The second region's body is the same text: its stored value is the first's. -/
theorem pay_cell1 (x0 x1 x2 : FVec Ideal S2000x128 .f32) (x3 : FVec Ideal S2000x1 .f32) (x4 x5 : FVec Ideal S1x128 .f32)
    (x6 : FVec Ideal S512x384 .bf16) (x7 : FVec Ideal S1x384 .f32) (x8 : FVec Ideal S128x384 .bf16) (x9 : FVec Ideal S1x384 .f32)
    (p : Fin 2000) (j : Fin 128) :
    k1_pay1 (F := Ideal) (k1_pay2 x0) (k1_pay4 x0 x1 x2 x3 x4 x5 x6 x7) (k1_pay5 x0 x8 x9) (k1_pay6 x0 x1 x2 x3 x4 x5 x6 x7) (ix2 p j)
      = TGNCell.cell (fun k => x0 (ix2 p k)) (fun k => x1 (ix2 p k)) (fun k => x2 (ix2 p k))
          (TGNCell.tenc (x3 (ix2 p 0)) (fun k => x4 (ix2 0 k)) (fun k => x5 (ix2 0 k)))
          (fun k q => x6 (ix2 k q)) (fun q => x7 (ix2 0 q)) (fun k q => x8 (ix2 k q)) (fun q => x9 (ix2 0 q)) j :=
  pay_cell0 x0 x1 x2 x3 x4 x5 x6 x7 x8 x9 p j

end Cert.KernelIdeal.PayloadCell

end
-- ==== Proof.RegionCell0.lean ====
/-
  Region 0, read as values at the exact instance: after the pipelined GRU call the output window's array is the GRU cell
  applied edge by edge to the ten input windows' arrays as the region finds them.

  The body's one store leaves in the output block, at row `p` and column `j`, the cell of row `p` of the edge blocks
  (`out_cell`). At grid point `t` the four edge windows' blocks are rows `2000 t … 2000 t + 1999` of their arrays and the
  six parameter windows' blocks are their whole arrays (`idx_facts`, `blkW_apply`), while the output block is rows
  `2000 t … 2000 t + 1999` of the output array: so what point `t` writes back is block `t` of ONE function of the
  arrays, `TGNCell.cellArr` (`flushed_eq`). The fifty blocks cover the `100000` rows (row `r` lies in block `r / 2000`),
  so the array ends holding that function (`region0_value`).
-/
import proofs.«414128_j58780922413723_3_alg».proof.Proof.Gen.KernelIdeal.Frame
import proofs.«414128_j58780922413723_3_alg».proof.Proof.CellArr
import proofs.«414128_j58780922413723_3_alg».proof.Proof.PayloadCell
import Idealize.ShloMosaic.Lib.Pipeline.Value

noncomputable section

namespace Cert.KernelIdeal.RegionCell0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The output block from the input blocks, entry by entry -/

/-- What the body leaves in the output block at row `p`, column `j`: the cell of row `p` of the edge blocks. -/
theorem out_cell (x0 x1 x2 : Vec Ideal S2000x128 .f32) (x3 : Vec Ideal S2000x1 .f32) (x4 x5 : Vec Ideal S1x128 .f32)
    (x6 : Vec Ideal S512x384 .bf16) (x7 x9 : Vec Ideal S1x384 .f32) (x8 : Vec Ideal S128x384 .bf16)
    (p : Fin 2000) (j : Fin 128) :
    out0_10 (F := Ideal) x0 x1 x2 x3 x4 x5 x6 x7 x8 x9 (ix2 p j)
      = TGNCell.cell (fun k => x0 (ix2 p k)) (fun k => x1 (ix2 p k)) (fun k => x2 (ix2 p k))
          (TGNCell.tenc (x3 (ix2 p 0)) (fun k => x4 (ix2 0 k)) (fun k => x5 (ix2 0 k)))
          (fun k q => x6 (ix2 k q)) (fun q => x7 (ix2 0 q)) (fun k q => x8 (ix2 k q)) (fun q => x9 (ix2 0 q)) j := by
  unfold out0_10
  rw [View.canon_unit_zero hz]
  simp only [View.ld_unit_zero (S := S2000x128) hz, View.ld_unit_zero (S := S2000x1) hz, View.ld_unit_zero (S := S1x128) hz,
    View.ld_unit_zero (S := S512x384) hz, View.ld_unit_zero (S := S1x384) hz, View.ld_unit_zero (S := S128x384) hz]
  exact PayloadCell.pay_cell0 x0 x1 x2 x3 x4 x5 x6 x7 x8 x9 p j

/-! ## The windows' blocks as parts of their arrays -/

/-- The printed index maps over the grid: an edge window's block index is `(t, 0)`, a parameter window's `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Window 0's block at point `t` is rows `2000 t … 2000 t + 1999` of its array. -/
theorem blk0_apply (c : Dev nD) (t : Fin cfg0.N) (p : Fin 2000) (k : Fin 128) (e : Fin 100000) (he : e.val = 2000 * t.val + p.val) :
    (iblk0 V c 0 t : Vec Ideal S2000x128 .f32) (ix2 p k) = (V c main_call0_v9 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v9 (((cfg0.win 0).blk t).view.emb (ix2 p k)) = V c main_call0_v9 (ix2 e k)
  congr 1
  funext a; apply Fin.ext
  match a with
  | ⟨0, _⟩ => show win0_0.index t (0 : Fin 2) * 2000 + 1 * p.val = e.val; rw [h0_0, he]; omega
  | ⟨1, _⟩ => show win0_0.index t (1 : Fin 2) * 128 + 1 * k.val = k.val; rw [h0_1]; omega

/-- Window 1's block at point `t` is rows `2000 t … 2000 t + 1999` of its array. -/
theorem blk1_apply (c : Dev nD) (t : Fin cfg0.N) (p : Fin 2000) (k : Fin 128) (e : Fin 100000) (he : e.val = 2000 * t.val + p.val) :
    (iblk0 V c 1 t : Vec Ideal S2000x128 .f32) (ix2 p k) = (V c main_call0_v10 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v10 (((cfg0.win 1).blk t).view.emb (ix2 p k)) = V c main_call0_v10 (ix2 e k)
  congr 1
  funext a; apply Fin.ext
  match a with
  | ⟨0, _⟩ => show win0_1.index t (0 : Fin 2) * 2000 + 1 * p.val = e.val; rw [h1_0, he]; omega
  | ⟨1, _⟩ => show win0_1.index t (1 : Fin 2) * 128 + 1 * k.val = k.val; rw [h1_1]; omega

/-- Window 2's block at point `t` is rows `2000 t … 2000 t + 1999` of its array. -/
theorem blk2_apply (c : Dev nD) (t : Fin cfg0.N) (p : Fin 2000) (k : Fin 128) (e : Fin 100000) (he : e.val = 2000 * t.val + p.val) :
    (iblk0 V c 2 t : Vec Ideal S2000x128 .f32) (ix2 p k) = (V c main_arg5 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_arg5 (((cfg0.win 2).blk t).view.emb (ix2 p k)) = V c main_arg5 (ix2 e k)
  congr 1
  funext a; apply Fin.ext
  match a with
  | ⟨0, _⟩ => show win0_2.index t (0 : Fin 2) * 2000 + 1 * p.val = e.val; rw [h2_0, he]; omega
  | ⟨1, _⟩ => show win0_2.index t (1 : Fin 2) * 128 + 1 * k.val = k.val; rw [h2_1]; omega

/-- Window 3's block at point `t` is rows `2000 t … 2000 t + 1999` of its array. -/
theorem blk3_apply (c : Dev nD) (t : Fin cfg0.N) (p : Fin 2000) (k : Fin 1) (e : Fin 100000) (he : e.val = 2000 * t.val + p.val) :
    (iblk0 V c 3 t : Vec Ideal S2000x1 .f32) (ix2 p k) = (V c main_call0_v14 : S100000x1.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v14 (((cfg0.win 3).blk t).view.emb (ix2 p k)) = V c main_call0_v14 (ix2 e k)
  congr 1
  funext a; apply Fin.ext
  match a with
  | ⟨0, _⟩ => show win0_3.index t (0 : Fin 2) * 2000 + 1 * p.val = e.val; rw [h3_0, he]; omega
  | ⟨1, _⟩ => show win0_3.index t (1 : Fin 2) * 1 + 1 * k.val = k.val; rw [h3_1]; omega

/-- Window 4's block at every point is its whole array. -/
theorem blk4_apply (c : Dev nD) (t : Fin cfg0.N) (a : Fin 1) (k : Fin 128) :
    (iblk0 V c 4 t : Vec Ideal S1x128 .f32) (ix2 a k) = (V c main_call0_v1 : S1x128.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v1 (((cfg0.win 4).blk t).view.emb (ix2 a k)) = V c main_call0_v1 (ix2 a k)
  congr 1
  funext b; apply Fin.ext
  match b with
  | ⟨0, _⟩ => show win0_4.index t (0 : Fin 2) * 1 + 1 * a.val = a.val; rw [h4_0]; omega
  | ⟨1, _⟩ => show win0_4.index t (1 : Fin 2) * 128 + 1 * k.val = k.val; rw [h4_1]; omega

/-- Window 5's block at every point is its whole array. -/
theorem blk5_apply (c : Dev nD) (t : Fin cfg0.N) (a : Fin 1) (k : Fin 128) :
    (iblk0 V c 5 t : Vec Ideal S1x128 .f32) (ix2 a k) = (V c main_call0_v2 : S1x128.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v2 (((cfg0.win 5).blk t).view.emb (ix2 a k)) = V c main_call0_v2 (ix2 a k)
  congr 1
  funext b; apply Fin.ext
  match b with
  | ⟨0, _⟩ => show win0_5.index t (0 : Fin 2) * 1 + 1 * a.val = a.val; rw [h5_0]; omega
  | ⟨1, _⟩ => show win0_5.index t (1 : Fin 2) * 128 + 1 * k.val = k.val; rw [h5_1]; omega

/-- Window 6's block at every point is its whole array. -/
theorem blk6_apply (c : Dev nD) (t : Fin cfg0.N) (a : Fin 512) (k : Fin 384) :
    (iblk0 V c 6 t : Vec Ideal S512x384 .bf16) (ix2 a k) = (V c main_call0_v4 : S512x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v4 (((cfg0.win 6).blk t).view.emb (ix2 a k)) = V c main_call0_v4 (ix2 a k)
  congr 1
  funext b; apply Fin.ext
  match b with
  | ⟨0, _⟩ => show win0_6.index t (0 : Fin 2) * 512 + 1 * a.val = a.val; rw [h6_0]; omega
  | ⟨1, _⟩ => show win0_6.index t (1 : Fin 2) * 384 + 1 * k.val = k.val; rw [h6_1]; omega

/-- Window 7's block at every point is its whole array. -/
theorem blk7_apply (c : Dev nD) (t : Fin cfg0.N) (a : Fin 1) (k : Fin 384) :
    (iblk0 V c 7 t : Vec Ideal S1x384 .f32) (ix2 a k) = (V c main_call0_v7 : S1x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v7 (((cfg0.win 7).blk t).view.emb (ix2 a k)) = V c main_call0_v7 (ix2 a k)
  congr 1
  funext b; apply Fin.ext
  match b with
  | ⟨0, _⟩ => show win0_7.index t (0 : Fin 2) * 1 + 1 * a.val = a.val; rw [h7_0]; omega
  | ⟨1, _⟩ => show win0_7.index t (1 : Fin 2) * 384 + 1 * k.val = k.val; rw [h7_1]; omega

/-- Window 8's block at every point is its whole array. -/
theorem blk8_apply (c : Dev nD) (t : Fin cfg0.N) (a : Fin 128) (k : Fin 384) :
    (iblk0 V c 8 t : Vec Ideal S128x384 .bf16) (ix2 a k) = (V c main_call0_v6 : S128x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v6 (((cfg0.win 8).blk t).view.emb (ix2 a k)) = V c main_call0_v6 (ix2 a k)
  congr 1
  funext b; apply Fin.ext
  match b with
  | ⟨0, _⟩ => show win0_8.index t (0 : Fin 2) * 128 + 1 * a.val = a.val; rw [h8_0]; omega
  | ⟨1, _⟩ => show win0_8.index t (1 : Fin 2) * 384 + 1 * k.val = k.val; rw [h8_1]; omega

/-- Window 9's block at every point is its whole array. -/
theorem blk9_apply (c : Dev nD) (t : Fin cfg0.N) (a : Fin 1) (k : Fin 384) :
    (iblk0 V c 9 t : Vec Ideal S1x384 .f32) (ix2 a k) = (V c main_call0_v8 : S1x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk0
  rw [View.read_apply]
  show V c main_call0_v8 (((cfg0.win 9).blk t).view.emb (ix2 a k)) = V c main_call0_v8 (ix2 a k)
  congr 1
  funext b; apply Fin.ext
  match b with
  | ⟨0, _⟩ => show win0_9.index t (0 : Fin 2) * 1 + 1 * a.val = a.val; rw [h9_0]; omega
  | ⟨1, _⟩ => show win0_9.index t (1 : Fin 2) * 384 + 1 * k.val = k.val; rw [h9_1]; omega

/-! ## What a point writes back, the cover, the array -/

/-- The output array after the region: the cell of every edge, from the input windows' arrays as the region finds them. -/
abbrev cellOf (c : Dev nD) : S100000x128.Idx → EReal :=
  TGNCell.cellArr
          (fun e k => (V c main_call0_v9 : S100000x128.Idx → EReal) (ValueIdx.ix2 e k))
          (fun e k => (V c main_call0_v10 : S100000x128.Idx → EReal) (ValueIdx.ix2 e k))
          (fun e k => (V c main_arg5 : S100000x128.Idx → EReal) (ValueIdx.ix2 e k))
          (fun e => (V c main_call0_v14 : S100000x1.Idx → EReal) (ValueIdx.ix2 e 0))
          (fun k => (V c main_call0_v1 : S1x128.Idx → EReal) (ValueIdx.ix2 0 k))
          (fun k => (V c main_call0_v2 : S1x128.Idx → EReal) (ValueIdx.ix2 0 k))
          (fun k q => (V c main_call0_v4 : S512x384.Idx → EReal) (ValueIdx.ix2 k q))
          (fun q => (V c main_call0_v7 : S1x384.Idx → EReal) (ValueIdx.ix2 0 q))
          (fun k q => (V c main_call0_v6 : S128x384.Idx → EReal) (ValueIdx.ix2 k q))
          (fun q => (V c main_call0_v8 : S1x384.Idx → EReal) (ValueIdx.ix2 0 q))

/-- WHAT POINT `t` WRITES BACK is block `t` of `cellOf`. -/
theorem flushed_eq (c : Dev nD) (t : Fin cfg0.N) :
    (dat0 (F := Ideal) V c).flushed 10 t = ((cfg0.win 10).blk t).view.read (Elt Ideal) (cellOf V c) := by
  show (cfg0.win 10).cut (grid0.coords t) ((dat0 (F := Ideal) V c).after 10 t) = _
  rw [after0_10]
  funext y
  obtain ⟨p, j, rfl⟩ : ∃ (p : Fin 2000) (j : Fin 128), y = ix2 p j := ⟨y 0, y 1, eq_ix2 y⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  have hN : cfg0.N = 50 := N_0
  have ht : t.val < 50 := by have := t.isLt; omega
  have hp : p.val < 2000 := p.isLt
  obtain ⟨e, he⟩ : ∃ e : Fin 100000, e.val = 2000 * t.val + p.val := ⟨⟨2000 * t.val + p.val, by omega⟩, rfl⟩
  have hemb : ((cfg0.win 10).blk t).view.emb (ix2 p j) = (ix2 e j : S100000x128.Idx) := by
    funext a; apply Fin.ext
    match a with
    | ⟨0, _⟩ => show win0_10.index t (0 : Fin 2) * 2000 + 1 * p.val = e.val; rw [h10_0, he]; omega
    | ⟨1, _⟩ => show win0_10.index t (1 : Fin 2) * 128 + 1 * j.val = j.val; rw [h10_1]; omega
  have e0 : (fun k : Fin 128 => (iblk0 V c 0 t : Vec Ideal S2000x128 .f32) (ix2 p k)) = fun k => (V c main_call0_v9 : S100000x128.Idx → EReal) (ix2 e k) :=
    funext fun k => blk0_apply V c t p k e he
  have e1 : (fun k : Fin 128 => (iblk0 V c 1 t : Vec Ideal S2000x128 .f32) (ix2 p k)) = fun k => (V c main_call0_v10 : S100000x128.Idx → EReal) (ix2 e k) :=
    funext fun k => blk1_apply V c t p k e he
  have e2 : (fun k : Fin 128 => (iblk0 V c 2 t : Vec Ideal S2000x128 .f32) (ix2 p k)) = fun k => (V c main_arg5 : S100000x128.Idx → EReal) (ix2 e k) :=
    funext fun k => blk2_apply V c t p k e he
  have e3 : (iblk0 V c 3 t : Vec Ideal S2000x1 .f32) (ix2 p 0) = (V c main_call0_v14 : S100000x1.Idx → EReal) (ix2 e 0) :=
    blk3_apply V c t p 0 e he
  have e4 : (fun k : Fin 128 => (iblk0 V c 4 t : Vec Ideal S1x128 .f32) (ix2 0 k)) = fun k => (V c main_call0_v1 : S1x128.Idx → EReal) (ix2 0 k) :=
    funext fun k => blk4_apply V c t 0 k
  have e5 : (fun k : Fin 128 => (iblk0 V c 5 t : Vec Ideal S1x128 .f32) (ix2 0 k)) = fun k => (V c main_call0_v2 : S1x128.Idx → EReal) (ix2 0 k) :=
    funext fun k => blk5_apply V c t 0 k
  have e6 : (fun (k : Fin 512) (q : Fin 384) => (iblk0 V c 6 t : Vec Ideal S512x384 .bf16) (ix2 k q)) = fun k q => (V c main_call0_v4 : S512x384.Idx → EReal) (ix2 k q) :=
    funext fun k => funext fun q => blk6_apply V c t k q
  have e7 : (fun q : Fin 384 => (iblk0 V c 7 t : Vec Ideal S1x384 .f32) (ix2 0 q)) = fun q => (V c main_call0_v7 : S1x384.Idx → EReal) (ix2 0 q) :=
    funext fun q => blk7_apply V c t 0 q
  have e8 : (fun (k : Fin 128) (q : Fin 384) => (iblk0 V c 8 t : Vec Ideal S128x384 .bf16) (ix2 k q)) = fun k q => (V c main_call0_v6 : S128x384.Idx → EReal) (ix2 k q) :=
    funext fun k => funext fun q => blk8_apply V c t k q
  have e9 : (fun q : Fin 384 => (iblk0 V c 9 t : Vec Ideal S1x384 .f32) (ix2 0 q)) = fun q => (V c main_call0_v8 : S1x384.Idx → EReal) (ix2 0 q) :=
    funext fun q => blk9_apply V c t 0 q
  show out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p j)
    = cellOf V c (((cfg0.win 10).blk t).view.emb (ix2 p j))
  rw [hemb, out_cell, e0, e1, e2, e3, e4, e5, e6, e7, e8, e9]
  rfl

/-- An index of the output array is in point `t`'s block iff each coordinate is in the block's range on its axis. -/
theorem mem_blk (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_call0_v15).slice (win0_10.rect t)).set ↔ _
  rw [View.set_slice_whole, Rect.mem_set_unit]
  exact Iff.rfl

/-- Every index of the output array is in some point's block: row `r` is in block `r / 2000`. -/
theorem cover (i : S100000x128.Idx) :
    ∃ t : Fin cfg0.N, (cfg0.win 10).flush t = true ∧ i ∈ ((cfg0.win 10).blk t).view.set := by
  have hN : cfg0.N = 50 := N_0
  have hi0 : (i 0).val < 100000 := idx2_lt0 i
  have hi1 : (i 1).val < 128 := idx2_lt1 i
  obtain ⟨t, ht⟩ : ∃ t : Fin cfg0.N, t.val = (i 0).val / 2000 := ⟨⟨(i 0).val / 2000, by omega⟩, rfl⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; rw [h10_0, ht]; omega
  | ⟨1, _⟩ => show win0_10.index t (1 : Fin 2) * 128 ≤ (i 1).val ∧ (i 1).val < win0_10.index t (1 : Fin 2) * 128 + 128; rw [h10_1]; omega

/-- THE OUTPUT ARRAY AFTER REGION 0 is the cell of every edge, from the ten input windows' arrays as the region finds them. -/
theorem region0_value (c : Dev nD) :
    (dat0 (F := Ideal) V c).arrAt 10 cfg0.N =
      TGNCell.cellArr
          (fun e k => (V c main_call0_v9 : S100000x128.Idx → EReal) (ValueIdx.ix2 e k))
          (fun e k => (V c main_call0_v10 : S100000x128.Idx → EReal) (ValueIdx.ix2 e k))
          (fun e k => (V c main_arg5 : S100000x128.Idx → EReal) (ValueIdx.ix2 e k))
          (fun e => (V c main_call0_v14 : S100000x1.Idx → EReal) (ValueIdx.ix2 e 0))
          (fun k => (V c main_call0_v1 : S1x128.Idx → EReal) (ValueIdx.ix2 0 k))
          (fun k => (V c main_call0_v2 : S1x128.Idx → EReal) (ValueIdx.ix2 0 k))
          (fun k q => (V c main_call0_v4 : S512x384.Idx → EReal) (ValueIdx.ix2 k q))
          (fun q => (V c main_call0_v7 : S1x384.Idx → EReal) (ValueIdx.ix2 0 q))
          (fun k q => (V c main_call0_v6 : S128x384.Idx → EReal) (ValueIdx.ix2 k q))
          (fun q => (V c main_call0_v8 : S1x384.Idx → EReal) (ValueIdx.ix2 0 q)) :=
  (dat0 (F := Ideal) V c).arrAt_eq_of_cover 10 (cellOf V c) (fun t _ => flushed_eq V c t) (cover)

end Cert.KernelIdeal.RegionCell0

end
-- ==== Proof.RegionCell1.lean ====
/-
  Region 1, read as values at the exact instance: after the pipelined GRU call the output window's array is the GRU cell
  applied edge by edge to the ten input windows' arrays as the region finds them.

  The body's one store leaves in the output block, at row `p` and column `j`, the cell of row `p` of the edge blocks
  (`out_cell`). At grid point `t` the four edge windows' blocks are rows `2000 t … 2000 t + 1999` of their arrays and the
  six parameter windows' blocks are their whole arrays (`idx_facts`, `blkW_apply`), while the output block is rows
  `2000 t … 2000 t + 1999` of the output array: so what point `t` writes back is block `t` of ONE function of the
  arrays, `TGNCell.cellArr` (`flushed_eq`). The fifty blocks cover the `100000` rows (row `r` lies in block `r / 2000`),
  so the array ends holding that function (`region1_value`).
-/
import proofs.«414128_j58780922413723_3_alg».proof.Proof.Gen.KernelIdeal.Frame
import proofs.«414128_j58780922413723_3_alg».proof.Proof.CellArr
import proofs.«414128_j58780922413723_3_alg».proof.Proof.PayloadCell
import Idealize.ShloMosaic.Lib.Pipeline.Value

noncomputable section

namespace Cert.KernelIdeal.RegionCell1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The output block from the input blocks, entry by entry -/

/-- What the body leaves in the output block at row `p`, column `j`: the cell of row `p` of the edge blocks. -/
theorem out_cell (x0 x1 x2 : Vec Ideal S2000x128 .f32) (x3 : Vec Ideal S2000x1 .f32) (x4 x5 : Vec Ideal S1x128 .f32)
    (x6 : Vec Ideal S512x384 .bf16) (x7 x9 : Vec Ideal S1x384 .f32) (x8 : Vec Ideal S128x384 .bf16)
    (p : Fin 2000) (j : Fin 128) :
    out1_10 (F := Ideal) x0 x1 x2 x3 x4 x5 x6 x7 x8 x9 (ix2 p j)
      = TGNCell.cell (fun k => x0 (ix2 p k)) (fun k => x1 (ix2 p k)) (fun k => x2 (ix2 p k))
          (TGNCell.tenc (x3 (ix2 p 0)) (fun k => x4 (ix2 0 k)) (fun k => x5 (ix2 0 k)))
          (fun k q => x6 (ix2 k q)) (fun q => x7 (ix2 0 q)) (fun k q => x8 (ix2 k q)) (fun q => x9 (ix2 0 q)) j := by
  unfold out1_10
  rw [View.canon_unit_zero hz]
  simp only [View.ld_unit_zero (S := S2000x128) hz, View.ld_unit_zero (S := S2000x1) hz, View.ld_unit_zero (S := S1x128) hz,
    View.ld_unit_zero (S := S512x384) hz, View.ld_unit_zero (S := S1x384) hz, View.ld_unit_zero (S := S128x384) hz]
  exact PayloadCell.pay_cell1 x0 x1 x2 x3 x4 x5 x6 x7 x8 x9 p j

/-! ## The windows' blocks as parts of their arrays -/

/-- The printed index maps over the grid: an edge window's block index is `(t, 0)`, a parameter window's `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Window 0's block at point `t` is rows `2000 t … 2000 t + 1999` of its array. -/
theorem blk0_apply (c : Dev nD) (t : Fin cfg1.N) (p : Fin 2000) (k : Fin 128) (e : Fin 100000) (he : e.val = 2000 * t.val + p.val) :
    (iblk1 V c 0 t : Vec Ideal S2000x128 .f32) (ix2 p k) = (V c main_call0_v48 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v48 (((cfg1.win 0).blk t).view.emb (ix2 p k)) = V c main_call0_v48 (ix2 e k)
  congr 1
  funext a; apply Fin.ext
  match a with
  | ⟨0, _⟩ => show win1_0.index t (0 : Fin 2) * 2000 + 1 * p.val = e.val; rw [h0_0, he]; omega
  | ⟨1, _⟩ => show win1_0.index t (1 : Fin 2) * 128 + 1 * k.val = k.val; rw [h0_1]; omega

/-- Window 1's block at point `t` is rows `2000 t … 2000 t + 1999` of its array. -/
theorem blk1_apply (c : Dev nD) (t : Fin cfg1.N) (p : Fin 2000) (k : Fin 128) (e : Fin 100000) (he : e.val = 2000 * t.val + p.val) :
    (iblk1 V c 1 t : Vec Ideal S2000x128 .f32) (ix2 p k) = (V c main_call0_v49 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v49 (((cfg1.win 1).blk t).view.emb (ix2 p k)) = V c main_call0_v49 (ix2 e k)
  congr 1
  funext a; apply Fin.ext
  match a with
  | ⟨0, _⟩ => show win1_1.index t (0 : Fin 2) * 2000 + 1 * p.val = e.val; rw [h1_0, he]; omega
  | ⟨1, _⟩ => show win1_1.index t (1 : Fin 2) * 128 + 1 * k.val = k.val; rw [h1_1]; omega

/-- Window 2's block at point `t` is rows `2000 t … 2000 t + 1999` of its array. -/
theorem blk2_apply (c : Dev nD) (t : Fin cfg1.N) (p : Fin 2000) (k : Fin 128) (e : Fin 100000) (he : e.val = 2000 * t.val + p.val) :
    (iblk1 V c 2 t : Vec Ideal S2000x128 .f32) (ix2 p k) = (V c main_arg5 : S100000x128.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_arg5 (((cfg1.win 2).blk t).view.emb (ix2 p k)) = V c main_arg5 (ix2 e k)
  congr 1
  funext a; apply Fin.ext
  match a with
  | ⟨0, _⟩ => show win1_2.index t (0 : Fin 2) * 2000 + 1 * p.val = e.val; rw [h2_0, he]; omega
  | ⟨1, _⟩ => show win1_2.index t (1 : Fin 2) * 128 + 1 * k.val = k.val; rw [h2_1]; omega

/-- Window 3's block at point `t` is rows `2000 t … 2000 t + 1999` of its array. -/
theorem blk3_apply (c : Dev nD) (t : Fin cfg1.N) (p : Fin 2000) (k : Fin 1) (e : Fin 100000) (he : e.val = 2000 * t.val + p.val) :
    (iblk1 V c 3 t : Vec Ideal S2000x1 .f32) (ix2 p k) = (V c main_call0_v53 : S100000x1.Idx → EReal) (ix2 e k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v53 (((cfg1.win 3).blk t).view.emb (ix2 p k)) = V c main_call0_v53 (ix2 e k)
  congr 1
  funext a; apply Fin.ext
  match a with
  | ⟨0, _⟩ => show win1_3.index t (0 : Fin 2) * 2000 + 1 * p.val = e.val; rw [h3_0, he]; omega
  | ⟨1, _⟩ => show win1_3.index t (1 : Fin 2) * 1 + 1 * k.val = k.val; rw [h3_1]; omega

/-- Window 4's block at every point is its whole array. -/
theorem blk4_apply (c : Dev nD) (t : Fin cfg1.N) (a : Fin 1) (k : Fin 128) :
    (iblk1 V c 4 t : Vec Ideal S1x128 .f32) (ix2 a k) = (V c main_call0_v1 : S1x128.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v1 (((cfg1.win 4).blk t).view.emb (ix2 a k)) = V c main_call0_v1 (ix2 a k)
  congr 1
  funext b; apply Fin.ext
  match b with
  | ⟨0, _⟩ => show win1_4.index t (0 : Fin 2) * 1 + 1 * a.val = a.val; rw [h4_0]; omega
  | ⟨1, _⟩ => show win1_4.index t (1 : Fin 2) * 128 + 1 * k.val = k.val; rw [h4_1]; omega

/-- Window 5's block at every point is its whole array. -/
theorem blk5_apply (c : Dev nD) (t : Fin cfg1.N) (a : Fin 1) (k : Fin 128) :
    (iblk1 V c 5 t : Vec Ideal S1x128 .f32) (ix2 a k) = (V c main_call0_v2 : S1x128.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v2 (((cfg1.win 5).blk t).view.emb (ix2 a k)) = V c main_call0_v2 (ix2 a k)
  congr 1
  funext b; apply Fin.ext
  match b with
  | ⟨0, _⟩ => show win1_5.index t (0 : Fin 2) * 1 + 1 * a.val = a.val; rw [h5_0]; omega
  | ⟨1, _⟩ => show win1_5.index t (1 : Fin 2) * 128 + 1 * k.val = k.val; rw [h5_1]; omega

/-- Window 6's block at every point is its whole array. -/
theorem blk6_apply (c : Dev nD) (t : Fin cfg1.N) (a : Fin 512) (k : Fin 384) :
    (iblk1 V c 6 t : Vec Ideal S512x384 .bf16) (ix2 a k) = (V c main_call0_v4 : S512x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v4 (((cfg1.win 6).blk t).view.emb (ix2 a k)) = V c main_call0_v4 (ix2 a k)
  congr 1
  funext b; apply Fin.ext
  match b with
  | ⟨0, _⟩ => show win1_6.index t (0 : Fin 2) * 512 + 1 * a.val = a.val; rw [h6_0]; omega
  | ⟨1, _⟩ => show win1_6.index t (1 : Fin 2) * 384 + 1 * k.val = k.val; rw [h6_1]; omega

/-- Window 7's block at every point is its whole array. -/
theorem blk7_apply (c : Dev nD) (t : Fin cfg1.N) (a : Fin 1) (k : Fin 384) :
    (iblk1 V c 7 t : Vec Ideal S1x384 .f32) (ix2 a k) = (V c main_call0_v7 : S1x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v7 (((cfg1.win 7).blk t).view.emb (ix2 a k)) = V c main_call0_v7 (ix2 a k)
  congr 1
  funext b; apply Fin.ext
  match b with
  | ⟨0, _⟩ => show win1_7.index t (0 : Fin 2) * 1 + 1 * a.val = a.val; rw [h7_0]; omega
  | ⟨1, _⟩ => show win1_7.index t (1 : Fin 2) * 384 + 1 * k.val = k.val; rw [h7_1]; omega

/-- Window 8's block at every point is its whole array. -/
theorem blk8_apply (c : Dev nD) (t : Fin cfg1.N) (a : Fin 128) (k : Fin 384) :
    (iblk1 V c 8 t : Vec Ideal S128x384 .bf16) (ix2 a k) = (V c main_call0_v6 : S128x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v6 (((cfg1.win 8).blk t).view.emb (ix2 a k)) = V c main_call0_v6 (ix2 a k)
  congr 1
  funext b; apply Fin.ext
  match b with
  | ⟨0, _⟩ => show win1_8.index t (0 : Fin 2) * 128 + 1 * a.val = a.val; rw [h8_0]; omega
  | ⟨1, _⟩ => show win1_8.index t (1 : Fin 2) * 384 + 1 * k.val = k.val; rw [h8_1]; omega

/-- Window 9's block at every point is its whole array. -/
theorem blk9_apply (c : Dev nD) (t : Fin cfg1.N) (a : Fin 1) (k : Fin 384) :
    (iblk1 V c 9 t : Vec Ideal S1x384 .f32) (ix2 a k) = (V c main_call0_v8 : S1x384.Idx → EReal) (ix2 a k) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_call0_v8 (((cfg1.win 9).blk t).view.emb (ix2 a k)) = V c main_call0_v8 (ix2 a k)
  congr 1
  funext b; apply Fin.ext
  match b with
  | ⟨0, _⟩ => show win1_9.index t (0 : Fin 2) * 1 + 1 * a.val = a.val; rw [h9_0]; omega
  | ⟨1, _⟩ => show win1_9.index t (1 : Fin 2) * 384 + 1 * k.val = k.val; rw [h9_1]; omega

/-! ## What a point writes back, the cover, the array -/

/-- The output array after the region: the cell of every edge, from the input windows' arrays as the region finds them. -/
abbrev cellOf (c : Dev nD) : S100000x128.Idx → EReal :=
  TGNCell.cellArr
          (fun e k => (V c main_call0_v48 : S100000x128.Idx → EReal) (ValueIdx.ix2 e k))
          (fun e k => (V c main_call0_v49 : S100000x128.Idx → EReal) (ValueIdx.ix2 e k))
          (fun e k => (V c main_arg5 : S100000x128.Idx → EReal) (ValueIdx.ix2 e k))
          (fun e => (V c main_call0_v53 : S100000x1.Idx → EReal) (ValueIdx.ix2 e 0))
          (fun k => (V c main_call0_v1 : S1x128.Idx → EReal) (ValueIdx.ix2 0 k))
          (fun k => (V c main_call0_v2 : S1x128.Idx → EReal) (ValueIdx.ix2 0 k))
          (fun k q => (V c main_call0_v4 : S512x384.Idx → EReal) (ValueIdx.ix2 k q))
          (fun q => (V c main_call0_v7 : S1x384.Idx → EReal) (ValueIdx.ix2 0 q))
          (fun k q => (V c main_call0_v6 : S128x384.Idx → EReal) (ValueIdx.ix2 k q))
          (fun q => (V c main_call0_v8 : S1x384.Idx → EReal) (ValueIdx.ix2 0 q))

/-- WHAT POINT `t` WRITES BACK is block `t` of `cellOf`. -/
theorem flushed_eq (c : Dev nD) (t : Fin cfg1.N) :
    (dat1 (F := Ideal) V c).flushed 10 t = ((cfg1.win 10).blk t).view.read (Elt Ideal) (cellOf V c) := by
  show (cfg1.win 10).cut (grid1.coords t) ((dat1 (F := Ideal) V c).after 10 t) = _
  rw [after1_10]
  funext y
  obtain ⟨p, j, rfl⟩ : ∃ (p : Fin 2000) (j : Fin 128), y = ix2 p j := ⟨y 0, y 1, eq_ix2 y⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  have hN : cfg1.N = 50 := N_1
  have ht : t.val < 50 := by have := t.isLt; omega
  have hp : p.val < 2000 := p.isLt
  obtain ⟨e, he⟩ : ∃ e : Fin 100000, e.val = 2000 * t.val + p.val := ⟨⟨2000 * t.val + p.val, by omega⟩, rfl⟩
  have hemb : ((cfg1.win 10).blk t).view.emb (ix2 p j) = (ix2 e j : S100000x128.Idx) := by
    funext a; apply Fin.ext
    match a with
    | ⟨0, _⟩ => show win1_10.index t (0 : Fin 2) * 2000 + 1 * p.val = e.val; rw [h10_0, he]; omega
    | ⟨1, _⟩ => show win1_10.index t (1 : Fin 2) * 128 + 1 * j.val = j.val; rw [h10_1]; omega
  have e0 : (fun k : Fin 128 => (iblk1 V c 0 t : Vec Ideal S2000x128 .f32) (ix2 p k)) = fun k => (V c main_call0_v48 : S100000x128.Idx → EReal) (ix2 e k) :=
    funext fun k => blk0_apply V c t p k e he
  have e1 : (fun k : Fin 128 => (iblk1 V c 1 t : Vec Ideal S2000x128 .f32) (ix2 p k)) = fun k => (V c main_call0_v49 : S100000x128.Idx → EReal) (ix2 e k) :=
    funext fun k => blk1_apply V c t p k e he
  have e2 : (fun k : Fin 128 => (iblk1 V c 2 t : Vec Ideal S2000x128 .f32) (ix2 p k)) = fun k => (V c main_arg5 : S100000x128.Idx → EReal) (ix2 e k) :=
    funext fun k => blk2_apply V c t p k e he
  have e3 : (iblk1 V c 3 t : Vec Ideal S2000x1 .f32) (ix2 p 0) = (V c main_call0_v53 : S100000x1.Idx → EReal) (ix2 e 0) :=
    blk3_apply V c t p 0 e he
  have e4 : (fun k : Fin 128 => (iblk1 V c 4 t : Vec Ideal S1x128 .f32) (ix2 0 k)) = fun k => (V c main_call0_v1 : S1x128.Idx → EReal) (ix2 0 k) :=
    funext fun k => blk4_apply V c t 0 k
  have e5 : (fun k : Fin 128 => (iblk1 V c 5 t : Vec Ideal S1x128 .f32) (ix2 0 k)) = fun k => (V c main_call0_v2 : S1x128.Idx → EReal) (ix2 0 k) :=
    funext fun k => blk5_apply V c t 0 k
  have e6 : (fun (k : Fin 512) (q : Fin 384) => (iblk1 V c 6 t : Vec Ideal S512x384 .bf16) (ix2 k q)) = fun k q => (V c main_call0_v4 : S512x384.Idx → EReal) (ix2 k q) :=
    funext fun k => funext fun q => blk6_apply V c t k q
  have e7 : (fun q : Fin 384 => (iblk1 V c 7 t : Vec Ideal S1x384 .f32) (ix2 0 q)) = fun q => (V c main_call0_v7 : S1x384.Idx → EReal) (ix2 0 q) :=
    funext fun q => blk7_apply V c t 0 q
  have e8 : (fun (k : Fin 128) (q : Fin 384) => (iblk1 V c 8 t : Vec Ideal S128x384 .bf16) (ix2 k q)) = fun k q => (V c main_call0_v6 : S128x384.Idx → EReal) (ix2 k q) :=
    funext fun k => funext fun q => blk8_apply V c t k q
  have e9 : (fun q : Fin 384 => (iblk1 V c 9 t : Vec Ideal S1x384 .f32) (ix2 0 q)) = fun q => (V c main_call0_v8 : S1x384.Idx → EReal) (ix2 0 q) :=
    funext fun q => blk9_apply V c t 0 q
  show out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p j)
    = cellOf V c (((cfg1.win 10).blk t).view.emb (ix2 p j))
  rw [hemb, out_cell, e0, e1, e2, e3, e4, e5, e6, e7, e8, e9]
  rfl

/-- An index of the output array is in point `t`'s block iff each coordinate is in the block's range on its axis. -/
theorem mem_blk (t : Fin cfg1.N) (i : S100000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_call0_v54).slice (win1_10.rect t)).set ↔ _
  rw [View.set_slice_whole, Rect.mem_set_unit]
  exact Iff.rfl

/-- Every index of the output array is in some point's block: row `r` is in block `r / 2000`. -/
theorem cover (i : S100000x128.Idx) :
    ∃ t : Fin cfg1.N, (cfg1.win 10).flush t = true ∧ i ∈ ((cfg1.win 10).blk t).view.set := by
  have hN : cfg1.N = 50 := N_1
  have hi0 : (i 0).val < 100000 := idx2_lt0 i
  have hi1 : (i 1).val < 128 := idx2_lt1 i
  obtain ⟨t, ht⟩ : ∃ t : Fin cfg1.N, t.val = (i 0).val / 2000 := ⟨⟨(i 0).val / 2000, by omega⟩, rfl⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  refine ⟨t, flush1_10 t, ?_⟩
  rw [mem_blk]
  intro a
  match a with
  | ⟨0, _⟩ => show win1_10.index t (0 : Fin 2) * 2000 ≤ (i 0).val ∧ (i 0).val < win1_10.index t (0 : Fin 2) * 2000 + 2000; rw [h10_0, ht]; omega
  | ⟨1, _⟩ => show win1_10.index t (1 : Fin 2) * 128 ≤ (i 1).val ∧ (i 1).val < win1_10.index t (1 : Fin 2) * 128 + 128; rw [h10_1]; omega

/-- THE OUTPUT ARRAY AFTER REGION 1 is the cell of every edge, from the ten input windows' arrays as the region finds them. -/
theorem region1_value (c : Dev nD) :
    (dat1 (F := Ideal) V c).arrAt 10 cfg1.N =
      TGNCell.cellArr
          (fun e k => (V c main_call0_v48 : S100000x128.Idx → EReal) (ValueIdx.ix2 e k))
          (fun e k => (V c main_call0_v49 : S100000x128.Idx → EReal) (ValueIdx.ix2 e k))
          (fun e k => (V c main_arg5 : S100000x128.Idx → EReal) (ValueIdx.ix2 e k))
          (fun e => (V c main_call0_v53 : S100000x1.Idx → EReal) (ValueIdx.ix2 e 0))
          (fun k => (V c main_call0_v1 : S1x128.Idx → EReal) (ValueIdx.ix2 0 k))
          (fun k => (V c main_call0_v2 : S1x128.Idx → EReal) (ValueIdx.ix2 0 k))
          (fun k q => (V c main_call0_v4 : S512x384.Idx → EReal) (ValueIdx.ix2 k q))
          (fun q => (V c main_call0_v7 : S1x384.Idx → EReal) (ValueIdx.ix2 0 q))
          (fun k q => (V c main_call0_v6 : S128x384.Idx → EReal) (ValueIdx.ix2 k q))
          (fun q => (V c main_call0_v8 : S1x384.Idx → EReal) (ValueIdx.ix2 0 q)) :=
  (dat1 (F := Ideal) V c).arrAt_eq_of_cover 10 (cellOf V c) (fun t _ => flushed_eq V c t) (cover)

end Cert.KernelIdeal.RegionCell1

end
-- ==== Proof.KPhase.lean ====
/-
  The kernel program's two phases as functions of plain arrays, at the exact instance: a phase gathers the rows of the
  edges' two ends and the elapsed times, the GRU call turns them into new rows (entry `(e, j)` the cell of edge `e` at
  `j`), and the rows are written back with the last edge of a row winning; the times are raised by a scatter-max.
-/
import proofs.«414128_j58780922413723_3_alg».proof.Proof.KSpec
import proofs.«414128_j58780922413723_3_alg».proof.Proof.CellArr

noncomputable section

namespace Cert.KernelIdeal.TGN

open Cert.KernelIdeal Cert.KernelIdeal.Gen Idealize.ShloMosaic Idealize.ShloMosaic.ValueIdx

/-- The GRU call's result array from its ten operand arrays. -/
def kGru (xA xB xR : FVec Ideal S100000x128 .f32) (xT : FVec Ideal S100000x1 .f32) (w c : FVec Ideal S1x128 .f32)
    (wi : FVec Ideal S512x384 .bf16) (bi : FVec Ideal S1x384 .f32) (wh : FVec Ideal S128x384 .bf16) (bh : FVec Ideal S1x384 .f32) :
    FVec Ideal S100000x128 .f32 :=
  TGNCell.cellArr (fun e k => xA (ix2 e k)) (fun e k => xB (ix2 e k)) (fun e k => xR (ix2 e k)) (fun e => xT (ix2 e 0))
    (fun k => w (ix2 0 k)) (fun k => c (ix2 0 k)) (fun k q => wi (ix2 k q)) (fun q => bi (ix2 0 q))
    (fun k q => wh (ix2 k q)) (fun q => bh (ix2 0 q))

/-- One phase's new memory. -/
def kPhaseMem (mem : FVec Ideal S200000x128 .f32) (lu : IVec S200000 32) (a b t : IVec S100000 32) (raw : FVec Ideal S100000x128 .f32)
    (tw : FVec Ideal S128x1 .f32) (tb : FVec Ideal S128 .f32) (wih : FVec Ideal S384x512 .f32) (bih : FVec Ideal S384 .f32)
    (whh : FVec Ideal S384x128 .f32) (bhh : FVec Ideal S384 .f32) : FVec Ideal S200000x128 .f32 :=
  putRows mem a (kGru (takeRows mem a) (takeRows mem b) raw (trel t lu a) (twRow tw) (tbRow tb) (wihT wih) (biasRow bih) (whhT whh) (biasRow bhh))

/-- The program's memory result: the second phase, ends exchanged, of the first phase's result. -/
def kOutMem (mem : FVec Ideal S200000x128 .f32) (lu : IVec S200000 32) (src dst t : IVec S100000 32) (raw : FVec Ideal S100000x128 .f32)
    (tw : FVec Ideal S128x1 .f32) (tb : FVec Ideal S128 .f32) (wih : FVec Ideal S384x512 .f32) (bih : FVec Ideal S384 .f32)
    (whh : FVec Ideal S384x128 .f32) (bhh : FVec Ideal S384 .f32) : FVec Ideal S200000x128 .f32 :=
  kPhaseMem (kPhaseMem mem lu src dst t raw tw tb wih bih whh bhh) (putMax lu src t) dst src t raw tw tb wih bih whh bhh

/-- The program's last-update result. -/
def kOutLu (lu : IVec S200000 32) (src dst t : IVec S100000 32) : IVec S200000 32 := putMax (putMax lu src t) dst t

end Cert.KernelIdeal.TGN

end
-- ==== Proof.WChain.lean ====
/-
  The kernel program's results as the two phases of its launch contents: the fold of the generated frame through
  the five segments — host stretch, GRU call, host stretch, GRU call, host stretch — read at the buffers that matter.
  A host stretch is read by the host functions; a GRU call leaves its output window's array at the cell of its ten
  input windows' arrays and every other buffer as it found it.
-/
import proofs.«414128_j58780922413723_3_alg».proof.Proof.Gen.KernelIdeal.Frame
import proofs.«414128_j58780922413723_3_alg».proof.Proof.HostRead
import proofs.«414128_j58780922413723_3_alg».proof.Proof.RegionCell0
import proofs.«414128_j58780922413723_3_alg».proof.Proof.RegionCell1
import proofs.«414128_j58780922413723_3_alg».proof.Proof.KPhase

set_option Elab.async false

noncomputable section

namespace Cert.KernelIdeal.Gen

open Cert.KernelIdeal Cert.KernelIdeal.TGN Cert.KernelIdeal.HostRead
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## At the first GRU call's entry -/

theorem W1_arg (k : Fin 12) : W1 m ρ c (Proc.devRef .tc (![main_arg0, main_arg1, main_arg2, main_arg3, main_arg4, main_arg5, main_arg6, main_arg7, main_arg8, main_arg9, main_arg10, main_arg11] k)) = m ((c : Thread nD τ).loc (![main_arg0, main_arg1, main_arg2, main_arg3, main_arg4, main_arg5, main_arg6, main_arg7, main_arg8, main_arg9, main_arg10, main_arg11] k)) :=
  s0_arg (W0 m ρ c) k

/-- The first call's result array: the cell of the gathered rows. -/
theorem W2_v15 : W2 m ρ c (Proc.devRef .tc main_call0_v15) =
    kGru (takeRows (m ((c : Thread nD τ).loc main_arg0)) (m ((c : Thread nD τ).loc main_arg2))) (takeRows (m ((c : Thread nD τ).loc main_arg0)) (m ((c : Thread nD τ).loc main_arg3))) (m ((c : Thread nD τ).loc main_arg5)) (trel (m ((c : Thread nD τ).loc main_arg4)) (m ((c : Thread nD τ).loc main_arg1)) (m ((c : Thread nD τ).loc main_arg2)))
      (twRow (m ((c : Thread nD τ).loc main_arg6))) (tbRow (m ((c : Thread nD τ).loc main_arg7))) (wihT (m ((c : Thread nD τ).loc main_arg8))) (biasRow (m ((c : Thread nD τ).loc main_arg9))) (whhT (m ((c : Thread nD τ).loc main_arg10))) (biasRow (m ((c : Thread nD τ).loc main_arg11))) := by
  refine (W2_arr m ρ c 10).trans ((Cert.KernelIdeal.RegionCell0.region0_value (V1 m ρ) c).trans ?_)
  unfold kGru
  rw [show V1 m ρ c main_call0_v9 = _ from s0_v9 (W0 m ρ c), show V1 m ρ c main_call0_v10 = _ from s0_v10 (W0 m ρ c),
    show V1 m ρ c main_arg5 = _ from W1_arg m ρ c 5, show V1 m ρ c main_call0_v14 = _ from s0_v14 (W0 m ρ c),
    show V1 m ρ c main_call0_v1 = _ from s0_v1 (W0 m ρ c), show V1 m ρ c main_call0_v2 = _ from s0_v2 (W0 m ρ c),
    show V1 m ρ c main_call0_v4 = _ from s0_v4 (W0 m ρ c), show V1 m ρ c main_call0_v7 = _ from s0_v7 (W0 m ρ c),
    show V1 m ρ c main_call0_v6 = _ from s0_v6 (W0 m ρ c), show V1 m ρ c main_call0_v8 = _ from s0_v8 (W0 m ρ c)]
  rfl

/-- A buffer that is no array of the first call's windows crosses the call unchanged; here the five index and time arguments. -/
theorem W2_arg0 : W2 m ρ c (Proc.devRef .tc main_arg0) = (m ((c : Thread nD τ).loc main_arg0)) := (W2_of_ne m ρ c main_arg0 (by decide)).trans (W1_arg m ρ c 0)
theorem W2_arg1 : W2 m ρ c (Proc.devRef .tc main_arg1) = (m ((c : Thread nD τ).loc main_arg1)) := (W2_of_ne m ρ c main_arg1 (by decide)).trans (W1_arg m ρ c 1)
theorem W2_arg2 : W2 m ρ c (Proc.devRef .tc main_arg2) = (m ((c : Thread nD τ).loc main_arg2)) := (W2_of_ne m ρ c main_arg2 (by decide)).trans (W1_arg m ρ c 2)
theorem W2_arg3 : W2 m ρ c (Proc.devRef .tc main_arg3) = (m ((c : Thread nD τ).loc main_arg3)) := (W2_of_ne m ρ c main_arg3 (by decide)).trans (W1_arg m ρ c 3)
theorem W2_arg4 : W2 m ρ c (Proc.devRef .tc main_arg4) = (m ((c : Thread nD τ).loc main_arg4)) := (W2_of_ne m ρ c main_arg4 (by decide)).trans (W1_arg m ρ c 4)

/-- An input window's array crosses its call unchanged. -/
theorem W2_in (w : Fin cfg0.W) (hw : (cfg0.win w).isOut = false := by rfl) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem W2_arg5 : W2 m ρ c (Proc.devRef .tc main_arg5) = (m ((c : Thread nD τ).loc main_arg5)) := (W2_in m ρ c 2).trans (W1_arg m ρ c 5)
theorem W2_v1 : W2 m ρ c (Proc.devRef .tc main_call0_v1) = twRow (F := Ideal) (m ((c : Thread nD τ).loc main_arg6)) := (W2_in m ρ c 4).trans (s0_v1 (W0 m ρ c))
theorem W2_v2 : W2 m ρ c (Proc.devRef .tc main_call0_v2) = tbRow (F := Ideal) (m ((c : Thread nD τ).loc main_arg7)) := (W2_in m ρ c 5).trans (s0_v2 (W0 m ρ c))
theorem W2_v4 : W2 m ρ c (Proc.devRef .tc main_call0_v4) = wihT (F := Ideal) (m ((c : Thread nD τ).loc main_arg8)) := (W2_in m ρ c 6).trans (s0_v4 (W0 m ρ c))
theorem W2_v7 : W2 m ρ c (Proc.devRef .tc main_call0_v7) = biasRow (F := Ideal) (m ((c : Thread nD τ).loc main_arg9)) := (W2_in m ρ c 7).trans (s0_v7 (W0 m ρ c))
theorem W2_v6 : W2 m ρ c (Proc.devRef .tc main_call0_v6) = whhT (F := Ideal) (m ((c : Thread nD τ).loc main_arg10)) := (W2_in m ρ c 8).trans (s0_v6 (W0 m ρ c))
theorem W2_v8 : W2 m ρ c (Proc.devRef .tc main_call0_v8) = biasRow (F := Ideal) (m ((c : Thread nD τ).loc main_arg11)) := (W2_in m ρ c 9).trans (s0_v8 (W0 m ρ c))

/-! ## After the first phase -/

/-- The memory after the first phase. -/
abbrev M1 : FVec Ideal S200000x128 .f32 :=
  kPhaseMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The last-update times after the first phase. -/
abbrev L1 : IVec S200000 32 := putMax (m ((c : Thread nD τ).loc main_arg1)) (m ((c : Thread nD τ).loc main_arg2)) (m ((c : Thread nD τ).loc main_arg4))

theorem mem1_W2 : mem1 (W2 m ρ c) = M1 m c := by
  unfold mem1 M1 kPhaseMem
  rw [W2_arg0, W2_arg2, W2_v15]
theorem lu1_W2 : lu1 (W2 m ρ c) = L1 m c := by
  unfold lu1 L1
  rw [W2_arg1, W2_arg2, W2_arg4]

theorem W3_keep (k : Fin 18) :
    W3 m ρ c (Proc.devRef .tc (![main_arg0, main_arg1, main_arg2, main_arg3, main_arg4, main_arg5, main_arg6, main_arg7, main_arg8, main_arg9, main_arg10, main_arg11, main_call0_v1, main_call0_v2, main_call0_v4, main_call0_v7, main_call0_v6, main_call0_v8] k))
      = W2 m ρ c (Proc.devRef .tc (![main_arg0, main_arg1, main_arg2, main_arg3, main_arg4, main_arg5, main_arg6, main_arg7, main_arg8, main_arg9, main_arg10, main_arg11, main_call0_v1, main_call0_v2, main_call0_v4, main_call0_v7, main_call0_v6, main_call0_v8] k)) :=
  s1_keep (W2 m ρ c) k

theorem W3_v40 : W3 m ρ c (Proc.devRef .tc main_call0_v40) = M1 m c := (s1_v40 (W2 m ρ c)).trans (mem1_W2 m ρ c)
theorem W3_v47 : W3 m ρ c (Proc.devRef .tc main_call0_v47) = L1 m c := (s1_v47 (W2 m ρ c)).trans (lu1_W2 m ρ c)
theorem W3_v48 : W3 m ρ c (Proc.devRef .tc main_call0_v48) = takeRows (M1 m c) (m ((c : Thread nD τ).loc main_arg3)) := by
  rw [show W3 m ρ c (Proc.devRef .tc main_call0_v48) = _ from s1_v48 (W2 m ρ c), mem1_W2, W2_arg3]
theorem W3_v49 : W3 m ρ c (Proc.devRef .tc main_call0_v49) = takeRows (M1 m c) (m ((c : Thread nD τ).loc main_arg2)) := by
  rw [show W3 m ρ c (Proc.devRef .tc main_call0_v49) = _ from s1_v49 (W2 m ρ c), mem1_W2, W2_arg2]
theorem W3_v53 : W3 m ρ c (Proc.devRef .tc main_call0_v53) = trel (F := Ideal) (m ((c : Thread nD τ).loc main_arg4)) (L1 m c) (m ((c : Thread nD τ).loc main_arg3)) := by
  rw [show W3 m ρ c (Proc.devRef .tc main_call0_v53) = _ from s1_v53 (W2 m ρ c), lu1_W2, W2_arg4, W2_arg3]
theorem W3_arg3 : W3 m ρ c (Proc.devRef .tc main_arg3) = (m ((c : Thread nD τ).loc main_arg3)) := (W3_keep m ρ c 3).trans (W2_arg3 m ρ c)
theorem W3_arg4 : W3 m ρ c (Proc.devRef .tc main_arg4) = (m ((c : Thread nD τ).loc main_arg4)) := (W3_keep m ρ c 4).trans (W2_arg4 m ρ c)
theorem W3_arg5 : W3 m ρ c (Proc.devRef .tc main_arg5) = (m ((c : Thread nD τ).loc main_arg5)) := (W3_keep m ρ c 5).trans (W2_arg5 m ρ c)
theorem W3_v1 : W3 m ρ c (Proc.devRef .tc main_call0_v1) = twRow (F := Ideal) (m ((c : Thread nD τ).loc main_arg6)) := (W3_keep m ρ c 12).trans (W2_v1 m ρ c)
theorem W3_v2 : W3 m ρ c (Proc.devRef .tc main_call0_v2) = tbRow (F := Ideal) (m ((c : Thread nD τ).loc main_arg7)) := (W3_keep m ρ c 13).trans (W2_v2 m ρ c)
theorem W3_v4 : W3 m ρ c (Proc.devRef .tc main_call0_v4) = wihT (F := Ideal) (m ((c : Thread nD τ).loc main_arg8)) := (W3_keep m ρ c 14).trans (W2_v4 m ρ c)
theorem W3_v7 : W3 m ρ c (Proc.devRef .tc main_call0_v7) = biasRow (F := Ideal) (m ((c : Thread nD τ).loc main_arg9)) := (W3_keep m ρ c 15).trans (W2_v7 m ρ c)
theorem W3_v6 : W3 m ρ c (Proc.devRef .tc main_call0_v6) = whhT (F := Ideal) (m ((c : Thread nD τ).loc main_arg10)) := (W3_keep m ρ c 16).trans (W2_v6 m ρ c)
theorem W3_v8 : W3 m ρ c (Proc.devRef .tc main_call0_v8) = biasRow (F := Ideal) (m ((c : Thread nD τ).loc main_arg11)) := (W3_keep m ρ c 17).trans (W2_v8 m ρ c)

/-! ## The second GRU call and the last stretch -/

/-- The second call's result array: the cell of the rows gathered from the first phase's memory. -/
theorem W4_v54 : W4 m ρ c (Proc.devRef .tc main_call0_v54) =
    kGru (takeRows (M1 m c) (m ((c : Thread nD τ).loc main_arg3))) (takeRows (M1 m c) (m ((c : Thread nD τ).loc main_arg2))) (m ((c : Thread nD τ).loc main_arg5)) (trel (m ((c : Thread nD τ).loc main_arg4)) (L1 m c) (m ((c : Thread nD τ).loc main_arg3)))
      (twRow (m ((c : Thread nD τ).loc main_arg6))) (tbRow (m ((c : Thread nD τ).loc main_arg7))) (wihT (m ((c : Thread nD τ).loc main_arg8))) (biasRow (m ((c : Thread nD τ).loc main_arg9))) (whhT (m ((c : Thread nD τ).loc main_arg10))) (biasRow (m ((c : Thread nD τ).loc main_arg11))) := by
  refine (W4_arr m ρ c 10).trans ((Cert.KernelIdeal.RegionCell1.region1_value (V3 m ρ) c).trans ?_)
  unfold kGru
  rw [show V3 m ρ c main_call0_v48 = _ from W3_v48 m ρ c, show V3 m ρ c main_call0_v49 = _ from W3_v49 m ρ c,
    show V3 m ρ c main_arg5 = _ from W3_arg5 m ρ c, show V3 m ρ c main_call0_v53 = _ from W3_v53 m ρ c,
    show V3 m ρ c main_call0_v1 = _ from W3_v1 m ρ c, show V3 m ρ c main_call0_v2 = _ from W3_v2 m ρ c,
    show V3 m ρ c main_call0_v4 = _ from W3_v4 m ρ c, show V3 m ρ c main_call0_v7 = _ from W3_v7 m ρ c,
    show V3 m ρ c main_call0_v6 = _ from W3_v6 m ρ c, show V3 m ρ c main_call0_v8 = _ from W3_v8 m ρ c]

theorem W4_v40 : W4 m ρ c (Proc.devRef .tc main_call0_v40) = M1 m c := (W4_of_ne m ρ c main_call0_v40 (by decide)).trans (W3_v40 m ρ c)
theorem W4_v47 : W4 m ρ c (Proc.devRef .tc main_call0_v47) = L1 m c := (W4_of_ne m ρ c main_call0_v47 (by decide)).trans (W3_v47 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)

/-- The memory result is the two phases in turn of the launch contents. -/
theorem W5_out0 : W5 m ρ c (Proc.devRef .tc main_v0_0) =
    kOutMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W5 m ρ c (Proc.devRef .tc main_v0_0) = _ from s2_out0 (W4 m ρ c), W4_v40, W4_arg3, W4_v54]
  rfl

/-- The last-update result is the two raisings in turn. -/
theorem W5_out1 : W5 m ρ c (Proc.devRef .tc main_v0_1) = kOutLu (m ((c : Thread nD τ).loc main_arg1)) (m ((c : Thread nD τ).loc main_arg2)) (m ((c : Thread nD τ).loc main_arg3)) (m ((c : Thread nD τ).loc main_arg4)) := by
  rw [show W5 m ρ c (Proc.devRef .tc main_v0_1) = _ from s2_out1 (W4 m ρ c), W4_v47, W4_arg3, W4_arg4]
  rfl

end Cert.KernelIdeal.Gen

end
-- ==== Proof.Layout.lean ====
/-
  The GRU call's reshaped and transposed operands read at an index: a vector cast to a column or a row holds the same
  entries, a transposed matrix holds entry `(q, k)` at `(k, q)`, and a change of float format changes nothing at the
  exact instance.
-/
import proofs.«414128_j58780922413723_3_alg».proof.Proof.KSpec
import Idealize.ShloMosaic.Lib.ValueIdx
import Idealize.ShloMosaic.Lib.ValueLayout
import Idealize.ShloMosaic.Lib.Pipeline.Value

noncomputable section

namespace Cert.KernelIdeal.TGN

open Cert.KernelIdeal Cert.KernelIdeal.Gen Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The elapsed-time column at edge `e` is the edge's elapsed time. -/
theorem trel_apply (t : IVec S100000 32) (lu : IVec S200000 32) (a : IVec S100000 32) (e : Fin 100000) :
    trel (F := Ideal) t lu a (ix2 e 0) = (sitofp .f32 (subi t (takeVec lu a)) : FVec Ideal S100000 .f32) (ix1 e) :=
  shapeCast_a_a1_apply _ _ e 0

/-- The time encoder's weight row at `k` is the weight column's entry `k`. -/
theorem twRow_apply (tw : FVec Ideal S128x1 .f32) (k : Fin 128) : twRow tw (ix2 0 k) = tw (ix2 k 0) := by
  unfold twRow
  rw [shapeCast_a_1a_apply, shapeCast_a1_a_apply]

/-- The time encoder's offset row at `k` is the offset's entry `k`. -/
theorem tbRow_apply (tb : FVec Ideal S128 .f32) (k : Fin 128) : tbRow tb (ix2 0 k) = tb (ix1 k) :=
  shapeCast_a_1a_apply _ _ 0 k

/-- A bias row at `q` is the bias's entry `q`. -/
theorem biasRow_apply (b : FVec Ideal S384 .f32) (q : Fin 384) : biasRow b (ix2 0 q) = b (ix1 q) :=
  shapeCast_a_1a_apply _ _ 0 q

/-- The input-side weights' operand holds at `(k, q)` the weights' entry `(q, k)`. -/
theorem wihT_apply (w : FVec Ideal S384x512 .f32) (k : Fin 512) (q : Fin 384) : wihT w (ix2 k q) = w (ix2 q k) := by
  unfold wihT
  rw [truncf_apply]
  exact transpose_apply _ _ _ _ (ix2 q k) (fun b => by match b with | ⟨0, _⟩ => rfl | ⟨1, _⟩ => rfl)

/-- The hidden-side weights' operand holds at `(k, q)` the weights' entry `(q, k)`. -/
theorem whhT_apply (w : FVec Ideal S384x128 .f32) (k : Fin 128) (q : Fin 384) : whhT w (ix2 k q) = w (ix2 q k) := by
  unfold whhT
  rw [truncf_apply]
  exact transpose_apply _ _ _ _ (ix2 q k) (fun b => by match b with | ⟨0, _⟩ => rfl | ⟨1, _⟩ => rfl)

end Cert.KernelIdeal.TGN

end
-- ==== Proof.LibScatterLast.lean ====
/-
  The host scatter at repeated row indices, and the "last edge carrying its row index" test.

  `Host.scatter` folds its updates in row-major order, so where several updates of a row-wise
  `set` carry the same in-range row index the LATER one is what remains. Two general facts:

  * `scatter_set_rows_last_wins`: redirecting every update that is NOT the last one carrying its
    row index to an out-of-range row (where it is dropped) leaves the scattered array unchanged;
  * `gather_lastpos_eq_iff`: a scatter-MAX of the positions `0 … E-1` into a vector of `-1`,
    gathered back at the same indices, returns position `e` at `e` exactly when `e` is the last
    position carrying its row index.
-/
import Idealize.ShloMosaic.Lib.ValueIdx
import Mathlib.Data.List.Sort
import Mathlib.Data.Finset.Max

namespace ScatterLast

open Idealize.ShloMosaic
open Idealize.ShloMosaic.ValueIdx

/-- The word `w`, read as a signed integer, is a row index of an operand with `N` rows. -/
def InRange (N : Nat) (w : BitVec 32) : Prop := 0 ≤ w.toInt ∧ w.toInt < N

/-- Position `e` is the LAST one carrying its row index: no later position carries the same index. -/
def IsLast {E : Nat} (idx : IVec ⟨2, ![E, 1]⟩ 32) (e : Fin E) : Prop :=
  ∀ e' : Fin E, e < e' → idx (ix2 e' 0) ≠ idx (ix2 e 0)

section Fold
variable {κ ι α : Type} [DecidableEq ι]

/-- One step of the scatter fold, over an abstract "where does update `k` land" function. -/
def step (hit : κ → Option ι) (f : α → α → α) (upd : κ → α) (r : ι → α) (k : κ) : ι → α :=
  match hit k with
  | some i => fun i' => if i' = i then f (r i) (upd k) else r i'
  | none => r

/-- An update that does not land at `i'` leaves the value at `i'` as it was. -/
theorem step_of_ne (hit : κ → Option ι) (f : α → α → α) (upd : κ → α) (r : ι → α) (k : κ) (i' : ι)
    (h : hit k ≠ some i') : step hit f upd r k i' = r i' := by
  unfold step
  cases hk : hit k with
  | none => rfl
  | some i =>
    have : i' ≠ i := fun e => h (by rw [hk, e])
    simp [this]

/-- An update that lands at `i'` replaces the value there by the body applied to it and the update. -/
theorem step_of_eq (hit : κ → Option ι) (f : α → α → α) (upd : κ → α) (r : ι → α) (k : κ) (i' : ι)
    (h : hit k = some i') : step hit f upd r k i' = f (r i') (upd k) := by
  unfold step
  rw [h]
  simp

/-- Where no update of the list lands, the folded array keeps the operand's element. -/
theorem foldl_step_no_hit (hit : κ → Option ι) (f : α → α → α) (upd : κ → α) (x : ι → α) (i' : ι)
    (l : List κ) (h : ∀ k ∈ l, hit k ≠ some i') : l.foldl (step hit f upd) x i' = x i' := by
  induction l using List.reverseRecOn with
  | nil => rfl
  | append_singleton l a ih =>
    rw [List.foldl_append, List.foldl_cons, List.foldl_nil,
      step_of_ne _ _ _ _ _ _ (h a (by simp))]
    exact ih fun k hk => h k (by simp [hk])

/-- For the body that returns the update (a `set`), over a list increasing for `lt`: if `k` lands at `i'` and
    no later element of the list does, the folded array holds `k`'s update at `i'`. -/
theorem foldl_step_last_hit (lt : κ → κ → Prop) (hit : κ → Option ι) (upd : κ → α) (x : ι → α) (i' : ι)
    (l : List κ) (hl : l.Pairwise lt) (k : κ) (hk : k ∈ l) (hhit : hit k = some i')
    (hlater : ∀ k' ∈ l, lt k k' → hit k' ≠ some i') :
    l.foldl (step hit (fun _ b => b) upd) x i' = upd k := by
  induction l using List.reverseRecOn with
  | nil => simp at hk
  | append_singleton l a ih =>
    rw [List.foldl_append, List.foldl_cons, List.foldl_nil]
    rw [List.pairwise_append] at hl
    obtain ⟨hl1, -, hl2⟩ := hl
    by_cases hak : a = k
    · subst hak
      rw [step_of_eq _ _ _ _ _ _ hhit]
    · have hkl : k ∈ l := by
        rcases List.mem_append.1 hk with h | h
        · exact h
        · exact absurd (List.mem_singleton.1 h).symm hak
      rw [step_of_ne _ _ _ _ _ _ (hlater a (by simp) (hl2 k hkl a (by simp)))]
      exact ih hl1 hkl fun k' hk' => hlater k' (by simp [hk'])

end Fold

/-- `Host.scatter` is the left fold of `step` over the row-major positions of the updates, update `n` landing
    at its result index (when that is inside the operand). -/
theorem scatter_eq_foldl_step {s si u : Shape} {α : Type} {w : Nat} (d : ScatterDims s si u) (f : α → α → α)
    (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  beta_reduce
  generalize d.resultIdx? (u.rowMajor.symm n) idx = o
  cases o with
  | none => rfl
  | some i =>
    funext i'
    simp only

section Rows
variable {N E C : Nat}

/-- Row-wise record: on the row axis the window of update `(e, c)` starts at the signed row index of `e`. -/
theorem rows_start0 (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (idx : IVec ⟨2, ![E, 1]⟩ 32) (e : Fin E) (c : Fin C) :
    d.start (ix2 e c) idx 0 = (idx (ix2 e 0)).toInt := by
  obtain ⟨uw, iw, sd, iv, wf⟩ := d
  dsimp only at hw hi hs hv
  subst hw hi hs hv
  unfold ScatterDims.start
  rw [dif_pos (List.mem_singleton.mpr rfl)]
  congr 2
  funext b
  refine Fin.ext ?_
  match b with
  | ⟨0, _⟩ => rfl
  | ⟨1, _⟩ => rfl

/-- Row-wise record: on the column axis the window starts at `0`. -/
theorem rows_start1 (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (idx : IVec ⟨2, ![E, 1]⟩ 32) (e : Fin E) (c : Fin C) :
    d.start (ix2 e c) idx 1 = 0 := by
  obtain ⟨uw, iw, sd, iv, wf⟩ := d
  dsimp only at hw hi hs hv
  subst hw hi hs hv
  unfold ScatterDims.start
  rw [dif_neg (show (1 : Fin 2) ∉ ([0] : List (Fin 2)) by decide)]

/-- Row-wise record: the row axis is inserted, its window coordinate is `0`. -/
theorem rows_window0 (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (e : Fin E) (c : Fin C) :
    d.window (ix2 e c) 0 = 0 := by
  obtain ⟨uw, iw, sd, iv, wf⟩ := d
  dsimp only at hw hi hs hv
  subst hw hi hs hv
  unfold ScatterDims.window
  exact dif_neg (show (0 : Fin 2) ∉ (List.finRange 2).filter (fun a => a ∉ ([0] : List (Fin 2))) by decide)

/-- Row-wise record: on the column axis the window coordinate of update `(e, c)` is `c`. -/
theorem rows_window1 (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (e : Fin E) (c : Fin C) :
    d.window (ix2 e c) 1 = c.val := by
  obtain ⟨uw, iw, sd, iv, wf⟩ := d
  dsimp only at hw hi hs hv
  subst hw hi hs hv
  unfold ScatterDims.window
  refine (dif_pos (show (1 : Fin 2) ∈ (List.finRange 2).filter (fun a => a ∉ ([0] : List (Fin 2))) by decide)).trans ?_
  rfl

end Rows

section Rows2
variable {N E C : Nat}

/-- An axis of a rank-2 shape is axis `0` or axis `1`. -/
theorem fin2_cases {s : Shape} (h : s.rank = 2) (a : Fin s.rank) :
    a = ⟨0, by omega⟩ ∨ a = ⟨1, by omega⟩ := by
  rcases a with ⟨k, hk⟩
  have : k = 0 ∨ k = 1 := by omega
  rcases this with rfl | rfl
  · left; rfl
  · right; rfl

/-- Row-wise record: update `(e, c)` lands at `i` exactly when the signed row index of `e` is `i`'s row and `c` is
    `i`'s column (so it is dropped exactly when its row index is out of range). -/
theorem rows_resultIdx?_eq_some_iff (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (idx : IVec ⟨2, ![E, 1]⟩ 32) (e : Fin E) (c : Fin C) (i : (⟨2, ![N, C]⟩ : Shape).Idx) :
    d.resultIdx? (ix2 e c) idx = some i
      ↔ (idx (ix2 e 0)).toInt = ((i 0).val : Int) ∧ c.val = (i 1).val := by
  have s0 := rows_start0 d hw hi hs hv idx e c
  have s1 := rows_start1 d hw hi hs hv idx e c
  have w0 := rows_window0 d hw hi hs hv e c
  have w1 := rows_window1 d hw hi hs hv e c
  have hi0 : (i 0).val < N := idx2_lt0 i
  have hi1 : (i 1).val < C := idx2_lt1 i
  unfold ScatterDims.resultIdx?
  split
  · rename_i h
    have h0 := h 0
    rw [s0, w0] at h0
    constructor
    · intro heq
      have heq' := Option.some.inj heq
      have e0 := congrArg Fin.val (congrFun heq' 0)
      have e1 := congrArg Fin.val (congrFun heq' 1)
      simp only [s0, s1, w0, w1] at e0 e1
      omega
    · rintro ⟨g0, g1⟩
      congr 1
      funext a
      refine Fin.ext ?_
      rcases fin2_cases rfl a with rfl | rfl
      · show (d.start (ix2 e c) idx 0 + ((d.window (ix2 e c) 0 : Nat) : Int)).toNat = (i 0).val
        rw [s0, w0]; omega
      · show (d.start (ix2 e c) idx 1 + ((d.window (ix2 e c) 1 : Nat) : Int)).toNat = (i 1).val
        rw [s1, w1]; omega
  · rename_i h
    constructor
    · intro heq; cases heq
    · rintro ⟨g0, g1⟩
      exfalso; apply h
      intro a
      rcases fin2_cases rfl a with rfl | rfl
      · show 0 ≤ d.start (ix2 e c) idx 0 + ((d.window (ix2 e c) 0 : Nat) : Int)
          ∧ d.start (ix2 e c) idx 0 + ((d.window (ix2 e c) 0 : Nat) : Int) < (N : Nat)
        rw [s0, w0]; omega
      · show 0 ≤ d.start (ix2 e c) idx 1 + ((d.window (ix2 e c) 1 : Nat) : Int)
          ∧ d.start (ix2 e c) idx 1 + ((d.window (ix2 e c) 1 : Nat) : Int) < (C : Nat)
        rw [s1, w1]; omega

end Rows2

section RowsHit
variable {N E C : Nat}

/-- The same reading at an update index not yet split into its coordinates. -/
theorem rows_hit_iff (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (idx : IVec ⟨2, ![E, 1]⟩ 32) (j : (⟨2, ![E, C]⟩ : Shape).Idx) (i : (⟨2, ![N, C]⟩ : Shape).Idx) :
    d.resultIdx? j idx = some i
      ↔ (idx (ix2 (j 0) 0)).toInt = ((i 0).val : Int) ∧ (j 1).val = (i 1).val := by
  have := rows_resultIdx?_eq_some_iff d hw hi hs hv idx (j 0) (j 1) i
  have hj : d.resultIdx? j idx = d.resultIdx? (ix2 (j 0) (j 1)) idx :=
    congrArg (fun j' => d.resultIdx? j' idx) (eq_ix2 j)
  rw [hj]; exact this

end RowsHit

section Max
variable {κ ι : Type} [DecidableEq ι]

/-- The signed maximum is at least its first operand. -/
theorem maxsi_le_left (a b : BitVec 32) : a.toInt ≤ (IntOp.maxsi a b).toInt := by
  unfold IntOp.maxsi
  split
  · exact le_refl _
  · rename_i h
    simp only [BitVec.slt, decide_eq_true_eq] at h
    omega

/-- The signed maximum is at least its second operand. -/
theorem maxsi_le_right (a b : BitVec 32) : b.toInt ≤ (IntOp.maxsi a b).toInt := by
  unfold IntOp.maxsi
  split
  · rename_i h
    simp only [BitVec.slt, decide_eq_true_eq] at h
    omega
  · exact le_refl _

/-- The signed maximum is one of its operands. -/
theorem maxsi_eq_or (a b : BitVec 32) : IntOp.maxsi a b = a ∨ IntOp.maxsi a b = b := by
  unfold IntOp.maxsi
  split
  · exact Or.inl rfl
  · exact Or.inr rfl

/-- A scatter-max never lowers an element (in the signed order). -/
theorem foldl_max_ge_init (hit : κ → Option ι) (p : κ → BitVec 32) (x : ι → BitVec 32) (i' : ι) (l : List κ) :
    (x i').toInt ≤ (l.foldl (step hit IntOp.maxsi p) x i').toInt := by
  induction l using List.reverseRecOn with
  | nil => exact le_refl _
  | append_singleton l a ih =>
    rw [List.foldl_append, List.foldl_cons, List.foldl_nil]
    by_cases h : hit a = some i'
    · rw [step_of_eq _ _ _ _ _ _ h]
      exact le_trans ih (maxsi_le_left _ _)
    · rw [step_of_ne _ _ _ _ _ _ h]
      exact ih

/-- After a scatter-max the element at `i'` is at least every update that lands there. -/
theorem foldl_max_ge_hit (hit : κ → Option ι) (p : κ → BitVec 32) (x : ι → BitVec 32) (i' : ι) (l : List κ)
    (k : κ) (hk : k ∈ l) (hhit : hit k = some i') :
    (p k).toInt ≤ (l.foldl (step hit IntOp.maxsi p) x i').toInt := by
  induction l using List.reverseRecOn with
  | nil => simp at hk
  | append_singleton l a ih =>
    rw [List.foldl_append, List.foldl_cons, List.foldl_nil]
    rcases List.mem_append.1 hk with hkl | hka
    · by_cases h : hit a = some i'
      · rw [step_of_eq _ _ _ _ _ _ h]
        exact le_trans (ih hkl) (maxsi_le_left _ _)
      · rw [step_of_ne _ _ _ _ _ _ h]
        exact ih hkl
    · obtain rfl := List.mem_singleton.1 hka
      rw [step_of_eq _ _ _ _ _ _ hhit]
      exact maxsi_le_right _ _

/-- After a scatter-max the element at `i'` is the operand's, or one of the updates that land there. -/
theorem foldl_max_attained (hit : κ → Option ι) (p : κ → BitVec 32) (x : ι → BitVec 32) (i' : ι) (l : List κ) :
    l.foldl (step hit IntOp.maxsi p) x i' = x i'
      ∨ ∃ k ∈ l, hit k = some i' ∧ l.foldl (step hit IntOp.maxsi p) x i' = p k := by
  induction l using List.reverseRecOn with
  | nil => exact Or.inl rfl
  | append_singleton l a ih =>
    rw [List.foldl_append, List.foldl_cons, List.foldl_nil]
    by_cases h : hit a = some i'
    · rw [step_of_eq _ _ _ _ _ _ h]
      rcases maxsi_eq_or (l.foldl (step hit IntOp.maxsi p) x i') (p a) with hm | hm
      · rw [hm]
        rcases ih with ih | ⟨k, hk, hkh, hke⟩
        · exact Or.inl ih
        · exact Or.inr ⟨k, List.mem_append_left _ hk, hkh, hke⟩
      · exact Or.inr ⟨a, by simp, h, hm⟩
    · rw [step_of_ne _ _ _ _ _ _ h]
      rcases ih with ih | ⟨k, hk, hkh, hke⟩
      · exact Or.inl ih
      · exact Or.inr ⟨k, List.mem_append_left _ hk, hkh, hke⟩

/-- A natural number below `2^31`, as a 32-bit word, reads back as itself in the signed reading. -/
theorem toInt_ofNat_of_lt (n : Nat) (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

end Max

section T2
variable {N E : Nat}

/-- A rank-1 shape has one axis. -/
theorem fin1_eq {s : Shape} (h : s.rank = 1) (a : Fin s.rank) : a = ⟨0, by omega⟩ := by
  rcases a with ⟨k, hk⟩
  have : k = 0 := by omega
  subst this; rfl

/-- Vector record: the window of update `e` starts at the signed row index of `e`. -/
theorem vec_start0 (dS : ScatterDims ⟨1, ![N]⟩ ⟨2, ![E, 1]⟩ ⟨1, ![E]⟩)
    (hSw : dS.updateWindowDims = []) (hSi : dS.insertedWindowDims = [0])
    (hSs : dS.scatterDimsToOperandDims = [0]) (hSv : dS.indexVectorDim = 1)
    (idx : IVec ⟨2, ![E, 1]⟩ 32) (e : Fin E) :
    dS.start (ix1 e) idx 0 = (idx (ix2 e 0)).toInt := by
  obtain ⟨uw, iw, sd, iv, wf⟩ := dS
  dsimp only at hSw hSi hSs hSv
  subst hSw hSi hSs hSv
  unfold ScatterDims.start
  rw [dif_pos (List.mem_singleton.mpr rfl)]
  congr 2
  funext b
  refine Fin.ext ?_
  match b with
  | ⟨0, _⟩ => rfl
  | ⟨1, _⟩ => rfl

/-- Vector record: the one axis is inserted, its window coordinate is `0`. -/
theorem vec_window0 (dS : ScatterDims ⟨1, ![N]⟩ ⟨2, ![E, 1]⟩ ⟨1, ![E]⟩)
    (hSw : dS.updateWindowDims = []) (hSi : dS.insertedWindowDims = [0])
    (hSs : dS.scatterDimsToOperandDims = [0]) (hSv : dS.indexVectorDim = 1)
    (e : Fin E) :
    dS.window (ix1 e) 0 = 0 := by
  obtain ⟨uw, iw, sd, iv, wf⟩ := dS
  dsimp only at hSw hSi hSs hSv
  subst hSw hSi hSs hSv
  unfold ScatterDims.window
  exact dif_neg (show (0 : Fin 1) ∉ (List.finRange 1).filter (fun a => a ∉ ([0] : List (Fin 1))) by decide)

/-- Vector record: update `j` lands at `i` exactly when the signed row index at `j` is `i`. -/
theorem vec_hit_iff (dS : ScatterDims ⟨1, ![N]⟩ ⟨2, ![E, 1]⟩ ⟨1, ![E]⟩)
    (hSw : dS.updateWindowDims = []) (hSi : dS.insertedWindowDims = [0])
    (hSs : dS.scatterDimsToOperandDims = [0]) (hSv : dS.indexVectorDim = 1)
    (idx : IVec ⟨2, ![E, 1]⟩ 32) (j : (⟨1, ![E]⟩ : Shape).Idx) (i : (⟨1, ![N]⟩ : Shape).Idx) :
    dS.resultIdx? j idx = some i ↔ (idx (ix2 (j 0) 0)).toInt = ((i 0).val : Int) := by
  have hj : dS.resultIdx? j idx = dS.resultIdx? (ix1 (j 0)) idx :=
    congrArg (fun j' => dS.resultIdx? j' idx) (eq_ix1 j)
  rw [hj]
  have s0 := vec_start0 dS hSw hSi hSs hSv idx (j 0)
  have w0 := vec_window0 dS hSw hSi hSs hSv (j 0)
  have hi0 : (i 0).val < N := (i 0).isLt
  unfold ScatterDims.resultIdx?
  split
  · rename_i h
    have h0 := h 0
    rw [s0, w0] at h0
    constructor
    · intro heq
      have e0 := congrArg Fin.val (congrFun (Option.some.inj heq) 0)
      simp only [s0, w0] at e0
      omega
    · intro g0
      congr 1
      funext a
      refine Fin.ext ?_
      obtain rfl := fin1_eq rfl a
      show (dS.start (ix1 (j 0)) idx 0 + ((dS.window (ix1 (j 0)) 0 : Nat) : Int)).toNat = (i 0).val
      rw [s0, w0]; omega
  · rename_i h
    constructor
    · intro heq; cases heq
    · intro g0
      exfalso; apply h
      intro a
      obtain rfl := fin1_eq rfl a
      show 0 ≤ dS.start (ix1 (j 0)) idx 0 + ((dS.window (ix1 (j 0)) 0 : Nat) : Int)
        ∧ dS.start (ix1 (j 0)) idx 0 + ((dS.window (ix1 (j 0)) 0 : Nat) : Int) < (N : Nat)
      rw [s0, w0]; omega

/-- The gather's start for result `e`: the signed row index at `e`, clamped into `[0, N - 1]`. -/
theorem gather_start0 (dG : GatherDims ⟨1, ![N]⟩ ⟨2, ![E, 1]⟩ ⟨1, ![E]⟩)
    (hGo : dG.offsetDims = []) (hGc : dG.collapsedSliceDims = [0]) (hGb : dG.operandBatchingDims = [])
    (hGsb : dG.startIndicesBatchingDims = [])
    (hGm : dG.startIndexMap = [0]) (hGv : dG.indexVectorDim = 1) (hGz : dG.sliceSizes = ![1])
    (idx : IVec ⟨2, ![E, 1]⟩ 32) (e : Fin E) :
    dG.start (ix1 e) idx 0 = min (idx (ix2 e 0)).toInt.toNat (N - 1) := by
  obtain ⟨od, cd, ob, sb, sm, iv, ss, wf⟩ := dG
  dsimp only at hGo hGc hGb hGsb hGm hGv hGz
  subst hGo hGc hGb hGsb hGm hGv hGz
  unfold GatherDims.start
  rw [dif_pos (List.mem_singleton.mpr rfl)]
  congr 4
  funext b
  refine Fin.ext ?_
  match b with
  | ⟨0, _⟩ => rfl
  | ⟨1, _⟩ => rfl

/-- The gather reads, at a position whose row index is the in-range row `r`, the operand's element `r`
    (in range the clamp is the identity). -/
theorem gather_at {α : Type} (dG : GatherDims ⟨1, ![N]⟩ ⟨2, ![E, 1]⟩ ⟨1, ![E]⟩)
    (hGo : dG.offsetDims = []) (hGc : dG.collapsedSliceDims = [0]) (hGb : dG.operandBatchingDims = [])
    (hGsb : dG.startIndicesBatchingDims = [])
    (hGm : dG.startIndexMap = [0]) (hGv : dG.indexVectorDim = 1) (hGz : dG.sliceSizes = ![1])
    (S : (⟨1, ![N]⟩ : Shape).Idx → α) (idx : IVec ⟨2, ![E, 1]⟩ 32) (e : Fin E) (r : Fin N)
    (hr : (idx (ix2 e 0)).toInt = (r.val : Int)) :
    Host.gather dG S idx (ix1 e) = S (ix1 r) := by
  unfold Host.gather
  congr 1
  funext a
  obtain rfl := fin1_eq rfl a
  refine Fin.ext ?_
  show dG.start (ix1 e) idx 0 + dG.batchCoord (ix1 e) 0 + dG.offCoord (ix1 e) 0 = r.val
  rw [dG.batchCoord_eq_zero _ _ (by rw [hGb]; exact List.not_mem_nil),
    dG.offCoord_eq_zero _ _ (fun h => ((dG.mem_sKept _).mp h).1 (by rw [hGc]; exact List.mem_singleton.mpr rfl)),
    gather_start0 dG hGo hGc hGb hGsb hGm hGv hGz idx e, hr]
  have := r.isLt
  omega

end T2

/-- A row-wise `set` scatter (one row index per update row, the whole row written) whose row
    indices `idx` are all in range: if `idx'` agrees with `idx` at every position that is the last
    one carrying its row index, and is out of range (so its update is dropped) at every other
    position, then scattering at `idx'` gives the same array as scattering at `idx`: at repeated
    row indices the later update wins, and only the last one of each row is kept by `idx'`. -/
theorem scatter_set_rows_last_wins {N E C : Nat} {α : Type}
    (d : ScatterDims ⟨2, ![N, C]⟩ ⟨2, ![E, 1]⟩ ⟨2, ![E, C]⟩)
    (hw : d.updateWindowDims = [1]) (hi : d.insertedWindowDims = [0])
    (hs : d.scatterDimsToOperandDims = [0]) (hv : d.indexVectorDim = 1)
    (hN : N < 2 ^ 31)
    (x : (⟨2, ![N, C]⟩ : Shape).Idx → α) (upd : (⟨2, ![E, C]⟩ : Shape).Idx → α)
    (idx idx' : IVec ⟨2, ![E, 1]⟩ 32)
    (hin : ∀ e : Fin E, InRange N (idx (ix2 e 0)))
    (hlast : ∀ e : Fin E, IsLast idx e → idx' (ix2 e 0) = idx (ix2 e 0))
    (hnot : ∀ e : Fin E, ¬ IsLast idx e → ¬ InRange N (idx' (ix2 e 0))) :
    Host.scatter d (fun _ b => b) x idx' upd = Host.scatter d (fun _ b => b) x idx upd := by
  rw [scatter_eq_foldl_step, scatter_eq_foldl_step]
  funext i'
  have hi0 : (i' 0).val < N := idx2_lt0 i'
  have hi1 : (i' 1).val < C := idx2_lt1 i'
  -- an update of `idx'` that lands in row `i' 0` is one of `idx` that does
  have himp : ∀ e : Fin E, (idx' (ix2 e 0)).toInt = ((i' 0).val : Int)
      → (idx (ix2 e 0)).toInt = ((i' 0).val : Int) := by
    intro e g
    have hl : IsLast idx e := by
      by_contra hnl
      exact hnot e hnl ⟨by rw [g]; omega, by rw [g]; omega⟩
    rw [← hlast e hl]; exact g
  by_cases hex : ∃ e : Fin E, (idx (ix2 e 0)).toInt = ((i' 0).val : Int)
  · -- the last position carrying row `i' 0`
    obtain ⟨e0, he0, hmax⟩ : ∃ e0 : Fin E, (idx (ix2 e0 0)).toInt = ((i' 0).val : Int)
        ∧ ∀ e : Fin E, (idx (ix2 e 0)).toInt = ((i' 0).val : Int) → e ≤ e0 := by
      obtain ⟨e1, he1⟩ := hex
      have hne : (Finset.univ.filter fun e : Fin E => (idx (ix2 e 0)).toInt = ((i' 0).val : Int)).Nonempty :=
        ⟨e1, Finset.mem_filter.2 ⟨Finset.mem_univ _, he1⟩⟩
      obtain ⟨e0, hmem, hle⟩ := Finset.exists_max_image _ id hne
      exact ⟨e0, (Finset.mem_filter.1 hmem).2,
        fun e he => hle e (Finset.mem_filter.2 ⟨Finset.mem_univ _, he⟩)⟩
    have hlast0 : IsLast idx e0 := by
      intro e' hlt heq
      have := hmax e' (by rw [heq]; exact he0)
      exact absurd hlt (not_lt.2 this)
    have hidx0 := hlast e0 hlast0
    let c0 : Fin C := ⟨(i' 1).val, hi1⟩
    have hpw := (List.sortedLT_finRange (⟨2, ![E, C]⟩ : Shape).numel).pairwise
    have key : ∀ idx'' : IVec ⟨2, ![E, 1]⟩ 32, idx'' (ix2 e0 0) = idx (ix2 e0 0) →
        (∀ e : Fin E, (idx'' (ix2 e 0)).toInt = ((i' 0).val : Int)
          → (idx (ix2 e 0)).toInt = ((i' 0).val : Int)) →
        (List.finRange (⟨2, ![E, C]⟩ : Shape).numel).foldl
            (step (fun n => d.resultIdx? ((⟨2, ![E, C]⟩ : Shape).rowMajor.symm n) idx'') (fun _ b => b)
              (fun n => upd ((⟨2, ![E, C]⟩ : Shape).rowMajor.symm n))) x i'
          = upd (ix2 e0 c0) := by
      intro idx'' h0 himp''
      have hk := foldl_step_last_hit (· < ·)
        (fun n => d.resultIdx? ((⟨2, ![E, C]⟩ : Shape).rowMajor.symm n) idx'')
        (fun n => upd ((⟨2, ![E, C]⟩ : Shape).rowMajor.symm n)) x i' _ hpw
        ((⟨2, ![E, C]⟩ : Shape).rowMajor (ix2 e0 c0)) (List.mem_finRange _)
      simp only [Equiv.symm_apply_apply] at hk
      refine hk ?_ ?_
      · rw [rows_hit_iff d hw hi hs hv]
        refine ⟨?_, rfl⟩
        show (idx'' (ix2 e0 0)).toInt = _
        rw [h0]; exact he0
      · intro n' _ hlt hhit
        rw [rows_hit_iff d hw hi hs hv] at hhit
        obtain ⟨g0, g1⟩ := hhit
        have hle : ((⟨2, ![E, C]⟩ : Shape).rowMajor.symm n' 0).val ≤ e0.val := hmax _ (himp'' _ g0)
        have v0 := Shape.rowMajor_val_two (d := ![E, C]) (ix2 e0 c0)
        have v' := Shape.rowMajor_val_two (d := ![E, C]) ((⟨2, ![E, C]⟩ : Shape).rowMajor.symm n')
        rw [Equiv.apply_symm_apply] at v'
        have hlt' : ((⟨2, ![E, C]⟩ : Shape).rowMajor (ix2 e0 c0)).val < n'.val := hlt
        have hm := Nat.mul_le_mul_right C hle
        have c1 : (![E, C] : Fin 2 → Nat) 1 = C := rfl
        have c2 : ((ix2 e0 c0 : (⟨2, ![E, C]⟩ : Shape).Idx) 0).val = e0.val := rfl
        have c3 : ((ix2 e0 c0 : (⟨2, ![E, C]⟩ : Shape).Idx) 1).val = (i' 1).val := rfl
        rw [c1] at v0 v'
        rw [c2, c3] at v0
        omega
    rw [key idx' hidx0 himp, key idx rfl fun _ g => g]
  · rw [foldl_step_no_hit, foldl_step_no_hit]
    · intro n _ hhit
      rw [rows_hit_iff d hw hi hs hv] at hhit
      exact hex ⟨_, hhit.1⟩
    · intro n _ hhit
      rw [rows_hit_iff d hw hi hs hv] at hhit
      exact hex ⟨_, himp _ hhit.1⟩

/-- The scatter-MAX of the positions `pos e = e` at the in-range row indices `idx` into a vector of
    `-1` holds, at each row, the largest position carrying that row index; gathered back at `idx`,
    it returns `pos e` at position `e` exactly when `e` is the last position carrying its row
    index. -/
theorem gather_lastpos_eq_iff {N E : Nat}
    (dS : ScatterDims ⟨1, ![N]⟩ ⟨2, ![E, 1]⟩ ⟨1, ![E]⟩)
    (hSw : dS.updateWindowDims = []) (hSi : dS.insertedWindowDims = [0])
    (hSs : dS.scatterDimsToOperandDims = [0]) (hSv : dS.indexVectorDim = 1)
    (dG : GatherDims ⟨1, ![N]⟩ ⟨2, ![E, 1]⟩ ⟨1, ![E]⟩)
    (hGo : dG.offsetDims = []) (hGc : dG.collapsedSliceDims = [0]) (hGb : dG.operandBatchingDims = [])
    (hGsb : dG.startIndicesBatchingDims = [])
    (hGm : dG.startIndexMap = [0]) (hGv : dG.indexVectorDim = 1) (hGz : dG.sliceSizes = ![1])
    (hN : N < 2 ^ 31) (hE : E < 2 ^ 31)
    (idx : IVec ⟨2, ![E, 1]⟩ 32) (hin : ∀ e : Fin E, InRange N (idx (ix2 e 0)))
    (neg1 : BitVec 32) (hneg1 : neg1.toInt = -1)
    (pos : IVec ⟨1, ![E]⟩ 32) (hpos : ∀ e : Fin E, pos (ix1 e) = BitVec.ofNat 32 e.val)
    (e : Fin E) :
    Host.gather dG (Host.scatter dS IntOp.maxsi (fun _ => neg1) idx pos) idx (ix1 e) = pos (ix1 e)
      ↔ IsLast idx e := by
  obtain ⟨h0, hlt⟩ := hin e
  -- the row `e` points at
  obtain ⟨r, hr⟩ : ∃ r : Fin N, (idx (ix2 e 0)).toInt = (r.val : Int) :=
    ⟨⟨(idx (ix2 e 0)).toInt.toNat, by omega⟩, by show _ = ((idx (ix2 e 0)).toInt.toNat : Int); omega⟩
  rw [gather_at dG hGo hGc hGb hGsb hGm hGv hGz _ idx e r hr, scatter_eq_foldl_step]
  have hposInt : ∀ e' : Fin E, (pos (ix1 e')).toInt = (e'.val : Int) := fun e' => by
    rw [hpos, toInt_ofNat_of_lt _ (by have := e'.isLt; omega)]
  -- a position carrying the same row index lands in row `r`
  have hhit : ∀ e' : Fin E, idx (ix2 e' 0) = idx (ix2 e 0) →
      (fun n => dS.resultIdx? ((⟨1, ![E]⟩ : Shape).rowMajor.symm n) idx) ((⟨1, ![E]⟩ : Shape).rowMajor (ix1 e')) = some (ix1 r) := by
    intro e' heq
    show dS.resultIdx? ((⟨1, ![E]⟩ : Shape).rowMajor.symm ((⟨1, ![E]⟩ : Shape).rowMajor (ix1 e'))) idx = some (ix1 r)
    rw [Equiv.symm_apply_apply, vec_hit_iff dS hSw hSi hSs hSv]
    show (idx (ix2 e' 0)).toInt = _
    rw [heq]; exact hr
  have hge : ∀ e' : Fin E, idx (ix2 e' 0) = idx (ix2 e 0) →
      (e'.val : Int) ≤ ((List.finRange (⟨1, ![E]⟩ : Shape).numel).foldl (step (fun n => dS.resultIdx? ((⟨1, ![E]⟩ : Shape).rowMajor.symm n) idx) IntOp.maxsi (fun n => pos ((⟨1, ![E]⟩ : Shape).rowMajor.symm n)))
        (fun _ => neg1) (ix1 r)).toInt := by
    intro e' heq
    have := foldl_max_ge_hit (fun n => dS.resultIdx? ((⟨1, ![E]⟩ : Shape).rowMajor.symm n) idx) (fun n => pos ((⟨1, ![E]⟩ : Shape).rowMajor.symm n)) (fun _ => neg1) (ix1 r) (List.finRange (⟨1, ![E]⟩ : Shape).numel)
      ((⟨1, ![E]⟩ : Shape).rowMajor (ix1 e')) (List.mem_finRange _) (hhit e' heq)
    simp only [Equiv.symm_apply_apply] at this
    rw [hposInt] at this
    exact this
  constructor
  · intro hS e' hlt' heq
    have := hge e' heq
    rw [hS, hposInt] at this
    have hle : e'.val ≤ e.val := by exact_mod_cast this
    exact absurd hlt' (not_lt.2 hle)
  · intro hl
    have lb := hge e rfl
    rcases foldl_max_attained (fun n => dS.resultIdx? ((⟨1, ![E]⟩ : Shape).rowMajor.symm n) idx) (fun n => pos ((⟨1, ![E]⟩ : Shape).rowMajor.symm n)) (fun _ => neg1) (ix1 r) (List.finRange (⟨1, ![E]⟩ : Shape).numel)
      with hx | ⟨k, _, hk, hSk⟩
    · rw [hx, hneg1] at lb; omega
    · obtain ⟨e'', he''⟩ : ∃ e'' : Fin E, (⟨1, ![E]⟩ : Shape).rowMajor.symm k = ix1 e'' :=
        ⟨((⟨1, ![E]⟩ : Shape).rowMajor.symm k) 0, eq_ix1 _⟩
      rw [hSk] at lb ⊢
      simp only [he''] at hk lb ⊢
      rw [vec_hit_iff dS hSw hSi hSs hSv] at hk
      have hk' : (idx (ix2 e'' 0)).toInt = (r.val : Int) := hk
      have heq : idx (ix2 e'' 0) = idx (ix2 e 0) := BitVec.eq_of_toInt_eq (by rw [hk', ← hr])
      rw [hposInt] at lb
      have hle : e ≤ e'' := by
        have : e.val ≤ e''.val := by exact_mod_cast lb
        exact this
      rcases lt_or_eq_of_le hle with hlt' | heq'
      · exact absurd heq (hl _ hlt')
      · rw [← heq']

end ScatterLast
-- ==== Proof.HostIdx.lean ====
/-
  The host index lemmas of the memory update.

  Every edge index lies in [-200000, 200000) (Ranged). Read the Python way (a negative index counts from the end) it is
  a row index in [0, 200000); so the in-bounds mask of the filling gather is all ones and the gather is the plain one.
  The write-back's indices keep an edge's row where the edge is the last one carrying that row and send every other
  edge to the out-of-range row 200000: scattering at them is scattering at the rows themselves, the later edge winning.
-/
import proofs.«414128_j58780922413723_3_alg».proof.Proof.KSpec
import proofs.«414128_j58780922413723_3_alg».proof.Proof.LibScatterLast
import Idealize.ShloMosaic.Lib.ValueIdx
import Idealize.ShloMosaic.Lib.StableHlo.Predicate
import Idealize.ShloMosaic.Lib.WordArith

noncomputable section

namespace Cert.KernelIdeal.TGN

open Cert.KernelIdeal Cert.KernelIdeal.Gen Idealize.ShloMosaic Idealize.ShloMosaic.ValueIdx

variable {F : FTy → Type} [FloatOps F]

/-- Every edge index is a Python index of a table of 200000 rows. -/
def Ranged (a : IVec S100000 32) : Prop :=
  ∀ e : Fin 100000, -200000 ≤ (a (ix1 e)).toInt ∧ (a (ix1 e)).toInt < 200000

/-! ## One word read the Python way -/

/-- A word read the Python way: 200000 is added to a negative one. -/
private def normW (x : BitVec 32) : BitVec 32 :=
  Scalar.select (IntOp.cmpi .slt x 0#32) (IntOp.addi x 200000#32) x

/-- The normalised index vector at an index is the word there, normalised. -/
private theorem norm_apply (a : IVec S100000 32) (i : S100000.Idx) : norm a i = normW (a i) := rfl

/-- A negative word in range moves up by 200000 … -/
private theorem normW_toInt_neg (x : BitVec 32) (h1 : -200000 ≤ x.toInt) (h2 : x.toInt < 0) :
    (normW x).toInt = x.toInt + 200000 := by
  have hc : IntOp.cmpi .slt x 0#32 = 1#1 := by
    unfold IntOp.cmpi
    rw [StableHlo.Predicate.ofBool_eq_one_iff]
    simp only [BitVec.slt, decide_eq_true_eq]
    exact h2
  unfold normW
  rw [hc, select_one]
  have h200 : (200000#32 : BitVec 32).toInt = 200000 := by decide
  show (x + 200000#32).toInt = _
  rw [WordArith.toInt_add_of_bounds x 200000#32 (by rw [h200]; omega) (by rw [h200]; omega), h200]

/-- … and a nonnegative one stays. -/
private theorem normW_of_nonneg (x : BitVec 32) (h : 0 ≤ x.toInt) : normW x = x := by
  have hc : IntOp.cmpi .slt x 0#32 = 0#1 := by
    apply eq_zero_of_ne_one
    unfold IntOp.cmpi
    rw [StableHlo.Predicate.ofBool_eq_one_iff]
    simp only [BitVec.slt, decide_eq_true_eq]
    show ¬ x.toInt < 0
    omega
  unfold normW
  rw [hc, select_zero]

/-- The normalised start indices as a column read the normalised vector. -/
theorem nidx_apply (a : IVec S100000 32) (e : Fin 100000) : nidx a (ix2 e 0) = norm a (ix1 e) := by
  unfold nidx
  simp only [broadcastInDim]
  congr 1
  funext d
  have hd : d = 0 := Subsingleton.elim _ _
  subst hd
  apply Fin.ext
  split
  · next h1 => exact absurd h1 (by decide)
  · rfl

/-- A Python index of the table, normalised, is a row index of it. -/
theorem norm_inRange (a : IVec S100000 32) (h : Ranged a) (e : Fin 100000) :
    ScatterLast.InRange 200000 (norm a (ix1 e)) := by
  obtain ⟨h1, h2⟩ := h e
  rw [norm_apply]
  unfold ScatterLast.InRange
  by_cases hneg : (a (ix1 e)).toInt < 0
  · rw [normW_toInt_neg _ h1 hneg]
    constructor <;> push_cast <;> omega
  · rw [normW_of_nonneg _ (by omega)]
    constructor <;> push_cast <;> omega

/-! ## The in-bounds mask is all ones -/

/-- A left fold by "and" from 1 over ones is 1. -/
private theorem foldl_andi_ones {ι : Type} (l : List ι) :
    l.foldl (fun (r : BitVec 1) (_ : ι) => IntOp.andi r 1#1) 1#1 = 1#1 := by
  induction l with
  | nil => rfl
  | cons _ l ih => exact ih

/-- A row index of the table passes both bound tests. -/
private theorem bounds_ones (n : BitVec 32) (hn : ScatterLast.InRange 200000 n) :
    IntOp.andi (IntOp.cmpi .sge n 0#32) (IntOp.cmpi .sle n 199999#32) = 1#1 := by
  obtain ⟨h0, h1⟩ := hn
  have h199 : (199999#32 : BitVec 32).toInt = 199999 := by decide
  have hz : (0#32 : BitVec 32).toInt = 0 := by decide
  have c1 : IntOp.cmpi .sge n 0#32 = 1#1 := by
    unfold IntOp.cmpi
    rw [StableHlo.Predicate.ofBool_eq_one_iff]
    simp only [BitVec.sle, decide_eq_true_eq]
    rw [hz]; exact h0
  have c2 : IntOp.cmpi .sle n 199999#32 = 1#1 := by
    unfold IntOp.cmpi
    rw [StableHlo.Predicate.ofBool_eq_one_iff]
    simp only [BitVec.sle, decide_eq_true_eq]
    rw [h199]; push_cast at h1; omega
  rw [c1, c2]; rfl

/-- Every edge's normalised index lies in the table. -/
theorem inb_eq_ones (a : IVec S100000 32) (h : Ranged a) : inb a = fun _ => 1#1 := by
  have hmask : (andi (cmpi .sge (nidx a) (broadcastInDim S100000x1 ![] bcast_S_S100000x1 (constantI S_ 32 0#32)))
      (cmpi .sle (nidx a) (broadcastInDim S100000x1 ![0, 1] bcast_S1x1_S100000x1_0_1
        (broadcastInDim S1x1 ![1] bcast_S1_S1x1_1 (constantI S1 32 199999#32))))) = fun _ => 1#1 := by
    funext i
    obtain ⟨e, z, rfl⟩ : ∃ (e : Fin 100000) (z : Fin 1), i = ix2 e z := ⟨i 0, i 1, eq_ix2 i⟩
    obtain rfl : z = 0 := Subsingleton.elim _ _
    show IntOp.andi (IntOp.cmpi .sge (nidx a (ix2 e 0)) 0#32) (IntOp.cmpi .sle (nidx a (ix2 e 0)) 199999#32) = 1#1
    rw [nidx_apply]
    exact bounds_ones _ (norm_inRange a h e)
  funext j
  unfold inb
  rw [hmask, Host.reduce_eq_foldl]
  exact foldl_andi_ones _

/-! ## The filling gathers are the plain gathers -/

/-- With every index in the table no row is filled: the rows taken are the gathered rows. -/
theorem takeRows_eq_gather (mem : FVec F S200000x128 .f32) (a : IVec S100000 32) (h : Ranged a) :
    takeRows mem a = Host.gather gather_S200000x128_S100000x1_S100000x128_1_0_n_n_0_1_1128 mem (nidx a) := by
  unfold takeRows
  rw [inb_eq_ones a h]
  funext i
  rw [select_apply]
  exact select_one _ _

/-- Likewise the entries taken of a vector are the gathered entries. -/
theorem takeVec_eq_gather (lu : IVec S200000 32) (a : IVec S100000 32) (h : Ranged a) :
    takeVec lu a = Host.gather gather_S200000_S100000x1_S100000_n_0_n_n_0_1_1 lu (nidx a) := by
  unfold takeVec
  rw [inb_eq_ones a h]
  funext i
  rw [select_apply]
  exact select_one _ _

/-! ## The last-edge test and the write-back indices -/

/-- The scatter-max of the edge positions starts from a vector of -1. -/
private theorem lastPos_eq (a : IVec S100000 32) :
    lastPos a = Host.scatter scatter_S200000_S100000x1_S100000_n_0_0_1 IntOp.maxsi (fun _ => 4294967295#32) (nidx a)
      (iotaInDim S100000 32 0) := rfl

/-- The test bit of an edge is set exactly when the edge is the last one carrying its row. -/
private theorem isLast_iff (a : IVec S100000 32) (h : Ranged a) (e : Fin 100000) :
    isLast a (ix1 e) = 1#1 ↔ ScatterLast.IsLast (nidx a) e := by
  unfold isLast
  show IntOp.cmpi .eq _ _ = 1#1 ↔ _
  rw [StableHlo.Predicate.cmpi_eq_iff, lastPos_eq]
  exact ScatterLast.gather_lastpos_eq_iff (N := 200000) (E := 100000)
    scatter_S200000_S100000x1_S100000_n_0_0_1 rfl rfl rfl rfl
    gather_S200000_S100000x1_S100000_n_0_n_n_0_1_1 rfl rfl rfl rfl rfl rfl rfl
    (by norm_num) (by norm_num) (nidx a)
    (fun e' => by rw [nidx_apply]; exact norm_inRange a h e')
    4294967295#32 (by decide) (iotaInDim S100000 32 0) (fun _ => rfl) e

/-- The write-back index of an edge: its word, or 200000 where the test bit is clear, normalised. -/
private theorem safeIdx_apply (a : IVec S100000 32) (e : Fin 100000) :
    safeIdx a (ix2 e 0) = normW (Scalar.select (isLast a (ix1 e)) (a (ix1 e)) 200000#32) := by
  unfold safeIdx
  rw [nidx_apply, norm_apply]
  rfl

/-- The last edge of a row keeps its row. -/
private theorem safeIdx_of_last (a : IVec S100000 32) (h : Ranged a) (e : Fin 100000) (hl : ScatterLast.IsLast (nidx a) e) :
    safeIdx a (ix2 e 0) = nidx a (ix2 e 0) := by
  rw [safeIdx_apply, (isLast_iff a h e).2 hl, select_one, nidx_apply, norm_apply]

/-- Any other edge is sent out of the table. -/
private theorem safeIdx_of_not_last (a : IVec S100000 32) (h : Ranged a) (e : Fin 100000) (hl : ¬ ScatterLast.IsLast (nidx a) e) :
    ¬ ScatterLast.InRange 200000 (safeIdx a (ix2 e 0)) := by
  have h0 : isLast a (ix1 e) = 0#1 := eq_zero_of_ne_one (fun h1 => hl ((isLast_iff a h e).1 h1))
  rw [safeIdx_apply, h0, select_zero]
  have h200 : (200000#32 : BitVec 32).toInt = 200000 := by decide
  rw [normW_of_nonneg _ (by rw [h200]; omega)]
  rintro ⟨_, h2⟩
  rw [h200] at h2
  omega

/-- The write-back at the redirected indices is the scatter at the rows themselves, the later edge winning. -/
theorem putRows_eq_scatter (mem : FVec F S200000x128 .f32) (a : IVec S100000 32) (hnew : FVec F S100000x128 .f32)
    (h : Ranged a) :
    putRows mem a hnew
      = Host.scatter scatter_S200000x128_S100000x1_S100000x128_1_0_0_1 (fun _ b => b) mem (nidx a) hnew := by
  unfold putRows
  exact ScatterLast.scatter_set_rows_last_wins (N := 200000) (E := 100000) (C := 128)
    scatter_S200000x128_S100000x1_S100000x128_1_0_0_1 rfl rfl rfl rfl (by norm_num) mem hnew (nidx a) (safeIdx a)
    (fun e => by rw [nidx_apply]; exact norm_inRange a h e)
    (fun e hl => safeIdx_of_last a h e hl)
    (fun e hl => safeIdx_of_not_last a h e hl)

end Cert.KernelIdeal.TGN

end
-- ==== Proof.RSpec.lean ====
/-
  The reference's two memory-update phases as functions of plain arrays.

  One phase reads, for every edge, the memory rows of its two ends and the last-update time of its first end, forms
  the time encoding of the elapsed time, runs the GRU cell on (first end's row, second end's row, raw message, time
  encoding), writes the new rows back at the first ends (a later edge overwriting an earlier one at a shared row) and
  raises the last-update times. The result of the program is the second phase, with the ends exchanged, of the
  first phase's result. A row index is read the Python way: a negative index counts from the end.
-/
import proofs.«414128_j58780922413723_3_alg».proof.Proof.Gen.ReferenceIdeal
import proofs.«414128_j58780922413723_3_alg».proof.Proof.Gen.ReferenceIdeal.Run

noncomputable section

namespace Cert.ReferenceIdeal.TGN

open Cert.ReferenceIdeal Cert.ReferenceIdeal.Gen Idealize.ShloMosaic

variable {F : FTy → Type} [FloatOps F]

/-- The edges' row indices as a column of start indices, a negative index counted from the end. -/
def nidx (a : IVec S100000 32) : IVec S100000x1 32 :=
  broadcastInDim S100000x1 ![0] bcast_S100000_S100000x1_0
    (select (cmpi .slt a (broadcastInDim S100000 ![] bcast_S_S100000 (constantI S_ 32 0#32)))
      (addi a (broadcastInDim S100000 ![] bcast_S_S100000 (constantI S_ 32 200000#32))) a)

/-- The time encoding `cos (d · w + c)` of the edges' elapsed times `d`, one row of 128 entries an edge. -/
def timeEnc (d : IVec S100000 32) (tw : FVec F S128x1 .f32) (tb : FVec F S128 .f32) : FVec F S100000x128 .f32 :=
  Host.cos (addf (mulf (broadcastInDim S100000x128 ![0, 1] bcast_S100000x1_S100000x128_0_1 (broadcastInDim S100000x1 ![0] bcast_S100000_S100000x1_0 (sitofp .f32 d)))
      (broadcastInDim S100000x128 ![0, 1] bcast_S1x128_S100000x128_0_1 (broadcastInDim S1x128 ![1] bcast_S128_S1x128_1 (shapeCast S128 tw shapeCasts_S128x1_S128))))
    (broadcastInDim S100000x128 ![0, 1] bcast_S1x128_S100000x128_0_1 (broadcastInDim S1x128 ![1] bcast_S128_S1x128_1 tb)))

/-- The input-side affine map of every edge's message (the four blocks side by side) into the three gates. -/
def gi (xA xB xR te : FVec F S100000x128 .f32) (wih : FVec F S384x512 .f32) (bih : FVec F S384 .f32) : FVec F S100000x384 .f32 :=
  addf (Host.dotGeneral dot_S100000x512_S512x384_S100000x384_1_0_0_1_n_n none
      (concatenate S100000x512 1 [⟨S100000x128, xA⟩, ⟨S100000x128, xB⟩, ⟨S100000x128, xR⟩, ⟨S100000x128, te⟩] concatenates_S100000x128_S100000x128_S100000x128_S100000x128_S100000x512_d1)
      (transpose S512x384 [1, 0] wih transposes_S384x512_S512x384_1_0))
    (broadcastInDim S100000x384 ![0, 1] bcast_S1x384_S100000x384_0_1 (broadcastInDim S1x384 ![1] bcast_S384_S1x384_1 bih))

/-- The hidden-side affine map of every edge's first-end row into the three gates. -/
def gh (xA : FVec F S100000x128 .f32) (whh : FVec F S384x128 .f32) (bhh : FVec F S384 .f32) : FVec F S100000x384 .f32 :=
  addf (Host.dotGeneral dot_S100000x128_S128x384_S100000x384_1_0_0_1_n_n none xA (transpose S128x384 [1, 0] whh transposes_S384x128_S128x384_1_0))
    (broadcastInDim S100000x384 ![0, 1] bcast_S1x384_S100000x384_0_1 (broadcastInDim S1x384 ![1] bcast_S384_S1x384_1 bhh))

/-- The logistic function spelt as the reference spells it: `1 / (1 + exp (-x))`. -/
def sigm (x : FVec F S100000x128 .f32) : FVec F S100000x128 .f32 :=
  Host.divf (broadcastInDim S100000x128 ![] bcast_S_S100000x128 (constant S_ .f32 0x3F800000#32))
    (addf (broadcastInDim S100000x128 ![] bcast_S_S100000x128 (constant S_ .f32 0x3F800000#32)) (Host.exp (Host.negf x)))

/-- The GRU cell's new rows from the two affine maps and the old rows: `(1 - z) · tanh (iₙ + r · hₙ) + z · old`. -/
def gruOut (g h : FVec F S100000x384 .f32) (xA : FVec F S100000x128 .f32) : FVec F S100000x128 .f32 :=
  addf (mulf (subf (broadcastInDim S100000x128 ![] bcast_S_S100000x128 (constant S_ .f32 0x3F800000#32))
        (sigm (addf (extractStridedSlice S100000x128 ![0, 128] g slices_S100000x384_S100000x128_0_128) (extractStridedSlice S100000x128 ![0, 128] h slices_S100000x384_S100000x128_0_128))))
      (Host.tanh (addf (extractStridedSlice S100000x128 ![0, 256] g slices_S100000x384_S100000x128_0_256)
        (mulf (sigm (addf (extractStridedSlice S100000x128 ![0, 0] g slices_S100000x384_S100000x128_0_0) (extractStridedSlice S100000x128 ![0, 0] h slices_S100000x384_S100000x128_0_0)))
          (extractStridedSlice S100000x128 ![0, 256] h slices_S100000x384_S100000x128_0_256)))))
    (mulf (sigm (addf (extractStridedSlice S100000x128 ![0, 128] g slices_S100000x384_S100000x128_0_128) (extractStridedSlice S100000x128 ![0, 128] h slices_S100000x384_S100000x128_0_128))) xA)

/-- The GRU cell on every edge: first-end rows `xA`, second-end rows `xB`, raw messages `xR`, time encodings `te`. -/
def gru (xA xB xR te : FVec F S100000x128 .f32) (wih : FVec F S384x512 .f32) (bih : FVec F S384 .f32)
    (whh : FVec F S384x128 .f32) (bhh : FVec F S384 .f32) : FVec F S100000x128 .f32 :=
  gruOut (gi xA xB xR te wih bih) (gh xA whh bhh) xA

/-- One phase's new memory: the cell's rows written back at the first ends. -/
def phaseMem (mem : FVec F S200000x128 .f32) (lu : IVec S200000 32) (a b t : IVec S100000 32) (raw : FVec F S100000x128 .f32)
    (tw : FVec F S128x1 .f32) (tb : FVec F S128 .f32) (wih : FVec F S384x512 .f32) (bih : FVec F S384 .f32)
    (whh : FVec F S384x128 .f32) (bhh : FVec F S384 .f32) : FVec F S200000x128 .f32 :=
  Host.scatter scatter_S200000x128_S100000x1_S100000x128_1_0_0_1 (fun _ b => b) mem (nidx a)
    (gru (Host.gather gather_S200000x128_S100000x1_S100000x128_1_0_n_n_0_1_1128 mem (nidx a))
      (Host.gather gather_S200000x128_S100000x1_S100000x128_1_0_n_n_0_1_1128 mem (nidx b)) raw
      (timeEnc (subi t (Host.gather gather_S200000_S100000x1_S100000_n_0_n_n_0_1_1 lu (nidx a))) tw tb) wih bih whh bhh)

/-- One phase's new last-update times: raised to the edges' times at the first ends. -/
def phaseLu (lu : IVec S200000 32) (a t : IVec S100000 32) : IVec S200000 32 :=
  Host.scatter scatter_S200000_S100000x1_S100000_n_0_0_1 IntOp.maxsi lu (nidx a) t

/-- The program's memory result: the second phase (ends exchanged) of the first phase's result. -/
def outMem (mem : FVec F S200000x128 .f32) (lu : IVec S200000 32) (src dst t : IVec S100000 32) (raw : FVec F S100000x128 .f32)
    (tw : FVec F S128x1 .f32) (tb : FVec F S128 .f32) (wih : FVec F S384x512 .f32) (bih : FVec F S384 .f32)
    (whh : FVec F S384x128 .f32) (bhh : FVec F S384 .f32) : FVec F S200000x128 .f32 :=
  phaseMem (phaseMem mem lu src dst t raw tw tb wih bih whh bhh) (phaseLu lu src t) dst src t raw tw tb wih bih whh bhh

/-- The program's last-update result. -/
def outLu (lu : IVec S200000 32) (src dst t : IVec S100000 32) : IVec S200000 32 :=
  phaseLu (phaseLu lu src t) dst t

end Cert.ReferenceIdeal.TGN

end
-- ==== Proof.RefCell.lean ====
/-
  The reference's GRU cell read index by index.

  The reference forms every edge's new row with whole-array operations: the four blocks of the message laid side by
  side, two products with transposed weight matrices, biases broadcast over the edges, three gates cut out of the 384
  columns, and the logistic function spelt as `1 / (1 + exp (-x))`. Read at edge `e` and column `j`, each of these is the
  corresponding piece of the one-edge update: the side-by-side blocks are the message's case split on the column, a
  product is the plain sum over its contracted axis, a transposed matrix swaps its coordinates, a broadcast bias is the
  bias at the column, a gate is the operand 0, 128 or 256 columns along, and the spelt-out logistic is the logistic
  because the word `0x3F800000` is the number one. Both sides are then the same sums and the same operations.
-/
import proofs.«414128_j58780922413723_3_alg».proof.Proof.RSpec
import proofs.«414128_j58780922413723_3_alg».proof.Proof.CellArr
import Idealize.ShloMosaic.Lib.ValueIdx
import Idealize.ShloMosaic.Lib.Pipeline.Value
import Idealize.ShloMosaic.PureOps.Ideal.Laws

noncomputable section

namespace Cert.ReferenceIdeal.RefCell

open Cert.ReferenceIdeal Cert.ReferenceIdeal.Gen Idealize.ShloMosaic Idealize.ShloMosaic.ValueIdx

/-! ## The number one, and a scalar spread over the array -/

/-- The word `0x3F800000` is the number one. -/
theorem one_word : Ideal.ofBits .f32 0x3F800000#32 = 1 := by
  simp [Ideal.ofBits, Ideal.ieee, -EReal.coe_mul]; norm_num

/-- A scalar constant spread over the edges' rows reads the constant's value everywhere. -/
theorem splat_apply (w : BitVec FTy.f32.bits) (i : S100000x128.Idx) :
    broadcastInDim S100000x128 ![] bcast_S_S100000x128 (constant (F := Ideal) S_ .f32 w) i = Ideal.ofBits .f32 w := rfl

/-- The constant one spread over the edges' rows reads one everywhere. -/
theorem one_apply (i : S100000x128.Idx) :
    broadcastInDim S100000x128 ![] bcast_S_S100000x128 (constant (F := Ideal) S_ .f32 0x3F800000#32) i = 1 :=
  (splat_apply _ i).trans one_word

/-! ## Rows and columns spread over the array -/

/-- A value per edge, spread along the 128 columns, reads the edge's value. -/
theorem edges_apply (x : FVec Ideal S100000 .f32) (e : Fin 100000) (k : Fin 128) :
    broadcastInDim S100000x128 ![0, 1] bcast_S100000x1_S100000x128_0_1
        (broadcastInDim S100000x1 ![0] bcast_S100000_S100000x1_0 x) (ix2 e k) = x (ix1 e) := by
  refine (broadcastInDim_apply _ _ _ _ (ix2 e (0 : Fin 1)) fun a => ?_).trans
    (broadcastInDim_apply _ _ _ _ (ix1 e) fun a => ?_)
  · match a with
    | ⟨0, _⟩ => rfl
    | ⟨1, _⟩ => rfl
  · match a with
    | ⟨0, _⟩ => rfl

/-- A row of 128 entries, spread over the edges, reads the row at the column. -/
theorem lane_apply (x : FVec Ideal S128 .f32) (e : Fin 100000) (k : Fin 128) :
    broadcastInDim S100000x128 ![0, 1] bcast_S1x128_S100000x128_0_1
        (broadcastInDim S1x128 ![1] bcast_S128_S1x128_1 x) (ix2 e k) = x (ix1 k) := by
  refine (broadcastInDim_apply _ _ _ _ (ix2 (0 : Fin 1) k) fun a => ?_).trans
    (broadcastInDim_apply _ _ _ _ (ix1 k) fun a => ?_)
  · match a with
    | ⟨0, _⟩ => rfl
    | ⟨1, _⟩ => rfl
  · match a with
    | ⟨0, _⟩ => rfl

/-- A bias of 384 entries, spread over the edges, reads the bias at the column. -/
theorem bias_apply (b : FVec Ideal S384 .f32) (e : Fin 100000) (q : Fin 384) :
    broadcastInDim S100000x384 ![0, 1] bcast_S1x384_S100000x384_0_1
        (broadcastInDim S1x384 ![1] bcast_S384_S1x384_1 b) (ix2 e q) = b (ix1 q) := by
  refine (broadcastInDim_apply _ _ _ _ (ix2 (0 : Fin 1) q) fun a => ?_).trans
    (broadcastInDim_apply _ _ _ _ (ix1 q) fun a => ?_)
  · match a with
    | ⟨0, _⟩ => rfl
    | ⟨1, _⟩ => rfl
  · match a with
    | ⟨0, _⟩ => rfl

/-- The time encoder's weight column [128, 1] read as a row of 128 entries. -/
theorem column_apply (tw : FVec Ideal S128x1 .f32) (k : Fin 128) :
    shapeCast S128 tw shapeCasts_S128x1_S128 (ix1 k) = tw (ix2 k 0) := by
  refine shapeCast_apply _ _ _ (ix2 k (0 : Fin 1)) ?_
  rw [Shape.rowMajor_val_two, Shape.rowMajor_val_one]
  show k.val * 1 + 0 = k.val
  omega

/-! ## The time encoding -/

/-- The time encoding at edge `e` and column `k`: `cos (d e · w k + c k)`. -/
theorem timeEnc_apply (d : IVec S100000 32) (tw : FVec Ideal S128x1 .f32) (tb : FVec Ideal S128 .f32)
    (e : Fin 100000) (k : Fin 128) :
    TGN.timeEnc (F := Ideal) d tw tb (ix2 e k) =
      TGNCell.tenc ((sitofp .f32 d : FVec Ideal S100000 .f32) (ix1 e)) (fun k => tw (ix2 k 0)) (fun k => tb (ix1 k)) k := by
  unfold TGN.timeEnc TGNCell.tenc Host.cos
  simp only [Ideal.hostUnary_cos_def, addf_apply, mulf_apply]
  rw [edges_apply, lane_apply, lane_apply, column_apply]

/-! ## The message: four blocks side by side -/

/-- The four blocks side by side, read at edge `e` and column `k`: the block the column falls in, at the column less the
    blocks before it. -/
theorem msg_apply (xA xB xR te : FVec Ideal S100000x128 .f32) (e : Fin 100000) (k : Fin 512) :
    concatenate S100000x512 1 [⟨S100000x128, xA⟩, ⟨S100000x128, xB⟩, ⟨S100000x128, xR⟩, ⟨S100000x128, te⟩]
        concatenates_S100000x128_S100000x128_S100000x128_S100000x128_S100000x512_d1 (ix2 e k) =
      TGNCell.msg (fun k => xA (ix2 e k)) (fun k => xB (ix2 e k)) (fun k => xR (ix2 e k)) (fun k => te (ix2 e k)) k := by
  have hoff : ∀ (x : Fin 128) (b : Fin S100000x128.rank), b.cast (rfl : S100000x128.rank = S100000x512.rank) ≠ 1 →
      ((ix2 e x : S100000x128.Idx) b).val = ((ix2 e k : S100000x512.Idx) (b.cast rfl)).val := fun x b =>
    match b with
    | ⟨0, _⟩ => fun _ => rfl
    | ⟨1, _⟩ => fun hb => absurd rfl hb
  unfold TGNCell.msg
  by_cases h1 : k.val < 128
  · rw [dif_pos h1]
    exact concatenate_apply_piece 1 _ _ (ix2 e k) 0 (by simp) S100000x128 xA rfl rfl 0 rfl (ix2 e ⟨k.val, h1⟩)
      (hoff _) (Nat.zero_add _)
  · rw [dif_neg h1]
    by_cases h2 : k.val < 256
    · rw [dif_pos h2]
      exact concatenate_apply_piece 1 _ _ (ix2 e k) 1 (by simp) S100000x128 xB rfl rfl 128 rfl
        (ix2 e ⟨k.val - 128, by omega⟩) (hoff _) (by show 128 + (k.val - 128) = k.val; omega)
    · rw [dif_neg h2]
      by_cases h3 : k.val < 384
      · rw [dif_pos h3]
        exact concatenate_apply_piece 1 _ _ (ix2 e k) 2 (by simp) S100000x128 xR rfl rfl 256 rfl
          (ix2 e ⟨k.val - 256, by omega⟩) (hoff _) (by show 256 + (k.val - 256) = k.val; omega)
      · rw [dif_neg h3]
        exact concatenate_apply_piece 1 _ _ (ix2 e k) 3 (by simp) S100000x128 te rfl rfl 384 rfl
          (ix2 e ⟨k.val - 384, by have := k.isLt; omega⟩) (hoff _) (by show 384 + (k.val - 384) = k.val; omega)

/-! ## The transposed weights -/

/-- The input-side weights transposed: entry `(k, q)` is the weights' entry `(q, k)`. -/
theorem wihT_apply (w : FVec Ideal S384x512 .f32) (k : Fin 512) (q : Fin 384) :
    transpose S512x384 [1, 0] w transposes_S384x512_S512x384_1_0 (ix2 k q) = w (ix2 q k) :=
  transpose_apply _ _ _ _ (ix2 q k) fun b =>
    match b with
    | ⟨0, _⟩ => rfl
    | ⟨1, _⟩ => rfl

/-- The hidden-side weights transposed: entry `(k, q)` is the weights' entry `(q, k)`. -/
theorem whhT_apply (w : FVec Ideal S384x128 .f32) (k : Fin 128) (q : Fin 384) :
    transpose S128x384 [1, 0] w transposes_S384x128_S128x384_1_0 (ix2 k q) = w (ix2 q k) :=
  transpose_apply _ _ _ _ (ix2 q k) fun b =>
    match b with
    | ⟨0, _⟩ => rfl
    | ⟨1, _⟩ => rfl

/-! ## The two products -/

/-- The left operand's row is the result's row. -/
theorem lhs_gi_0 (i : S100000x384.Idx) (q : dot_S100000x512_S512x384_S100000x384_1_0_0_1_n_n.contr.Idx) :
    (dot_S100000x512_S512x384_S100000x384_1_0_0_1_n_n.lhsIdx i q 0).val = (i 0).val := by
  unfold DotDims.lhsIdx
  rw [dif_neg (show ¬(0 : Fin S100000x512.rank) ∈ dot_S100000x512_S512x384_S100000x384_1_0_0_1_n_n.lhsBatch by decide),
    dif_pos (show (0 : Fin S100000x512.rank) ∈ dot_S100000x512_S512x384_S100000x384_1_0_0_1_n_n.lhsNonContracting by decide)]
  rfl
/-- The left operand's column is the contraction position. -/
theorem lhs_gi_1 (i : S100000x384.Idx) (q : dot_S100000x512_S512x384_S100000x384_1_0_0_1_n_n.contr.Idx) :
    (dot_S100000x512_S512x384_S100000x384_1_0_0_1_n_n.lhsIdx i q 1).val = (q ⟨0, by decide⟩).val :=
  dot_S100000x512_S512x384_S100000x384_1_0_0_1_n_n.lhsIdx_val_of_single rfl i q
/-- The right operand's row is the contraction position. -/
theorem rhs_gi_0 (i : S100000x384.Idx) (q : dot_S100000x512_S512x384_S100000x384_1_0_0_1_n_n.contr.Idx) :
    (dot_S100000x512_S512x384_S100000x384_1_0_0_1_n_n.rhsIdx i q 0).val = (q ⟨0, by decide⟩).val :=
  dot_S100000x512_S512x384_S100000x384_1_0_0_1_n_n.rhsIdx_val_of_single rfl i q
/-- The right operand's column is the result's column. -/
theorem rhs_gi_1 (i : S100000x384.Idx) (q : dot_S100000x512_S512x384_S100000x384_1_0_0_1_n_n.contr.Idx) :
    (dot_S100000x512_S512x384_S100000x384_1_0_0_1_n_n.rhsIdx i q 1).val = (i 1).val := by
  unfold DotDims.rhsIdx
  rw [dif_neg (show ¬(1 : Fin S512x384.rank) ∈ dot_S100000x512_S512x384_S100000x384_1_0_0_1_n_n.rhsBatch by decide),
    dif_pos (show (1 : Fin S512x384.rank) ∈ dot_S100000x512_S512x384_S100000x384_1_0_0_1_n_n.rhsNonContracting by decide)]
  rfl

/-- The product with one contracted axis of extent 512, read at row `e` and column `q`: the plain sum over that axis. -/
theorem dot_gi_apply (l : FVec Ideal S100000x512 .f32) (r : FVec Ideal S512x384 .f32) (e : Fin 100000) (q : Fin 384) :
    Host.dotGeneral (F := Ideal) dot_S100000x512_S512x384_S100000x384_1_0_0_1_n_n none l r (ix2 e q) = ∑ k : Fin 512, l (ix2 e k) * r (ix2 k q) := by
  simp only [Host.dotGeneral]
  rw [Ideal.dotGeneral_apply, ← Equiv.sum_comp (contrEquiv1 dot_S100000x512_S512x384_S100000x384_1_0_0_1_n_n 512 rfl rfl).symm]
  refine Finset.sum_congr rfl fun k _ => ?_
  have hk := contrEquiv1_symm_val dot_S100000x512_S512x384_S100000x384_1_0_0_1_n_n 512 rfl rfl k
  have el : dot_S100000x512_S512x384_S100000x384_1_0_0_1_n_n.lhsIdx (ix2 e q) ((contrEquiv1 dot_S100000x512_S512x384_S100000x384_1_0_0_1_n_n 512 rfl rfl).symm k) = ix2 e k :=
    funext fun a => Fin.ext (by
      match a with
      | ⟨0, _⟩ => exact lhs_gi_0 _ _
      | ⟨1, _⟩ => exact (lhs_gi_1 _ _).trans hk)
  have er : dot_S100000x512_S512x384_S100000x384_1_0_0_1_n_n.rhsIdx (ix2 e q) ((contrEquiv1 dot_S100000x512_S512x384_S100000x384_1_0_0_1_n_n 512 rfl rfl).symm k) = ix2 k q :=
    funext fun a => Fin.ext (by
      match a with
      | ⟨0, _⟩ => exact (rhs_gi_0 _ _).trans hk
      | ⟨1, _⟩ => exact rhs_gi_1 _ _)
  rw [el, er]

/-- The left operand's row is the result's row. -/
theorem lhs_gh_0 (i : S100000x384.Idx) (q : dot_S100000x128_S128x384_S100000x384_1_0_0_1_n_n.contr.Idx) :
    (dot_S100000x128_S128x384_S100000x384_1_0_0_1_n_n.lhsIdx i q 0).val = (i 0).val := by
  unfold DotDims.lhsIdx
  rw [dif_neg (show ¬(0 : Fin S100000x128.rank) ∈ dot_S100000x128_S128x384_S100000x384_1_0_0_1_n_n.lhsBatch by decide),
    dif_pos (show (0 : Fin S100000x128.rank) ∈ dot_S100000x128_S128x384_S100000x384_1_0_0_1_n_n.lhsNonContracting by decide)]
  rfl
/-- The left operand's column is the contraction position. -/
theorem lhs_gh_1 (i : S100000x384.Idx) (q : dot_S100000x128_S128x384_S100000x384_1_0_0_1_n_n.contr.Idx) :
    (dot_S100000x128_S128x384_S100000x384_1_0_0_1_n_n.lhsIdx i q 1).val = (q ⟨0, by decide⟩).val :=
  dot_S100000x128_S128x384_S100000x384_1_0_0_1_n_n.lhsIdx_val_of_single rfl i q
/-- The right operand's row is the contraction position. -/
theorem rhs_gh_0 (i : S100000x384.Idx) (q : dot_S100000x128_S128x384_S100000x384_1_0_0_1_n_n.contr.Idx) :
    (dot_S100000x128_S128x384_S100000x384_1_0_0_1_n_n.rhsIdx i q 0).val = (q ⟨0, by decide⟩).val :=
  dot_S100000x128_S128x384_S100000x384_1_0_0_1_n_n.rhsIdx_val_of_single rfl i q
/-- The right operand's column is the result's column. -/
theorem rhs_gh_1 (i : S100000x384.Idx) (q : dot_S100000x128_S128x384_S100000x384_1_0_0_1_n_n.contr.Idx) :
    (dot_S100000x128_S128x384_S100000x384_1_0_0_1_n_n.rhsIdx i q 1).val = (i 1).val := by
  unfold DotDims.rhsIdx
  rw [dif_neg (show ¬(1 : Fin S128x384.rank) ∈ dot_S100000x128_S128x384_S100000x384_1_0_0_1_n_n.rhsBatch by decide),
    dif_pos (show (1 : Fin S128x384.rank) ∈ dot_S100000x128_S128x384_S100000x384_1_0_0_1_n_n.rhsNonContracting by decide)]
  rfl

/-- The product with one contracted axis of extent 128, read at row `e` and column `q`: the plain sum over that axis. -/
theorem dot_gh_apply (l : FVec Ideal S100000x128 .f32) (r : FVec Ideal S128x384 .f32) (e : Fin 100000) (q : Fin 384) :
    Host.dotGeneral (F := Ideal) dot_S100000x128_S128x384_S100000x384_1_0_0_1_n_n none l r (ix2 e q) = ∑ k : Fin 128, l (ix2 e k) * r (ix2 k q) := by
  simp only [Host.dotGeneral]
  rw [Ideal.dotGeneral_apply, ← Equiv.sum_comp (contrEquiv1 dot_S100000x128_S128x384_S100000x384_1_0_0_1_n_n 128 rfl rfl).symm]
  refine Finset.sum_congr rfl fun k _ => ?_
  have hk := contrEquiv1_symm_val dot_S100000x128_S128x384_S100000x384_1_0_0_1_n_n 128 rfl rfl k
  have el : dot_S100000x128_S128x384_S100000x384_1_0_0_1_n_n.lhsIdx (ix2 e q) ((contrEquiv1 dot_S100000x128_S128x384_S100000x384_1_0_0_1_n_n 128 rfl rfl).symm k) = ix2 e k :=
    funext fun a => Fin.ext (by
      match a with
      | ⟨0, _⟩ => exact lhs_gh_0 _ _
      | ⟨1, _⟩ => exact (lhs_gh_1 _ _).trans hk)
  have er : dot_S100000x128_S128x384_S100000x384_1_0_0_1_n_n.rhsIdx (ix2 e q) ((contrEquiv1 dot_S100000x128_S128x384_S100000x384_1_0_0_1_n_n 128 rfl rfl).symm k) = ix2 k q :=
    funext fun a => Fin.ext (by
      match a with
      | ⟨0, _⟩ => exact (rhs_gh_0 _ _).trans hk
      | ⟨1, _⟩ => exact rhs_gh_1 _ _)
  rw [el, er]

/-! ## The two affine maps -/

/-- The input-side affine map at edge `e` and output `q`. -/
theorem gi_apply (xA xB xR te : FVec Ideal S100000x128 .f32) (wih : FVec Ideal S384x512 .f32) (bih : FVec Ideal S384 .f32)
    (e : Fin 100000) (q : Fin 384) :
    TGN.gi xA xB xR te wih bih (ix2 e q) =
      TGNCell.gi (fun k => xA (ix2 e k)) (fun k => xB (ix2 e k)) (fun k => xR (ix2 e k)) (fun k => te (ix2 e k))
        (fun k q => wih (ix2 q k)) (fun q => bih (ix1 q)) q := by
  unfold TGN.gi TGNCell.gi
  rw [addf_apply, dot_gi_apply, bias_apply]
  refine congrArg (· + bih (ix1 q)) (Finset.sum_congr rfl fun k _ => ?_)
  rw [msg_apply, wihT_apply]

/-- The hidden-side affine map at edge `e` and output `q`. -/
theorem gh_apply (xA : FVec Ideal S100000x128 .f32) (whh : FVec Ideal S384x128 .f32) (bhh : FVec Ideal S384 .f32)
    (e : Fin 100000) (q : Fin 384) :
    TGN.gh xA whh bhh (ix2 e q) =
      TGNCell.gh (fun k => xA (ix2 e k)) (fun k q => whh (ix2 q k)) (fun q => bhh (ix1 q)) q := by
  unfold TGN.gh TGNCell.gh
  rw [addf_apply, dot_gh_apply, bias_apply]
  refine congrArg (· + bhh (ix1 q)) (Finset.sum_congr rfl fun k _ => ?_)
  rw [whhT_apply]

/-! ## The three gates -/

/-- The gate that starts at column 0, read at `(e, j)`: the operand at column `j.val`. -/
theorem gate0_apply (g : FVec Ideal S100000x384 .f32) (e : Fin 100000) (j : Fin 128) :
    extractStridedSlice S100000x128 ![0, 0] g slices_S100000x384_S100000x128_0_0 (ix2 e j) =
      g (ix2 e ⟨j.val, by omega⟩) :=
  extractStridedSlice_apply _ _ _ _ (ix2 e ⟨j.val, by omega⟩) fun a =>
    match a with
    | ⟨0, _⟩ => (Nat.zero_add _).symm
    | ⟨1, _⟩ => (Nat.zero_add _).symm

/-- The gate that starts at column 128, read at `(e, j)`: the operand at column `128 + j.val`. -/
theorem gate128_apply (g : FVec Ideal S100000x384 .f32) (e : Fin 100000) (j : Fin 128) :
    extractStridedSlice S100000x128 ![0, 128] g slices_S100000x384_S100000x128_0_128 (ix2 e j) =
      g (ix2 e ⟨128 + j.val, by omega⟩) :=
  extractStridedSlice_apply _ _ _ _ (ix2 e ⟨128 + j.val, by omega⟩) fun a =>
    match a with
    | ⟨0, _⟩ => (Nat.zero_add _).symm
    | ⟨1, _⟩ => rfl

/-- The gate that starts at column 256, read at `(e, j)`: the operand at column `256 + j.val`. -/
theorem gate256_apply (g : FVec Ideal S100000x384 .f32) (e : Fin 100000) (j : Fin 128) :
    extractStridedSlice S100000x128 ![0, 256] g slices_S100000x384_S100000x128_0_256 (ix2 e j) =
      g (ix2 e ⟨256 + j.val, by omega⟩) :=
  extractStridedSlice_apply _ _ _ _ (ix2 e ⟨256 + j.val, by omega⟩) fun a =>
    match a with
    | ⟨0, _⟩ => (Nat.zero_add _).symm
    | ⟨1, _⟩ => rfl

/-! ## The logistic function and the cell's output -/

/-- The reference's `1 / (1 + exp (-x))` is the logistic function. -/
theorem sigm_apply (x : FVec Ideal S100000x128 .f32) (i : S100000x128.Idx) : TGN.sigm x i = Ideal.logistic (x i) := by
  unfold TGN.sigm Host.divf Host.exp Host.negf Ideal.logistic
  simp only [addf_apply, Ideal.hostDivf_def, Ideal.hostUnary_exp_def, Ideal.hostNegf_def, Ideal.negf_def]
  rw [one_apply]

/-- The cell's output at edge `e` and column `j`, from the two affine maps' arrays and the old rows. -/
theorem gruOut_apply (g h : FVec Ideal S100000x384 .f32) (xA : FVec Ideal S100000x128 .f32) (e : Fin 100000) (j : Fin 128) :
    TGN.gruOut g h xA (ix2 e j) =
      (1 - Ideal.logistic (g (ix2 e ⟨128 + j.val, by omega⟩) + h (ix2 e ⟨128 + j.val, by omega⟩))) *
          Ideal.tanh (g (ix2 e ⟨256 + j.val, by omega⟩) +
            Ideal.logistic (g (ix2 e ⟨j.val, by omega⟩) + h (ix2 e ⟨j.val, by omega⟩)) * h (ix2 e ⟨256 + j.val, by omega⟩)) +
        Ideal.logistic (g (ix2 e ⟨128 + j.val, by omega⟩) + h (ix2 e ⟨128 + j.val, by omega⟩)) * xA (ix2 e j) := by
  unfold TGN.gruOut Host.tanh
  simp only [addf_apply, mulf_apply, subf_apply, sigm_apply, Ideal.hostUnary_tanh_def, gate0_apply, gate128_apply,
    gate256_apply]
  rw [one_apply]

/-! ## The reference's cell is the one-edge update at every edge -/

/-- The reference's GRU on the time encoding of the elapsed times is, entry by entry, the one-edge update of the
    edge's rows; the weights enter transposed, as the reference multiplies by the transposes. -/
theorem gru_eq_cellArr (xA xB xR : FVec Ideal S100000x128 .f32) (d : IVec S100000 32)
    (tw : FVec Ideal S128x1 .f32) (tb : FVec Ideal S128 .f32) (wih : FVec Ideal S384x512 .f32) (bih : FVec Ideal S384 .f32)
    (whh : FVec Ideal S384x128 .f32) (bhh : FVec Ideal S384 .f32) :
    TGN.gru xA xB xR (TGN.timeEnc d tw tb) wih bih whh bhh =
      TGNCell.cellArr (fun e k => xA (ix2 e k)) (fun e k => xB (ix2 e k)) (fun e k => xR (ix2 e k))
        (fun e => (sitofp .f32 d : FVec Ideal S100000 .f32) (ix1 e))
        (fun k => tw (ix2 k 0)) (fun k => tb (ix1 k))
        (fun k q => wih (ix2 q k)) (fun q => bih (ix1 q))
        (fun k q => whh (ix2 q k)) (fun q => bhh (ix1 q)) := by
  funext i
  obtain ⟨e, j, rfl⟩ : ∃ (e : Fin 100000) (j : Fin 128), i = ix2 e j := ⟨i 0, i 1, eq_ix2 i⟩
  have hte : (fun k => TGN.timeEnc (F := Ideal) d tw tb (ix2 e k)) =
      TGNCell.tenc ((sitofp .f32 d : FVec Ideal S100000 .f32) (ix1 e)) (fun k => tw (ix2 k 0)) (fun k => tb (ix1 k)) :=
    funext fun k => timeEnc_apply d tw tb e k
  unfold TGN.gru
  rw [gruOut_apply]
  simp only [gi_apply, gh_apply, hte]
  rfl

end Cert.ReferenceIdeal.RefCell

end
-- ==== Proof.Conn.lean ====
/-
  The kernel program's phase is the reference's phase, for edge indices inside the table. The gather with a fill is the
  plain gather; the GRU call's array is the reference's cell (both are the same index-by-index formula, the kernel's
  operands being the reference's arrays cast, transposed or re-formatted); the write-back in which only the last edge of
  a row writes is the reference's scatter, where a later edge overwrites an earlier one.
-/
import proofs.«414128_j58780922413723_3_alg».proof.Proof.KPhase
import proofs.«414128_j58780922413723_3_alg».proof.Proof.Layout
import proofs.«414128_j58780922413723_3_alg».proof.Proof.HostIdx
import proofs.«414128_j58780922413723_3_alg».proof.Proof.RSpec
import proofs.«414128_j58780922413723_3_alg».proof.Proof.RefCell

noncomputable section

namespace Cert.KernelIdeal.TGN

open Cert.KernelIdeal Cert.KernelIdeal.Gen Idealize.ShloMosaic Idealize.ShloMosaic.ValueIdx

/-- The GRU call on the kernel's operands is the reference's cell on the reference's arrays. -/
theorem kGru_eq (xA xB xR : FVec Ideal S100000x128 .f32) (d : IVec S100000 32) (tw : FVec Ideal S128x1 .f32) (tb : FVec Ideal S128 .f32)
    (wih : FVec Ideal S384x512 .f32) (bih : FVec Ideal S384 .f32) (whh : FVec Ideal S384x128 .f32) (bhh : FVec Ideal S384 .f32) :
    kGru xA xB xR (shapeCast S100000x1 (sitofp .f32 d : FVec Ideal S100000 .f32) shapeCasts_S100000_S100000x1) (twRow tw) (tbRow tb) (wihT wih) (biasRow bih) (whhT whh) (biasRow bhh)
      = Cert.ReferenceIdeal.TGN.gru xA xB xR (Cert.ReferenceIdeal.TGN.timeEnc d tw tb) wih bih whh bhh := by
  rw [Cert.ReferenceIdeal.RefCell.gru_eq_cellArr]
  unfold kGru
  simp only [twRow_apply, tbRow_apply, wihT_apply, whhT_apply, biasRow_apply, shapeCast_a_a1_apply]

/-- The raising of the last-update times is the same operation in both programs. -/
theorem putMax_eq (lu : IVec S200000 32) (a t : IVec S100000 32) : putMax lu a t = Cert.ReferenceIdeal.TGN.phaseLu lu a t := rfl

/-- One phase: the kernel program's new memory is the reference's. -/
theorem kPhaseMem_eq (mem : FVec Ideal S200000x128 .f32) (lu : IVec S200000 32) (a b t : IVec S100000 32) (raw : FVec Ideal S100000x128 .f32)
    (tw : FVec Ideal S128x1 .f32) (tb : FVec Ideal S128 .f32) (wih : FVec Ideal S384x512 .f32) (bih : FVec Ideal S384 .f32)
    (whh : FVec Ideal S384x128 .f32) (bhh : FVec Ideal S384 .f32) (ha : Ranged a) (hb : Ranged b) :
    kPhaseMem mem lu a b t raw tw tb wih bih whh bhh = Cert.ReferenceIdeal.TGN.phaseMem mem lu a b t raw tw tb wih bih whh bhh := by
  unfold kPhaseMem
  rw [putRows_eq_scatter _ _ _ ha, takeRows_eq_gather _ _ ha, takeRows_eq_gather _ _ hb]
  unfold trel
  rw [takeVec_eq_gather _ _ ha, kGru_eq]
  rfl

/-- The two phases in turn: the kernel program's memory result is the reference's. -/
theorem kOutMem_eq (mem : FVec Ideal S200000x128 .f32) (lu : IVec S200000 32) (src dst t : IVec S100000 32) (raw : FVec Ideal S100000x128 .f32)
    (tw : FVec Ideal S128x1 .f32) (tb : FVec Ideal S128 .f32) (wih : FVec Ideal S384x512 .f32) (bih : FVec Ideal S384 .f32)
    (whh : FVec Ideal S384x128 .f32) (bhh : FVec Ideal S384 .f32) (hs : Ranged src) (hd : Ranged dst) :
    kOutMem mem lu src dst t raw tw tb wih bih whh bhh = Cert.ReferenceIdeal.TGN.outMem mem lu src dst t raw tw tb wih bih whh bhh := by
  unfold kOutMem Cert.ReferenceIdeal.TGN.outMem
  rw [kPhaseMem_eq _ _ _ _ _ _ _ _ _ _ _ _ hs hd, putMax_eq, kPhaseMem_eq _ _ _ _ _ _ _ _ _ _ _ _ hd hs]

/-- The kernel program's last-update result is the reference's. -/
theorem kOutLu_eq (lu : IVec S200000 32) (src dst t : IVec S100000 32) :
    kOutLu lu src dst t = Cert.ReferenceIdeal.TGN.outLu lu src dst t := rfl

end Cert.KernelIdeal.TGN

end
-- ==== Proof.RRun.lean ====
/-
  The reference program's run ends with its two results at the two phases applied in turn to the launch contents:
  the generated run's composed terms are, operation for operation, `outMem` and `outLu`.
-/
import proofs.«414128_j58780922413723_3_alg».proof.Proof.RSpec

noncomputable section

namespace Cert.ReferenceIdeal.TGN

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxRecDepth 16384 in
set_option maxHeartbeats 4000000 in
/-- The memory result's composed term is the two phases in turn. -/
theorem out_mem (V0 : Valuation τ sig (Elt F)) :
    val4 V0 (no_index (Proc.devRef .tc main_v178)) = outMem (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [val4_main_v178]
  unfold outMem phaseMem phaseLu gru gruOut sigm gi gh timeEnc nidx res_main_v163 res_main_v138 res_main_v143 res_main_v133
    res_main_v85 res_main_v92 res_main_v70 res_main_v45 res_main_v50 res_main_v40
  rfl

set_option maxRecDepth 16384 in
set_option maxHeartbeats 4000000 in
/-- The last-update result's composed term is the two phases' raising of the times in turn. -/
theorem out_lu (V0 : Valuation τ sig (Elt F)) :
    val4 V0 (no_index (Proc.devRef .tc main_v185)) = outLu (V0 (Proc.devRef .tc main_arg1)) (V0 (Proc.devRef .tc main_arg2)) (V0 (Proc.devRef .tc main_arg3)) (V0 (Proc.devRef .tc main_arg4)) := by
  rw [val4_main_v185]
  unfold outLu phaseLu nidx res_main_v92
  rfl

end Cert.ReferenceIdeal.TGN

end
-- ==== Proof.PreRange.lean ====
/-
  THE INDEX RANGE, READ OUT OF THE PRINTED PRECONDITION. The precondition is an and-chain of scalar bits; its last two
  are, for the two edge-index vectors, jnp.all((x >= -200000) & (x < 200000)): a reduce by and, from 1, of the mask
  whose element is the and of a signed compare against the broadcast word 4294767296 (which reads -200000 signed) and a
  signed compare against the broadcast word 200000. The whole chain being 1, each of its bits is 1; a reduce by and
  that is 1 met only 1s; a mask element that is 1 has both compare bits 1; a signed compare bit that is 1 is the signed
  inequality between the words. Every step is taken at ONE symbolic element of the 100000.
-/
import proofs.«414128_j58780922413723_3_alg».proof.Pre_finite_inputs
import proofs.«414128_j58780922413723_3_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Idealize.ShloMosaic
open Cert.Pre_finite_inputs

/-- The scalar shape has one index. -/
instance subsingleton_scalar_idx : Subsingleton S_.Idx := ⟨fun a b => funext fun d => d.elim0⟩

/-- The two words of the range, read signed. -/
theorem lo_toInt : (4294767296#32 : BitVec 32).toInt = -200000 := by decide
theorem hi_toInt : (200000#32 : BitVec 32).toInt = 200000 := by decide

/-- An and of two scalar bits that is 1 at the one index: both are. -/
theorem andi_split {x y : IVec S_ 1} (h : andi x y ValueIdx.ix0 = 1#1) : x ValueIdx.ix0 = 1#1 ∧ y ValueIdx.ix0 = 1#1 :=
  IntOp.andi_eq_one.1 h

/-- A scalar word broadcast along the edges reads that word at every edge. -/
theorem bcast_word (bc : S_.BroadcastsInDim S100000 (![] : Fin 0 → Fin S100000.rank)) (h0 : 0 < S_.numel) (c : BitVec 32)
    (i : S100000.Idx) : broadcastInDim S100000 ![] bc (constantI S_ 32 c) i = c :=
  StableHlo.Predicate.bcast_scalar bc h0 (constantI S_ 32 c) i

/-- ONE jnp.all((x >= -200000) & (x < 200000)) DECODED: if the reduce by and of the mask is 1, every edge's word lies in
    [-200000, 200000) signed. -/
theorem range_of_all (x : IVec S100000 32) (bc : S_.BroadcastsInDim S100000 (![] : Fin 0 → Fin S100000.rank))
    (rd : S100000.ReducesTo [0] S_) (h0 : 0 < S_.numel)
    (h : Host.reduce IntOp.andi
          (andi (cmpi .sge x (broadcastInDim S100000 ![] bc (constantI S_ 32 4294767296#32)))
                (cmpi .slt x (broadcastInDim S100000 ![] bc (constantI S_ 32 200000#32))))
          (constantI S_ 1 1#1) rd h0 ValueIdx.ix0 = 1#1)
    (e : Fin 100000) :
    -200000 ≤ (x (ValueIdx.ix1 e)).toInt ∧ (x (ValueIdx.ix1 e)).toInt < 200000 := by
  -- the mask's element at edge e is 1
  have he := Host.reduce_andi_all _ _ rd h0 ValueIdx.ix0 h (ValueIdx.ix1 e)
  -- it is the and of the two compare bits, each against the broadcast word read at e
  have hb : IntOp.andi (IntOp.cmpi .sge (x (ValueIdx.ix1 e)) (broadcastInDim S100000 ![] bc (constantI S_ 32 4294767296#32) (ValueIdx.ix1 e)))
      (IntOp.cmpi .slt (x (ValueIdx.ix1 e)) (broadcastInDim S100000 ![] bc (constantI S_ 32 200000#32) (ValueIdx.ix1 e))) = 1#1 := he
  rw [bcast_word bc h0, bcast_word bc h0] at hb
  obtain ⟨hge, hlt⟩ := IntOp.andi_eq_one.1 hb
  rw [IntOp.cmpi_sge, lo_toInt] at hge
  rw [IntOp.cmpi_slt, hi_toInt] at hlt
  exact ⟨hge, hlt⟩

/-- THE PRECONDITION DECODED: both edge-index vectors lie in [-200000, 200000) signed, at every edge. -/
theorem ranged_of_pre {F : FTy → Type} [FloatOps F]
    (a0 : FVec F Cert.Pre_finite_inputs.S200000x128 .f32) (a1 : IVec Cert.Pre_finite_inputs.S200000 32)
    (a2 a3 a4 : IVec Cert.Pre_finite_inputs.S100000 32) (a5 : FVec F Cert.Pre_finite_inputs.S100000x128 .f32)
    (a6 : FVec F Cert.Pre_finite_inputs.S128x1 .f32) (a7 : FVec F Cert.Pre_finite_inputs.S128 .f32)
    (a8 : FVec F Cert.Pre_finite_inputs.S384x512 .f32) (a9 : FVec F Cert.Pre_finite_inputs.S384 .f32)
    (a10 : FVec F Cert.Pre_finite_inputs.S384x128 .f32) (a11 : FVec F Cert.Pre_finite_inputs.S384 .f32)
    (h : Cert.Pre_finite_inputs.fn (F := F) a0 a1 a2 a3 a4 a5 a6 a7 a8 a9 a10 a11 = fun _ => 1#1) :
    (∀ e : Fin 100000, -200000 ≤ (a2 (ValueIdx.ix1 e)).toInt ∧ (a2 (ValueIdx.ix1 e)).toInt < 200000) ∧
    (∀ e : Fin 100000, -200000 ≤ (a3 (ValueIdx.ix1 e)).toInt ∧ (a3 (ValueIdx.ix1 e)).toInt < 200000) := by
  have e := congrFun h ValueIdx.ix0
  dsimp only [Cert.Pre_finite_inputs.fn, Cert.Pre_finite_inputs.fn_part1, Cert.Pre_finite_inputs.fn_part2,
    Cert.Pre_finite_inputs.fn_part3] at e
  -- the chain is ((floats … and all(a2 in range)) and all(a3 in range)): open only its last two bits
  obtain ⟨e45, e3⟩ := andi_split e
  obtain ⟨-, e2⟩ := andi_split e45
  exact ⟨range_of_all a2 _ _ _ e2, range_of_all a3 _ _ _ e3⟩

end Cert.PreRange

end
-- ==== Proof.lean ====
/-
  A temporal-graph memory update: 200000 memory rows of 128 entries with their last-update times, 100000 edges. A phase
  gathers, per edge, the rows of its two ends and the time since its first end's last update, forms the message (the
  two rows, the raw message and the time encoding `cos (d · w + c)` side by side), runs a GRU cell on it and writes the
  new rows back at the first ends; the update is the phase over (source, destination) followed by the phase over
  (destination, source).

  The kernel program runs the cell as a pipelined kernel over blocks of 2000 edges and keeps the gathers and scatters on
  the host. It differs from the reference in three places, none of which changes a value at the exact instance when
  every edge index lies in `[-200000, 200000)`: its gathers fill where an index is out of range (no index is); its
  matrix products take operands rounded to a shorter format (a change of format is the identity here) in blocks of
  rows (a block of a product is the product of the block); and where several edges share a row it lets only the
  LAST of them write — found by a scatter-max of the edge positions — while the reference scatters all of them, the
  later overwriting the earlier. Both leave the last edge's row.

  `Cert.Claim`: the three programs run and leave their arguments unchanged (the generated frames; the reference's run
  with its results dropped), the idealization rewrote nothing, and the two idealized programs end with equal results:
  the kernel program's two results are the fold of the generated frame read at the result buffers, which is the two
  phases in turn of the launch contents; the reference's run ends at the same two phases.
-/
import proofs.«414128_j58780922413723_3_alg».proof.Defs
import proofs.«414128_j58780922413723_3_alg».proof.Proof.Gen.Kernel
import proofs.«414128_j58780922413723_3_alg».proof.Proof.Gen.Kernel.Skeleton
import proofs.«414128_j58780922413723_3_alg».proof.Proof.Gen.Kernel.Launch
import proofs.«414128_j58780922413723_3_alg».proof.Proof.Gen.Kernel.Points
import proofs.«414128_j58780922413723_3_alg».proof.Proof.Gen.Kernel.Frame
import proofs.«414128_j58780922413723_3_alg».proof.Proof.Gen.KernelIdeal
import proofs.«414128_j58780922413723_3_alg».proof.Proof.Gen.KernelIdeal.Skeleton
import proofs.«414128_j58780922413723_3_alg».proof.Proof.Gen.KernelIdeal.Launch
import proofs.«414128_j58780922413723_3_alg».proof.Proof.Gen.KernelIdeal.Points
import proofs.«414128_j58780922413723_3_alg».proof.Proof.Gen.KernelIdeal.Frame
import proofs.«414128_j58780922413723_3_alg».proof.Proof.Gen.ReferenceIdeal
import proofs.«414128_j58780922413723_3_alg».proof.Proof.Gen.ReferenceIdeal.Run
import proofs.«414128_j58780922413723_3_alg».proof.Proof.Gen.Pre_finite_inputs
import proofs.«414128_j58780922413723_3_alg».proof.Proof.KRun
import proofs.«414128_j58780922413723_3_alg».proof.Proof.WChain
import proofs.«414128_j58780922413723_3_alg».proof.Proof.Conn
import proofs.«414128_j58780922413723_3_alg».proof.Proof.RRun
import proofs.«414128_j58780922413723_3_alg».proof.Proof.PreRange
import Idealize.ShloMosaic.Adequacy
import Idealize.ShloMosaic.Init

noncomputable section

namespace Cert.Proof

open Idealize.ShloMosaic Idealize.ShloMosaic.StableHlo Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, with every edge index inside the table, both programs end at the two
    phases in turn of the launch contents. -/
theorem algebraic : Cert.algebraic_KernelIdeal_ReferenceIdeal := by
  intro m ρ m' ρ' hpre hagree
  have hr := fun c : Dev Cert.KernelIdeal.nD => Cert.PreRange.ranged_of_pre _ _ _ _ _ _ _ _ _ _ _ _ (hpre c)
  refine ⟨fun c => Cert.ReferenceIdeal.TGN.outMem (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.TGN.outLu (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2.1.trans ?_, (h c).2.2⟩)
      (Cert.KernelIdeal.Gen.run_results m ρ)
    · exact (Cert.KernelIdeal.Gen.W5_out0 m ρ c).trans
        (Cert.KernelIdeal.TGN.kOutMem_eq _ _ _ _ _ _ _ _ _ _ _ _ (hr c).1 (hr c).2)
    · exact (Cert.KernelIdeal.Gen.W5_out1 m ρ c).trans (Cert.KernelIdeal.TGN.kOutLu_eq _ _ _ _)
  · refine (θ_run Cert.ReferenceIdeal.defs _ _).mono (fun r h c => ⟨(h c).1.trans ?_, (h c).2.1.trans ?_, (h c).2.2⟩)
      (Cert.ReferenceIdeal.Value.run (F := Ideal) m' ρ')
    · refine ((Cert.ReferenceIdeal.Value.val4_main_v178 (launchContents m' c)).symm.trans
        (Cert.ReferenceIdeal.TGN.out_mem (launchContents m' c))).trans ?_
      obtain ⟨h0, h1, h2, h3, h4, h5, h6, h7, h8, h9, h10, h11⟩ := hagree c
      show Cert.ReferenceIdeal.TGN.outMem (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [h0, h1, h2, h3, h4, h5, h6, h7, h8, h9, h10, h11]
    · refine ((Cert.ReferenceIdeal.Value.val4_main_v185 (launchContents m' c)).symm.trans
        (Cert.ReferenceIdeal.TGN.out_lu (launchContents m' c))).trans ?_
      obtain ⟨h0, h1, h2, h3, h4, h5, h6, h7, h8, h9, h10, h11⟩ := hagree c
      show Cert.ReferenceIdeal.TGN.outLu (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [h1, h2, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
